-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x19x512x512 : Shape := ⟨4, ![8, 19, 512, 512]⟩
abbrev S8x512x512 : Shape := ⟨3, ![8, 512, 512]⟩
abbrev S_ : Shape := ⟨0, ![]⟩

class Facts : Prop where
  bcast_S_S8x19x512x512 : S_.BroadcastsInDim S8x19x512x512 (![] : Fin 0 → Fin S8x19x512x512.rank)
  reducesTo_S8x19x512x512_S_d0_1_2_3 : S8x19x512x512.ReducesTo [0, 1, 2, 3] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_

variable [Facts]

def fn {F : FTy → Type} [FloatOps F] (main_arg0 : FVec F S8x19x512x512 .f32) (main_arg1 : IVec S8x512x512 32) : IVec S_ 1 :=
  let main_v0 : FVec F S8x19x512x512 .f32 := Host.absf main_arg0
  let main_cst : FVec F S_ .f32 := constant S_ .f32 0x7F800000#32
  let main_v1 : FVec F S8x19x512x512 .f32 := broadcastInDim S8x19x512x512 ![] bcast_S_S8x19x512x512 main_cst
  let main_v2 : IVec S8x19x512x512 1 := cmpf .olt main_v0 main_v1
  let main_c : IVec S_ 1 := constantI S_ 1 1#1
  let main_v3 : IVec S_ 1 := (fun x v => Host.reduce IntOp.andi x v reducesTo_S8x19x512x512_S_d0_1_2_3 h_S_) main_v2 main_c
  let main_c_0 : IVec S_ 32 := constantI S_ 32 19#32
  let main_v4 : IVec S8x512x512 32 := broadcastInDim S8x512x512 ![] bcast_S_S8x512x512 main_c_0
  let main_v5 : IVec S8x512x512 1 := cmpi .slt main_arg1 main_v4
  let main_c_1 : IVec S_ 1 := constantI S_ 1 1#1
  let main_v6 : IVec S_ 1 := (fun x v => Host.reduce IntOp.andi x v reducesTo_S8x512x512_S_d0_1_2 h_S_) main_v5 main_c_1
  let main_v7 : IVec S_ 1 := andi main_v3 main_v6
  main_v7
-- ==== Kernel.lean ====
abbrev S8x19x512x512 : Shape := ⟨4, ![8, 19, 512, 512]⟩
abbrev S8x512x512 : Shape := ⟨3, ![8, 512, 512]⟩
abbrev S8x19x1x1 : Shape := ⟨4, ![8, 19, 1, 1]⟩
abbrev S1x19x128x512 : Shape := ⟨4, ![1, 19, 128, 512]⟩
abbrev S1x128x512 : Shape := ⟨3, ![1, 128, 512]⟩
abbrev S1x19x1x1 : Shape := ⟨4, ![1, 19, 1, 1]⟩
abbrev S1x1x128x512 : Shape := ⟨4, ![1, 1, 128, 512]⟩
abbrev S1x19x128 : Shape := ⟨3, ![1, 19, 128]⟩
abbrev S1x19x128x1 : Shape := ⟨4, ![1, 19, 128, 1]⟩
abbrev S1x19x1 : Shape := ⟨3, ![1, 19, 1]⟩
abbrev S8x19 : Shape := ⟨2, ![8, 19]⟩
abbrev S_ : Shape := ⟨0, ![]⟩
abbrev S19 : Shape := ⟨1, ![19]⟩

abbrev nBuf : Space → Nat
  | .hbm => 33
  | .vmem => 10
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S8x19x1x1, .f32⟩
  | .hbm, ⟨3, _⟩ => ⟨S8x19x1x1, .f32⟩
  | .hbm, ⟨4, _⟩ => ⟨S8x19, .f32⟩
  | .hbm, ⟨5, _⟩ => ⟨S_, .f32⟩
  | .hbm, ⟨6, _⟩ => ⟨S19, .f32⟩
  | .hbm, ⟨7, _⟩ => ⟨S8x19, .f32⟩
  | .hbm, ⟨8, _⟩ => ⟨S_, .f32⟩
  | .hbm, ⟨9, _⟩ => ⟨S19, .f32⟩
  | .hbm, ⟨10, _⟩ => ⟨S_, .f32⟩
  | .hbm, ⟨11, _⟩ => ⟨S19, .f32⟩
  | .hbm, ⟨12, _⟩ => ⟨S19, .f32⟩
  | .hbm, ⟨13, _⟩ => ⟨S_, .f32⟩
  | .hbm, ⟨14, _⟩ => ⟨S19, .f32⟩
  | .hbm, ⟨15, _⟩ => ⟨S19, .f32⟩
  | .hbm, ⟨16, _⟩ => ⟨S_, .f32⟩
  | .hbm, ⟨17, _⟩ => ⟨S19, .f32⟩
  | .hbm, ⟨18, _⟩ => ⟨S19, .f32⟩
  | .hbm, ⟨19, _⟩ => ⟨S_, .f32⟩
  | .hbm, ⟨20, _⟩ => ⟨S19, .f32⟩
  | .hbm, ⟨21, _⟩ => ⟨S19, .i1⟩
  | .hbm, ⟨22, _⟩ => ⟨S_, .f32⟩
  | .hbm, ⟨23, _⟩ => ⟨S_, .f32⟩
  | .hbm, ⟨24, _⟩ => ⟨S19, .f32⟩
  | .hbm, ⟨25, _⟩ => ⟨S19, .f32⟩
  | .hbm, ⟨26, _⟩ => ⟨S19, .f32⟩
  | .hbm, ⟨27, _⟩ => ⟨S_, .f32⟩
  | .hbm, ⟨28, _⟩ => ⟨S_, .f32⟩
  | .hbm, ⟨29, _⟩ => ⟨S19, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S1x19x128x512, .f32⟩
  | .local _ .vmem, ⟨1, _⟩ => ⟨S1x19x128x512, .f32⟩
  | .local _ .vmem, ⟨2, _⟩ => ⟨S1x128x512, .i32⟩
  | .local _ .vmem, ⟨3, _⟩ => ⟨S1x128x512, .i32⟩
  | .local _ .vmem, ⟨4, _⟩ => ⟨S1x19x1x1, .f32⟩
  | .local _ .vmem, ⟨5, _⟩ => ⟨S1x19x1x1, .f32⟩
  | .local _ .vmem, ⟨6, _⟩ => ⟨S1x19x1x1, .f32⟩
  | .local _ .vmem, ⟨7, _⟩ => ⟨S1x19x1x1, .f32⟩
  | .local _ .vmem, ⟨8, _⟩ => ⟨S1x19x1x1, .f32⟩
  | .local _ .vmem, ⟨9, _⟩ => ⟨S1x19x1x1, .f32⟩
  | _, _ => ⟨S8x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_cst_5 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_v14 : Ref sig .tc := ⟨.hbm, 26, rfl⟩
abbrev main_cst_6 : Ref sig .tc := ⟨.hbm, 27, rfl⟩
abbrev main_v15 : Ref sig .tc := ⟨.hbm, 28, rfl⟩
abbrev main_v16 : Ref sig .tc := ⟨.hbm, 29, rfl⟩
abbrev main_cst_7 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v59 : BitVec 1 := Scalar.cmpi .eq arg1 c3_i32
  let v60 : BitVec 32 := Scalar.extui v59
  let c0_i32_34 : BitVec 32 := 0#32
  let v61 : BitVec 1 := Scalar.cmpi .ne v60 c0_i32_34
  v61

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x19x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x19x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x19x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x19x1x1_S1x19x1x1_0_0_0_0 : ∀ a, (![0, 0, 0, 0] : Fin 4 → Nat) a + S1x19x1x1.size a ≤ S1x19x1x1.size a
  h_S1x19x1x1 : 0 < S1x19x1x1.numel
  shapeCasts_S1x19x1x1_S1x19x1x1 : S1x19x1x1.ShapeCasts S1x19x1x1
  inb_S1x19x128x512_S1x19x128x512_0_0_0_0 : ∀ a, (![0, 0, 0, 0] : Fin 4 → Nat) a + S1x19x128x512.size a ≤ S1x19x128x512.size a
  h_S1x19x128x512 : 0 < S1x19x128x512.numel
  inb_S1x128x512_S1x128x512_0_0_0 : ∀ a, (![0, 0, 0] : Fin 3 → Nat) a + S1x128x512.size a ≤ S1x128x512.size a
  h_S1x128x512 : 0 < S1x128x512.numel
  reduces_S1x19x128x512_S1x128x512 : S1x19x128x512.Reduces [1] S1x128x512
  shapeCasts_S1x128x512_S1x1x128x512 : S1x128x512.ShapeCasts S1x1x128x512
  broadcasts_S1x1x128x512_S1x19x128x512 : S1x1x128x512.Broadcasts S1x19x128x512
  natLt_1_32 : 1 < 32
  iota_S1x19x128x512_d1_w32 : S1x19x128x512.Iotas .tc 32 [1]
  shapeCasts_S1x1x128x512_S1x1x128x512 : S1x1x128x512.ShapeCasts S1x1x128x512
  reduces_S1x19x128x512_S1x19x128 : S1x19x128x512.Reduces [3] S1x19x128
  shapeCasts_S1x19x128_S1x19x128x1 : S1x19x128.ShapeCasts S1x19x128x1
  reduces_S1x19x128x1_S1x19x1 : S1x19x128x1.Reduces [2] S1x19x1
  shapeCasts_S1x19x1_S1x19x1x1 : S1x19x1.ShapeCasts S1x19x1x1
  shapeCasts_S8x19x1x1_S8x19 : S8x19x1x1.ShapeCasts S8x19
  reducesTo_S8x19_S19_d0 : S8x19.ReducesTo [0] S19
  h_S_ : 0 < S_.numel
  bcast_S_S19 : S_.BroadcastsInDim S19 (![] : Fin 0 → Fin S19.rank)
  reducesTo_S19_S_d0 : S19.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x128x512.size a ≤ S8x19x512x512.size a
  hwx0_0 : ∀ i : grid0.Coords, EltTy.bits .f32 = 32 ∨ (Rect.block (s := S8x19x512x512) S1x19x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S8x512x512.size a
  hwx0_1 : ∀ i : grid0.Coords, EltTy.bits .i32 = 32 ∨ (Rect.block (s := S8x512x512) S1x128x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x19x1x1.size a ≤ S8x19x1x1.size a
  hwx0_2 : ∀ i : grid0.Coords, EltTy.bits .f32 = 32 ∨ (Rect.block (s := S8x19x1x1) S1x19x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x19x1x1.size a ≤ S8x19x1x1.size a
  hwx0_3 : ∀ i : grid0.Coords, EltTy.bits .f32 = 32 ∨ (Rect.block (s := S8x19x1x1) S1x19x1x1.size (cc0_transform_3 i) (hinb0_3 i)).WholeWords (EltTy.packing .f32)

variable [Facts₀]

abbrev win0_0 : Pipeline.Window sig grid0 :=
  Pipeline.Window.ofSpec (Memref.whole main_arg0) S1x19x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x19x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x19x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x19x512x512 : Shape := ⟨4, ![8, 19, 512, 512]⟩
abbrev S8x512x512 : Shape := ⟨3, ![8, 512, 512]⟩
abbrev S_ : Shape := ⟨0, ![]⟩
abbrev S19 : Shape := ⟨1, ![19]⟩
abbrev S2097152 : Shape := ⟨1, ![2097152]⟩
abbrev S2097152x1 : Shape := ⟨2, ![2097152, 1]⟩
abbrev S8x1x512x512 : Shape := ⟨4, ![8, 1, 512, 512]⟩
abbrev S8x1x512x512x1 : Shape := ⟨5, ![8, 1, 512, 512, 1]⟩
abbrev S1 : Shape := ⟨1, ![1]⟩
abbrev S1x1x1x1x1 : Shape := ⟨5, ![1, 1, 1, 1, 1]⟩
abbrev S8x512x512x1 : Shape := ⟨4, ![8, 512, 512, 1]⟩

abbrev nBuf : Space → Nat
  | .hbm => 96
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S_, .i32⟩
  | .hbm, ⟨3, _⟩ => ⟨S8x512x512, .i32⟩
  | .hbm, ⟨4, _⟩ => ⟨S8x512x512, .i1⟩
  | .hbm, ⟨5, _⟩ => ⟨S_, .i32⟩
  | .hbm, ⟨6, _⟩ => ⟨S_, .i32⟩
  | .hbm, ⟨7, _⟩ => ⟨S8x512x512, .i32⟩
  | .hbm, ⟨8, _⟩ => ⟨S8x512x512, .i32⟩
  | .hbm, ⟨9, _⟩ => ⟨S_, .f32⟩
  | .hbm, ⟨10, _⟩ => ⟨S19, .f32⟩
  | .hbm, ⟨11, _⟩ => ⟨S2097152, .i32⟩
  | .hbm, ⟨12, _⟩ => ⟨S2097152, .i1⟩
  | .hbm, ⟨13, _⟩ => ⟨S2097152, .f32⟩
  | .hbm, ⟨14, _⟩ => ⟨S_, .i32⟩
  | .hbm, ⟨15, _⟩ => ⟨S2097152, .i32⟩
  | .hbm, ⟨16, _⟩ => ⟨S2097152, .i1⟩
  | .hbm, ⟨17, _⟩ => ⟨S_, .i32⟩
  | .hbm, ⟨18, _⟩ => ⟨S2097152, .i32⟩
  | .hbm, ⟨19, _⟩ => ⟨S2097152, .i32⟩
  | .hbm, ⟨20, _⟩ => ⟨S2097152, .i32⟩
  | .hbm, ⟨21, _⟩ => ⟨S2097152x1, .i32⟩
  | .hbm, ⟨22, _⟩ => ⟨S19, .f32⟩
  | .hbm, ⟨23, _⟩ => ⟨S_, .f32⟩
  | .hbm, ⟨24, _⟩ => ⟨S19, .f32⟩
  | .hbm, ⟨25, _⟩ => ⟨S19, .f32⟩
  | .hbm, ⟨26, _⟩ => ⟨S_, .f32⟩
  | .hbm, ⟨27, _⟩ => ⟨S19, .f32⟩
  | .hbm, ⟨28, _⟩ => ⟨S19, .f32⟩
  | .hbm, ⟨29, _⟩ => ⟨S_, .f32⟩
  | .hbm, ⟨30, _⟩ => ⟨S19, .f32⟩
  | .hbm, ⟨31, _⟩ => ⟨S19, .f32⟩
  | .hbm, ⟨32, _⟩ => ⟨S_, .f32⟩
  | .hbm, ⟨33, _⟩ => ⟨S19, .f32⟩
  | .hbm, ⟨34, _⟩ => ⟨S19, .i1⟩
  | .hbm, ⟨35, _⟩ => ⟨S_, .f32⟩
  | .hbm, ⟨36, _⟩ => ⟨S_, .f32⟩
  | .hbm, ⟨37, _⟩ => ⟨S19, .f32⟩
  | .hbm, ⟨38, _⟩ => ⟨S19, .f32⟩
  | .hbm, ⟨39, _⟩ => ⟨S_, .f32⟩
  | .hbm, ⟨40, _⟩ => ⟨S8x512x512, .f32⟩
  | .hbm, ⟨41, _⟩ => ⟨S_, .f32⟩
  | .hbm, ⟨42, _⟩ => ⟨S8x512x512, .f32⟩
  | .hbm, ⟨43, _⟩ => ⟨S8x512x512, .f32⟩
  | .hbm, ⟨44, _⟩ => ⟨S8x1x512x512, .f32⟩
  | .hbm, ⟨45, _⟩ => ⟨S8x19x512x512, .f32⟩
  | .hbm, ⟨46, _⟩ => ⟨S8x19x512x512, .f32⟩
  | .hbm, ⟨47, _⟩ => ⟨S8x19x512x512, .f32⟩
  | .hbm, ⟨48, _⟩ => ⟨S_, .f32⟩
  | .hbm, ⟨49, _⟩ => ⟨S8x512x512, .f32⟩
  | .hbm, ⟨50, _⟩ => ⟨S8x1x512x512, .f32⟩
  | .hbm, ⟨51, _⟩ => ⟨S8x1x512x512, .f32⟩
  | .hbm, ⟨52, _⟩ => ⟨S8x19x512x512, .f32⟩
  | .hbm, ⟨53, _⟩ => ⟨S8x19x512x512, .f32⟩
  | .hbm, ⟨54, _⟩ => ⟨S8x1x512x512, .i32⟩
  | .hbm, ⟨55, _⟩ => ⟨S_, .i32⟩
  | .hbm, ⟨56, _⟩ => ⟨S8x1x512x512, .i32⟩
  | .hbm, ⟨57, _⟩ => ⟨S8x1x512x512, .i1⟩
  | .hbm, ⟨58, _⟩ => ⟨S_, .i32⟩
  | .hbm, ⟨59, _⟩ => ⟨S8x1x512x512, .i32⟩
  | .hbm, ⟨60, _⟩ => ⟨S8x1x512x512, .i32⟩
  | .hbm, ⟨61, _⟩ => ⟨S8x1x512x512, .i32⟩
  | .hbm, ⟨62, _⟩ => ⟨S8x1x512x512x1, .i32⟩
  | .hbm, ⟨63, _⟩ => ⟨S1, .i32⟩
  | .hbm, ⟨64, _⟩ => ⟨S_, .i32⟩
  | .hbm, ⟨65, _⟩ => ⟨S8x1x512x512x1, .i32⟩
  | .hbm, ⟨66, _⟩ => ⟨S8x1x512x512x1, .i1⟩
  | .hbm, ⟨67, _⟩ => ⟨S1x1x1x1x1, .i32⟩
  | .hbm, ⟨68, _⟩ => ⟨S8x1x512x512x1, .i32⟩
  | .hbm, ⟨69, _⟩ => ⟨S8x1x512x512x1, .i1⟩
  | .hbm, ⟨70, _⟩ => ⟨S8x1x512x512x1, .i1⟩
  | .hbm, ⟨71, _⟩ => ⟨S_, .i1⟩
  | .hbm, ⟨72, _⟩ => ⟨S8x1x512x512, .i1⟩
  | .hbm, ⟨73, _⟩ => ⟨S8x1x512x512, .f32⟩
  | .hbm, ⟨74, _⟩ => ⟨S_, .f32⟩
  | .hbm, ⟨75, _⟩ => ⟨S8x1x512x512, .f32⟩
  | .hbm, ⟨76, _⟩ => ⟨S8x1x512x512, .f32⟩
  | .hbm, ⟨77, _⟩ => ⟨S8x512x512, .f32⟩
  | .hbm, ⟨78, _⟩ => ⟨S8x512x512, .f32⟩
  | .hbm, ⟨79, _⟩ => ⟨S_, .i32⟩
  | .hbm, ⟨80, _⟩ => ⟨S8x512x512, .i32⟩
  | .hbm, ⟨81, _⟩ => ⟨S8x512x512, .i1⟩
  | .hbm, ⟨82, _⟩ => ⟨S_, .i32⟩
  | .hbm, ⟨83, _⟩ => ⟨S8x512x512, .i32⟩
  | .hbm, ⟨84, _⟩ => ⟨S8x512x512, .i32⟩
  | .hbm, ⟨85, _⟩ => ⟨S8x512x512, .i32⟩
  | .hbm, ⟨86, _⟩ => ⟨S8x512x512x1, .i32⟩
  | .hbm, ⟨87, _⟩ => ⟨S8x512x512, .f32⟩
  | .hbm, ⟨88, _⟩ => ⟨S8x512x512, .f32⟩
  | .hbm, ⟨89, _⟩ => ⟨S8x512x512, .f32⟩
  | .hbm, ⟨90, _⟩ => ⟨S8x512x512, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v22 : Ref sig .tc := ⟨.hbm, 38, rfl⟩
abbrev main_call2_cst : Ref sig .tc := ⟨.hbm, 39, rfl⟩
abbrev main_call2_v0 : Ref sig .tc := ⟨.hbm, 40, rfl⟩
abbrev main_call2_cst_0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_cst_1 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_v23 : Ref sig .tc := ⟨.hbm, 53, rfl⟩
abbrev main_v24 : Ref sig .tc := ⟨.hbm, 54, rfl⟩
abbrev main_call3_c : Ref sig .tc := ⟨.hbm, 55, rfl⟩
abbrev main_call3_v0 : Ref sig .tc := ⟨.hbm, 56, rfl⟩
abbrev main_call3_v1 : Ref sig .tc := ⟨.hbm, 57, rfl⟩
abbrev main_call3_c_0 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_v5 : Ref sig .tc := ⟨.hbm, 62, rfl⟩
abbrev main_call3_c_1 : Ref sig .tc := ⟨.hbm, 63, rfl⟩
abbrev main_call3_c_2 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_call3_c_3 : Ref sig .tc := ⟨.hbm, 71, rfl⟩
abbrev main_call3_v12 : Ref sig .tc := ⟨.hbm, 72, rfl⟩
abbrev main_call3_v13 : Ref sig .tc := ⟨.hbm, 73, rfl⟩
abbrev main_call3_cst : Ref sig .tc := ⟨.hbm, 74, rfl⟩
abbrev main_call3_v14 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_c_8 : Ref sig .tc := ⟨.hbm, 79, rfl⟩
abbrev main_v28 : Ref sig .tc := ⟨.hbm, 80, rfl⟩
abbrev main_v29 : Ref sig .tc := ⟨.hbm, 81, rfl⟩
abbrev main_c_9 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_cst_10 : Ref sig .tc := ⟨.hbm, 91, rfl⟩
abbrev main_v38 : Ref sig .tc := ⟨.hbm, 92, rfl⟩
abbrev main_cst_11 : Ref sig .tc := ⟨.hbm, 93, rfl⟩
abbrev main_v39 : Ref sig .tc := ⟨.hbm, 94, rfl⟩
abbrev main_v40 : Ref sig .tc := ⟨.hbm, 95, rfl⟩

abbrev nD : Nat := 1
abbrev τ : Topo := Topo.v7x

variable {F : FTy → Type} [FloatOps F]

class Facts₀ : Prop where
  bcast_S_S8x512x512 : S_.BroadcastsInDim S8x512x512 (![] : Fin 0 → Fin S8x512x512.rank)
  bcast_S_S19 : S_.BroadcastsInDim S19 (![] : Fin 0 → Fin S19.rank)
  shapeCasts_S8x512x512_S2097152 : S8x512x512.ShapeCasts S2097152
  bcast_S_S2097152 : S_.BroadcastsInDim S2097152 (![] : Fin 0 → Fin S2097152.rank)
  bcast_S2097152_S2097152x1_0 : S2097152.BroadcastsInDim S2097152x1 (![0] : Fin 1 → Fin S2097152x1.rank)
  reducesTo_S8x19x512x512_S8x512x512_d1 : S8x19x512x512.ReducesTo [1] S8x512x512
  h_S_ : 0 < S_.numel
  bcast_S8x512x512_S8x1x512x512_0_2_3 : S8x512x512.BroadcastsInDim S8x1x512x512 (![0, 2, 3] : Fin 3 → Fin S8x1x512x512.rank)
  bcast_S8x1x512x512_S8x19x512x512_0_1_2_3 : S8x1x512x512.BroadcastsInDim S8x19x512x512 (![0, 1, 2, 3] : Fin 4 → Fin S8x19x512x512.rank)
  bcast_S_S8x1x512x512 : S_.BroadcastsInDim S8x1x512x512 (![] : Fin 0 → Fin S8x1x512x512.rank)
  shapeCasts_S8x1x512x512_S8x1x512x512x1 : S8x1x512x512.ShapeCasts S8x1x512x512x1
  bcast_S_S8x1x512x512x1 : S_.BroadcastsInDim S8x1x512x512x1 (![] : Fin 0 → Fin S8x1x512x512x1.rank)
  bcast_S1_S1x1x1x1x1_4 : S1.BroadcastsInDim S1x1x1x1x1 (![4] : Fin 1 → Fin S1x1x1x1x1.rank)
  bcast_S1x1x1x1x1_S8x1x512x512x1_0_1_2_3_4 : S1x1x1x1x1.BroadcastsInDim S8x1x512x512x1 (![0, 1, 2, 3, 4] : Fin 5 → Fin S8x1x512x512x1.rank)
  reducesTo_S8x1x512x512x1_S8x1x512x512_d4 : S8x1x512x512x1.ReducesTo [4] S8x1x512x512
  shapeCasts_S8x1x512x512_S8x512x512 : S8x1x512x512.ShapeCasts S8x512x512
  bcast_S8x512x512_S8x512x512x1_0_1_2 : S8x512x512.BroadcastsInDim S8x512x512x1 (![0, 1, 2] : Fin 3 → Fin S8x512x512x1.rank)
  reducesTo_S8x512x512_S_d0_1_2 : S8x512x512.ReducesTo [0, 1, 2] S_
  scatter_S19_S2097152x1_S2097152_n_0_0_1_wf : ScatterDims.WF S19 S2097152x1 S2097152 [] [0] [0] 1
  gather_S8x19x512x512_S8x1x512x512x1_S8x1x512x512_n_1_023_023_1_4_1111_wf : GatherDims.WF S8x19x512x512 S8x1x512x512x1 S8x1x512x512 [] [1] [0, 2, 3] [1] [0, 2, 3] 4 ![1, 1, 1, 1]
  gather_S19_S8x512x512x1_S8x512x512_n_0_n_n_0_3_1_wf : GatherDims.WF S19 S8x512x512x1 S8x512x512 [] [0] [] [0] [] 3 ![1]

variable [Facts₀]

def scatter_S19_S2097152x1_S2097152_n_0_0_1 : ScatterDims S19 S2097152x1 S2097152 where
  updateWindowDims := []
  insertedWindowDims := [0]
  scatterDimsToOperandDims := [0]
  indexVectorDim := 1
  wf := scatter_S19_S2097152x1_S2097152_n_0_0_1_wf
def gather_S8x19x512x512_S8x1x512x512x1_S8x1x512x512_n_1_023_023_1_4_1111 : GatherDims S8x19x512x512 S8x1x512x512x1 S8x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x19x512x512_S8x1x512x512x1_S8x1x512x512_n_1_023_023_1_4_1111_wf
def gather_S19_S8x512x512x1_S8x512x512_n_0_n_n_0_3_1 : GatherDims S19 S8x512x512x1 S8x512x512 where
  offsetDims := []
  collapsedSliceDims := [0]
  operandBatchingDims := []
  startIndicesBatchingDims := []
  startIndexMap := [0]
  indexVectorDim := 3
  sliceSizes := ![1]
  wf := gather_S19_S8x512x512x1_S8x512x512_n_0_n_n_0_3_1_wf

class Facts : Prop extends Facts₀ where

variable [Facts]
-- ==== Proof.RefRunArgs.lean ====
/-
  None of the reference program's 94 operations writes either argument array: after all of them the two arguments hold what
  they held.
-/
import proofs.«410359_j30545807409282_3_alg».proof.Proof.RefRunP
import Idealize.ShloMosaic.Lib.StableHlo.Run

noncomputable section

namespace Cert.CE

open Cert.ReferenceIdeal Cert.ReferenceIdeal.Gen Idealize.ShloMosaic Idealize.ShloMosaic.TcCoe Idealize.SL.Sem Idealize.ShloMosaic.StableHlo

variable {F : FTy → Type} [FloatOps F]

/-- The first argument after the program's operations. -/
theorem after_ops_arg0 (V : Valuation τ sig (Elt F)) :
    StableHlo.after (Cert.ReferenceIdeal.Value.ops (F := F)) V (Proc.devRef .tc main_arg0) = V (Proc.devRef .tc main_arg0) := by
  after_results_simp <;> rfl

/-- The second argument after the program's operations. -/
theorem after_ops_arg1 (V : Valuation τ sig (Elt F)) :
    StableHlo.after (Cert.ReferenceIdeal.Value.ops (F := F)) V (Proc.devRef .tc main_arg1) = V (Proc.devRef .tc main_arg1) := by
  after_results_simp <;> rfl

end Cert.CE

end
-- ==== Proof.RefRunSteps.lean ====
/-
  The reference program's 94 operations in program order, cut into 13 stretches where few buffers are still to be
  read, and what each stretch leaves. From any contents W that hold, at the buffers still to be read, the stages'
  values of the arguments x0 and x1, a stretch ends with the stages' values at the buffers read after it: a buffer the
  stretch writes holds its operation applied to its operands' contents, which is the stage's one-line definition; a
  buffer it does not write holds what it held. No operation of a stretch leaves a result undetermined.
-/
import proofs.«410359_j30545807409282_3_alg».proof.Proof.RefRunP
import proofs.«410359_j30545807409282_3_alg».proof.Proof.RefReadP
import Idealize.ShloMosaic.Lib.StableHlo.Run

noncomputable section

namespace Cert.CE

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 1 to 7. -/
def stretch1 : List (HloOp τ sig (Elt F)) :=
  [ nullary main_c (constantI S_ 32 0#32),
    unary main_c main_v0 (broadcastInDim S8x512x512 ![] bcast_S_S8x512x512 : (⟨S_, .i32⟩ : BufTy).Contents (Elt F) → (⟨S8x512x512, .i32⟩ : BufTy).Contents (Elt F)),
    binary main_arg1 main_v0 main_v1 (cmpi .sge : (⟨S8x512x512, .i32⟩ : BufTy).Contents (Elt F) → (⟨S8x512x512, .i32⟩ : BufTy).Contents (Elt F) → (⟨S8x512x512, .i1⟩ : BufTy).Contents (Elt F)),
    nullary main_c_0 (constantI S_ 32 0#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S8x512x512, .i32⟩) main_call0_v1) (broadcastInDim S8x512x512 ![] bcast_S_S8x512x512),
    TRef.ternary (TRef.of (T := ⟨S8x512x512, .i1⟩) main_v1) (TRef.of (T := ⟨S8x512x512, .i32⟩) main_arg1) (TRef.of (T := ⟨S8x512x512, .i32⟩) main_call0_v1) (TRef.of (T := ⟨S8x512x512, .i32⟩) main_v2) select ]

theorem stretch1_fresh : ∀ op ∈ stretch1 (F := F), op.fresh = ∅ := by
  intro _ h; unfold stretch1 at h; (repeat (cases h with | head => rfl | tail _ h => ?_)); exact nomatch h

theorem stretch1_run (W : Valuation τ sig (Elt F)) (x0 : (⟨S8x19x512x512, .f32⟩ : BufTy).Contents (Elt F)) (x1 : (⟨S8x512x512, .i32⟩ : BufTy).Contents (Elt F))
    (h_arg0 : W (Proc.devRef .tc main_arg0) = x0)
    (h_arg1 : W (Proc.devRef .tc main_arg1) = x1) :
    after (stretch1 (F := F)) W (Proc.devRef .tc main_arg0) = x0
      ∧ after (stretch1 (F := F)) W (Proc.devRef .tc main_v1) = val_main_v1 (F := F) x1
      ∧ after (stretch1 (F := F)) W (Proc.devRef .tc main_v2) = val_main_v2 (F := F) x1 := by
  refine ⟨?_, ?_, ?_⟩
  · unfold stretch1; after_results; exact h_arg0
  · unfold stretch1; after_results
    rw [h_arg1]
    rfl
  · unfold stretch1; after_results
    simp only [TRef.ofBuf, TRef.toBuf, cast_eq]
    rw [h_arg1]
    rfl

/-- Operations 8 to 12. -/
def stretch2 : List (HloOp τ sig (Elt F)) :=
  [ nullary main_cst (constant S_ .f32 0x00000000#32),
    unary main_cst main_v3 (broadcastInDim S19 ![] bcast_S_S19 : (⟨S_, .f32⟩ : BufTy).Contents (Elt F) → (⟨S19, .f32⟩ : BufTy).Contents (Elt F)),
    reshape main_v2 main_v4 rfl shapeCasts_S8x512x512_S2097152,
    reshape main_v1 main_v5 rfl shapeCasts_S8x512x512_S2097152,
    unary main_v5 main_v6 (uitofp (F := F) .f32 : (⟨S2097152, .i1⟩ : BufTy).Contents (Elt F) → (⟨S2097152, .f32⟩ : BufTy).Contents (Elt F)) ]

theorem stretch2_fresh : ∀ op ∈ stretch2 (F := F), op.fresh = ∅ := by
  intro _ h; unfold stretch2 at h; (repeat (cases h with | head => rfl | tail _ h => ?_)); exact nomatch h

theorem stretch2_run (W : Valuation τ sig (Elt F)) (x0 : (⟨S8x19x512x512, .f32⟩ : BufTy).Contents (Elt F)) (x1 : (⟨S8x512x512, .i32⟩ : BufTy).Contents (Elt F))
    (h_arg0 : W (Proc.devRef .tc main_arg0) = x0)
    (h_v1 : W (Proc.devRef .tc main_v1) = val_main_v1 (F := F) x1)
    (h_v2 : W (Proc.devRef .tc main_v2) = val_main_v2 (F := F) x1) :
    after (stretch2 (F := F)) W (Proc.devRef .tc main_arg0) = x0
      ∧ after (stretch2 (F := F)) W (Proc.devRef .tc main_v1) = val_main_v1 (F := F) x1
      ∧ after (stretch2 (F := F)) W (Proc.devRef .tc main_v2) = val_main_v2 (F := F) x1
      ∧ after (stretch2 (F := F)) W (Proc.devRef .tc main_v3) = val_main_v3 (F := F)
      ∧ after (stretch2 (F := F)) W (Proc.devRef .tc main_v4) = val_main_v4 (F := F) x1
      ∧ after (stretch2 (F := F)) W (Proc.devRef .tc main_v6) = val_main_v6 (F := F) x1 := by
  refine ⟨?_, ?_, ?_, ?_, ?_, ?_⟩
  · unfold stretch2; after_results; exact h_arg0
  · unfold stretch2; after_results; exact h_v1
  · unfold stretch2; after_results; exact h_v2
  · unfold stretch2; after_results
    rfl
  · unfold stretch2; after_results
    rw [h_v2]
    rfl
  · unfold stretch2; after_results
    rw [h_v1]
    rfl

/-- Operations 13 to 21. -/
def stretch3 : List (HloOp τ sig (Elt F)) :=
  [ nullary main_c_1 (constantI S_ 32 0#32),
    unary main_c_1 main_v7 (broadcastInDim S2097152 ![] bcast_S_S2097152 : (⟨S_, .i32⟩ : BufTy).Contents (Elt F) → (⟨S2097152, .i32⟩ : BufTy).Contents (Elt F)),
    binary main_v4 main_v7 main_v8 (cmpi .slt : (⟨S2097152, .i32⟩ : BufTy).Contents (Elt F) → (⟨S2097152, .i32⟩ : BufTy).Contents (Elt F) → (⟨S2097152, .i1⟩ : BufTy).Contents (Elt F)),
    nullary main_c_2 (constantI S_ 32 19#32),
    unary main_c_2 main_v9 (broadcastInDim S2097152 ![] bcast_S_S2097152 : (⟨S_, .i32⟩ : BufTy).Contents (Elt F) → (⟨S2097152, .i32⟩ : BufTy).Contents (Elt F)),
    binary main_v4 main_v9 main_v10 (addi : (⟨S2097152, .i32⟩ : BufTy).Contents (Elt F) → (⟨S2097152, .i32⟩ : BufTy).Contents (Elt F) → (⟨S2097152, .i32⟩ : BufTy).Contents (Elt F)),
    ternary main_v8 main_v10 main_v4 main_v11 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v11 main_v12 (broadcastInDim S2097152x1 ![0] bcast_S2097152_S2097152x1_0 : (⟨S2097152, .i32⟩ : BufTy).Contents (Elt F) → (⟨S2097152x1, .i32⟩ : BufTy).Contents (Elt F)),
    ternary main_v3 main_v12 main_v6 main_v13 ((fun x i u => Host.scatterAdd scatter_S19_S2097152x1_S2097152_n_0_0_1 x i u) : (⟨S19, .f32⟩ : BufTy).Contents (Elt F) → (⟨S2097152x1, .i32⟩ : BufTy).Contents (Elt F) → (⟨S2097152, .f32⟩ : BufTy).Contents (Elt F) → (⟨S19, .f32⟩ : BufTy).Contents (Elt F)) ]

theorem stretch3_fresh : ∀ op ∈ stretch3 (F := F), op.fresh = ∅ := by
  intro _ h; unfold stretch3 at h; (repeat (cases h with | head => rfl | tail _ h => ?_)); exact nomatch h

theorem stretch3_run (W : Valuation τ sig (Elt F)) (x0 : (⟨S8x19x512x512, .f32⟩ : BufTy).Contents (Elt F)) (x1 : (⟨S8x512x512, .i32⟩ : BufTy).Contents (Elt F))
    (h_arg0 : W (Proc.devRef .tc main_arg0) = x0)
    (h_v1 : W (Proc.devRef .tc main_v1) = val_main_v1 (F := F) x1)
    (h_v2 : W (Proc.devRef .tc main_v2) = val_main_v2 (F := F) x1)
    (h_v3 : W (Proc.devRef .tc main_v3) = val_main_v3 (F := F))
    (h_v4 : W (Proc.devRef .tc main_v4) = val_main_v4 (F := F) x1)
    (h_v6 : W (Proc.devRef .tc main_v6) = val_main_v6 (F := F) x1) :
    after (stretch3 (F := F)) W (Proc.devRef .tc main_arg0) = x0
      ∧ after (stretch3 (F := F)) W (Proc.devRef .tc main_v1) = val_main_v1 (F := F) x1
      ∧ after (stretch3 (F := F)) W (Proc.devRef .tc main_v2) = val_main_v2 (F := F) x1
      ∧ after (stretch3 (F := F)) W (Proc.devRef .tc main_v13) = val_main_v13 (F := F) x1 := by
  refine ⟨?_, ?_, ?_, ?_⟩
  · unfold stretch3; after_results; exact h_arg0
  · unfold stretch3; after_results; exact h_v1
  · unfold stretch3; after_results; exact h_v2
  · unfold stretch3; after_results
    rw [h_v3, h_v4, h_v6]
    rfl

/-- Operations 22 to 30. -/
def stretch4 : List (HloOp τ sig (Elt F)) :=
  [ nullary main_cst_3 (constant S_ .f32 0x3F7FBE77#32),
    unary main_cst_3 main_v14 (broadcastInDim S19 ![] bcast_S_S19 : (⟨S_, .f32⟩ : BufTy).Contents (Elt F) → (⟨S19, .f32⟩ : BufTy).Contents (Elt F)),
    binary main_v14 main_v13 main_v15 (Host.powf : (⟨S19, .f32⟩ : BufTy).Contents (Elt F) → (⟨S19, .f32⟩ : BufTy).Contents (Elt F) → (⟨S19, .f32⟩ : BufTy).Contents (Elt F)),
    nullary main_cst_4 (constant S_ .f32 0x3F800000#32),
    unary main_cst_4 main_v16 (broadcastInDim S19 ![] bcast_S_S19 : (⟨S_, .f32⟩ : BufTy).Contents (Elt F) → (⟨S19, .f32⟩ : BufTy).Contents (Elt F)),
    binary main_v16 main_v15 main_v17 (subf : (⟨S19, .f32⟩ : BufTy).Contents (Elt F) → (⟨S19, .f32⟩ : BufTy).Contents (Elt F) → (⟨S19, .f32⟩ : BufTy).Contents (Elt F)),
    nullary main_cst_5 (constant S_ .f32 0x3A83126F#32),
    unary main_cst_5 main_v18 (broadcastInDim S19 ![] bcast_S_S19 : (⟨S_, .f32⟩ : BufTy).Contents (Elt F) → (⟨S19, .f32⟩ : BufTy).Contents (Elt F)),
    binary main_v18 main_v17 main_v19 (Host.divf : (⟨S19, .f32⟩ : BufTy).Contents (Elt F) → (⟨S19, .f32⟩ : BufTy).Contents (Elt F) → (⟨S19, .f32⟩ : BufTy).Contents (Elt F)) ]

theorem stretch4_fresh : ∀ op ∈ stretch4 (F := F), op.fresh = ∅ := by
  intro _ h; unfold stretch4 at h; (repeat (cases h with | head => rfl | tail _ h => ?_)); exact nomatch h

theorem stretch4_run (W : Valuation τ sig (Elt F)) (x0 : (⟨S8x19x512x512, .f32⟩ : BufTy).Contents (Elt F)) (x1 : (⟨S8x512x512, .i32⟩ : BufTy).Contents (Elt F))
    (h_arg0 : W (Proc.devRef .tc main_arg0) = x0)
    (h_v1 : W (Proc.devRef .tc main_v1) = val_main_v1 (F := F) x1)
    (h_v2 : W (Proc.devRef .tc main_v2) = val_main_v2 (F := F) x1)
    (h_v13 : W (Proc.devRef .tc main_v13) = val_main_v13 (F := F) x1) :
    after (stretch4 (F := F)) W (Proc.devRef .tc main_arg0) = x0
      ∧ after (stretch4 (F := F)) W (Proc.devRef .tc main_v1) = val_main_v1 (F := F) x1
      ∧ after (stretch4 (F := F)) W (Proc.devRef .tc main_v2) = val_main_v2 (F := F) x1
      ∧ after (stretch4 (F := F)) W (Proc.devRef .tc main_v13) = val_main_v13 (F := F) x1
      ∧ after (stretch4 (F := F)) W (Proc.devRef .tc main_v19) = val_main_v19 (F := F) x1 := by
  refine ⟨?_, ?_, ?_, ?_, ?_⟩
  · unfold stretch4; after_results; exact h_arg0
  · unfold stretch4; after_results; exact h_v1
  · unfold stretch4; after_results; exact h_v2
  · unfold stretch4; after_results; exact h_v13
  · unfold stretch4; after_results
    rw [h_v13]
    rfl

/-- Operations 31 to 37. -/
def stretch5 : List (HloOp τ sig (Elt F)) :=
  [ nullary main_cst_6 (constant S_ .f32 0x00000000#32),
    unary main_cst_6 main_v20 (broadcastInDim S19 ![] bcast_S_S19 : (⟨S_, .f32⟩ : BufTy).Contents (Elt F) → (⟨S19, .f32⟩ : BufTy).Contents (Elt F)),
    binary main_v13 main_v20 main_v21 (cmpf (F := F) .ogt : (⟨S19, .f32⟩ : BufTy).Contents (Elt F) → (⟨S19, .f32⟩ : BufTy).Contents (Elt F) → (⟨S19, .i1⟩ : BufTy).Contents (Elt F)),
    nullary main_cst_7 (constant S_ .f32 0x00000000#32),
    TRef.unary (TRef.of (T := ⟨S_, .f32⟩) main_cst_7) (TRef.of (T := ⟨S_, .f32⟩) main_call1_v0) id,
    TRef.unary (TRef.of (T := ⟨S_, .f32⟩) main_call1_v0) (TRef.of (T := ⟨S19, .f32⟩) main_call1_v1) (broadcastInDim S19 ![] bcast_S_S19),
    TRef.ternary (TRef.of (T := ⟨S19, .i1⟩) main_v21) (TRef.of (T := ⟨S19, .f32⟩) main_v19) (TRef.of (T := ⟨S19, .f32⟩) main_call1_v1) (TRef.of (T := ⟨S19, .f32⟩) main_v22) select ]

theorem stretch5_fresh : ∀ op ∈ stretch5 (F := F), op.fresh = ∅ := by
  intro _ h; unfold stretch5 at h; (repeat (cases h with | head => rfl | tail _ h => ?_)); exact nomatch h

theorem stretch5_run (W : Valuation τ sig (Elt F)) (x0 : (⟨S8x19x512x512, .f32⟩ : BufTy).Contents (Elt F)) (x1 : (⟨S8x512x512, .i32⟩ : BufTy).Contents (Elt F))
    (h_arg0 : W (Proc.devRef .tc main_arg0) = x0)
    (h_v1 : W (Proc.devRef .tc main_v1) = val_main_v1 (F := F) x1)
    (h_v2 : W (Proc.devRef .tc main_v2) = val_main_v2 (F := F) x1)
    (h_v13 : W (Proc.devRef .tc main_v13) = val_main_v13 (F := F) x1)
    (h_v19 : W (Proc.devRef .tc main_v19) = val_main_v19 (F := F) x1) :
    after (stretch5 (F := F)) W (Proc.devRef .tc main_arg0) = x0
      ∧ after (stretch5 (F := F)) W (Proc.devRef .tc main_v1) = val_main_v1 (F := F) x1
      ∧ after (stretch5 (F := F)) W (Proc.devRef .tc main_v2) = val_main_v2 (F := F) x1
      ∧ after (stretch5 (F := F)) W (Proc.devRef .tc main_v22) = val_main_v22 (F := F) x1 := by
  refine ⟨?_, ?_, ?_, ?_⟩
  · unfold stretch5; after_results; exact h_arg0
  · unfold stretch5; after_results; exact h_v1
  · unfold stretch5; after_results; exact h_v2
  · unfold stretch5; after_results
    simp only [TRef.ofBuf, TRef.toBuf, cast_eq]
    rw [h_v13, h_v19]
    rfl

/-- Operations 38 to 39. -/
def stretch6 : List (HloOp τ sig (Elt F)) :=
  [ TRef.nullary (TRef.of (T := ⟨S_, .f32⟩) main_call2_cst) (constant S_ .f32 0xFF800000#32),
    TRef.binary (TRef.of (T := ⟨S8x19x512x512, .f32⟩) main_arg0) (TRef.of (T := ⟨S_, .f32⟩) main_call2_cst) (TRef.of (T := ⟨S8x512x512, .f32⟩) main_call2_v0) (fun x v => Host.reduce FloatOps.maximumf x v reducesTo_S8x19x512x512_S8x512x512_d1 h_S_) ]

theorem stretch6_fresh : ∀ op ∈ stretch6 (F := F), op.fresh = ∅ := by
  intro _ h; unfold stretch6 at h; (repeat (cases h with | head => rfl | tail _ h => ?_)); exact nomatch h

theorem stretch6_run (W : Valuation τ sig (Elt F)) (x0 : (⟨S8x19x512x512, .f32⟩ : BufTy).Contents (Elt F)) (x1 : (⟨S8x512x512, .i32⟩ : BufTy).Contents (Elt F))
    (h_arg0 : W (Proc.devRef .tc main_arg0) = x0)
    (h_v1 : W (Proc.devRef .tc main_v1) = val_main_v1 (F := F) x1)
    (h_v2 : W (Proc.devRef .tc main_v2) = val_main_v2 (F := F) x1)
    (h_v22 : W (Proc.devRef .tc main_v22) = val_main_v22 (F := F) x1) :
    after (stretch6 (F := F)) W (Proc.devRef .tc main_arg0) = x0
      ∧ after (stretch6 (F := F)) W (Proc.devRef .tc main_v1) = val_main_v1 (F := F) x1
      ∧ after (stretch6 (F := F)) W (Proc.devRef .tc main_v2) = val_main_v2 (F := F) x1
      ∧ after (stretch6 (F := F)) W (Proc.devRef .tc main_v22) = val_main_v22 (F := F) x1
      ∧ after (stretch6 (F := F)) W (Proc.devRef .tc main_call2_v0) = val_main_call2_v0 (F := F) x0 := by
  refine ⟨?_, ?_, ?_, ?_, ?_⟩
  · unfold stretch6; after_results; exact h_arg0
  · unfold stretch6; after_results; exact h_v1
  · unfold stretch6; after_results; exact h_v2
  · unfold stretch6; after_results; exact h_v22
  · unfold stretch6; after_results
    simp only [TRef.ofBuf, TRef.toBuf, cast_eq]
    rw [h_arg0]
    rfl

/-- Operations 40 to 45. -/
def stretch7 : List (HloOp τ sig (Elt F)) :=
  [ TRef.nullary (TRef.of (T := ⟨S_, .f32⟩) main_call2_cst_0) (constant S_ .f32 0xFF800000#32),
    TRef.unary (TRef.of (T := ⟨S_, .f32⟩) main_call2_cst_0) (TRef.of (T := ⟨S8x512x512, .f32⟩) main_call2_v1) (broadcastInDim S8x512x512 ![] bcast_S_S8x512x512),
    TRef.binary (TRef.of (T := ⟨S8x512x512, .f32⟩) main_call2_v1) (TRef.of (T := ⟨S8x512x512, .f32⟩) main_call2_v0) (TRef.of (T := ⟨S8x512x512, .f32⟩) main_call2_v2) maximumf,
    TRef.unary (TRef.of (T := ⟨S8x512x512, .f32⟩) main_call2_v2) (TRef.of (T := ⟨S8x1x512x512, .f32⟩) main_call2_v3) (broadcastInDim S8x1x512x512 ![0, 2, 3] bcast_S8x512x512_S8x1x512x512_0_2_3),
    TRef.unary (TRef.of (T := ⟨S8x1x512x512, .f32⟩) main_call2_v3) (TRef.of (T := ⟨S8x19x512x512, .f32⟩) main_call2_v4) (broadcastInDim S8x19x512x512 ![0, 1, 2, 3] bcast_S8x1x512x512_S8x19x512x512_0_1_2_3),
    TRef.binary (TRef.of (T := ⟨S8x19x512x512, .f32⟩) main_arg0) (TRef.of (T := ⟨S8x19x512x512, .f32⟩) main_call2_v4) (TRef.of (T := ⟨S8x19x512x512, .f32⟩) main_call2_v5) subf ]

theorem stretch7_fresh : ∀ op ∈ stretch7 (F := F), op.fresh = ∅ := by
  intro _ h; unfold stretch7 at h; (repeat (cases h with | head => rfl | tail _ h => ?_)); exact nomatch h

theorem stretch7_run (W : Valuation τ sig (Elt F)) (x0 : (⟨S8x19x512x512, .f32⟩ : BufTy).Contents (Elt F)) (x1 : (⟨S8x512x512, .i32⟩ : BufTy).Contents (Elt F))
    (h_arg0 : W (Proc.devRef .tc main_arg0) = x0)
    (h_v1 : W (Proc.devRef .tc main_v1) = val_main_v1 (F := F) x1)
    (h_v2 : W (Proc.devRef .tc main_v2) = val_main_v2 (F := F) x1)
    (h_v22 : W (Proc.devRef .tc main_v22) = val_main_v22 (F := F) x1)
    (h_call2_v0 : W (Proc.devRef .tc main_call2_v0) = val_main_call2_v0 (F := F) x0) :
    after (stretch7 (F := F)) W (Proc.devRef .tc main_v1) = val_main_v1 (F := F) x1
      ∧ after (stretch7 (F := F)) W (Proc.devRef .tc main_v2) = val_main_v2 (F := F) x1
      ∧ after (stretch7 (F := F)) W (Proc.devRef .tc main_v22) = val_main_v22 (F := F) x1
      ∧ after (stretch7 (F := F)) W (Proc.devRef .tc main_call2_v5) = val_main_call2_v5 (F := F) x0 := by
  refine ⟨?_, ?_, ?_, ?_⟩
  · unfold stretch7; after_results; exact h_v1
  · unfold stretch7; after_results; exact h_v2
  · unfold stretch7; after_results; exact h_v22
  · unfold stretch7; after_results
    simp only [TRef.ofBuf, TRef.toBuf, cast_eq]
    rw [h_arg0, h_call2_v0]
    rfl

/-- Operations 46 to 52. -/
def stretch8 : List (HloOp τ sig (Elt F)) :=
  [ TRef.unary (TRef.of (T := ⟨S8x19x512x512, .f32⟩) main_call2_v5) (TRef.of (T := ⟨S8x19x512x512, .f32⟩) main_call2_v6) Host.exp,
    TRef.nullary (TRef.of (T := ⟨S_, .f32⟩) main_call2_cst_1) (constant S_ .f32 0x00000000#32),
    TRef.binary (TRef.of (T := ⟨S8x19x512x512, .f32⟩) main_call2_v6) (TRef.of (T := ⟨S_, .f32⟩) main_call2_cst_1) (TRef.of (T := ⟨S8x512x512, .f32⟩) main_call2_v7) (fun x v => Host.reduceAdd x v reducesTo_S8x19x512x512_S8x512x512_d1 h_S_),
    TRef.unary (TRef.of (T := ⟨S8x512x512, .f32⟩) main_call2_v7) (TRef.of (T := ⟨S8x1x512x512, .f32⟩) main_call2_v8) (broadcastInDim S8x1x512x512 ![0, 2, 3] bcast_S8x512x512_S8x1x512x512_0_2_3),
    TRef.unary (TRef.of (T := ⟨S8x1x512x512, .f32⟩) main_call2_v8) (TRef.of (T := ⟨S8x1x512x512, .f32⟩) main_call2_v9) Host.log,
    TRef.unary (TRef.of (T := ⟨S8x1x512x512, .f32⟩) main_call2_v9) (TRef.of (T := ⟨S8x19x512x512, .f32⟩) main_call2_v10) (broadcastInDim S8x19x512x512 ![0, 1, 2, 3] bcast_S8x1x512x512_S8x19x512x512_0_1_2_3),
    TRef.binary (TRef.of (T := ⟨S8x19x512x512, .f32⟩) main_call2_v5) (TRef.of (T := ⟨S8x19x512x512, .f32⟩) main_call2_v10) (TRef.of (T := ⟨S8x19x512x512, .f32⟩) main_v23) subf ]

theorem stretch8_fresh : ∀ op ∈ stretch8 (F := F), op.fresh = ∅ := by
  intro _ h; unfold stretch8 at h; (repeat (cases h with | head => rfl | tail _ h => ?_)); exact nomatch h

theorem stretch8_run (W : Valuation τ sig (Elt F)) (x0 : (⟨S8x19x512x512, .f32⟩ : BufTy).Contents (Elt F)) (x1 : (⟨S8x512x512, .i32⟩ : BufTy).Contents (Elt F))
    (h_v1 : W (Proc.devRef .tc main_v1) = val_main_v1 (F := F) x1)
    (h_v2 : W (Proc.devRef .tc main_v2) = val_main_v2 (F := F) x1)
    (h_v22 : W (Proc.devRef .tc main_v22) = val_main_v22 (F := F) x1)
    (h_call2_v5 : W (Proc.devRef .tc main_call2_v5) = val_main_call2_v5 (F := F) x0) :
    after (stretch8 (F := F)) W (Proc.devRef .tc main_v1) = val_main_v1 (F := F) x1
      ∧ after (stretch8 (F := F)) W (Proc.devRef .tc main_v2) = val_main_v2 (F := F) x1
      ∧ after (stretch8 (F := F)) W (Proc.devRef .tc main_v22) = val_main_v22 (F := F) x1
      ∧ after (stretch8 (F := F)) W (Proc.devRef .tc main_v23) = val_main_v23 (F := F) x0 := by
  refine ⟨?_, ?_, ?_, ?_⟩
  · unfold stretch8; after_results; exact h_v1
  · unfold stretch8; after_results; exact h_v2
  · unfold stretch8; after_results; exact h_v22
  · unfold stretch8; after_results
    simp only [TRef.ofBuf, TRef.toBuf, cast_eq]
    rw [h_call2_v5]
    rfl

/-- Operations 53 to 61. -/
def stretch9 : List (HloOp τ sig (Elt F)) :=
  [ unary main_v2 main_v24 (broadcastInDim S8x1x512x512 ![0, 2, 3] bcast_S8x512x512_S8x1x512x512_0_2_3 : (⟨S8x512x512, .i32⟩ : BufTy).Contents (Elt F) → (⟨S8x1x512x512, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S8x1x512x512, .i32⟩) main_call3_v0) (broadcastInDim S8x1x512x512 ![] bcast_S_S8x1x512x512),
    TRef.binary (TRef.of (T := ⟨S8x1x512x512, .i32⟩) main_v24) (TRef.of (T := ⟨S8x1x512x512, .i32⟩) main_call3_v0) (TRef.of (T := ⟨S8x1x512x512, .i1⟩) main_call3_v1) (cmpi .slt),
    TRef.nullary (TRef.of (T := ⟨S_, .i32⟩) main_call3_c_0) (constantI S_ 32 19#32),
    TRef.unary (TRef.of (T := ⟨S_, .i32⟩) main_call3_c_0) (TRef.of (T := ⟨S8x1x512x512, .i32⟩) main_call3_v2) (broadcastInDim S8x1x512x512 ![] bcast_S_S8x1x512x512),
    TRef.binary (TRef.of (T := ⟨S8x1x512x512, .i32⟩) main_v24) (TRef.of (T := ⟨S8x1x512x512, .i32⟩) main_call3_v2) (TRef.of (T := ⟨S8x1x512x512, .i32⟩) main_call3_v3) addi,
    TRef.ternary (TRef.of (T := ⟨S8x1x512x512, .i1⟩) main_call3_v1) (TRef.of (T := ⟨S8x1x512x512, .i32⟩) main_call3_v3) (TRef.of (T := ⟨S8x1x512x512, .i32⟩) main_v24) (TRef.of (T := ⟨S8x1x512x512, .i32⟩) main_call3_v4) select,
    TRef.reshape (TRef.of (T := ⟨S8x1x512x512, .i32⟩) main_call3_v4) (TRef.of (T := ⟨S8x1x512x512x1, .i32⟩) main_call3_v5) rfl shapeCasts_S8x1x512x512_S8x1x512x512x1 ]

theorem stretch9_fresh : ∀ op ∈ stretch9 (F := F), op.fresh = ∅ := by
  intro _ h; unfold stretch9 at h; (repeat (cases h with | head => rfl | tail _ h => ?_)); exact nomatch h

theorem stretch9_run (W : Valuation τ sig (Elt F)) (x0 : (⟨S8x19x512x512, .f32⟩ : BufTy).Contents (Elt F)) (x1 : (⟨S8x512x512, .i32⟩ : BufTy).Contents (Elt F))
    (h_v1 : W (Proc.devRef .tc main_v1) = val_main_v1 (F := F) x1)
    (h_v2 : W (Proc.devRef .tc main_v2) = val_main_v2 (F := F) x1)
    (h_v22 : W (Proc.devRef .tc main_v22) = val_main_v22 (F := F) x1)
    (h_v23 : W (Proc.devRef .tc main_v23) = val_main_v23 (F := F) x0) :
    after (stretch9 (F := F)) W (Proc.devRef .tc main_v1) = val_main_v1 (F := F) x1
      ∧ after (stretch9 (F := F)) W (Proc.devRef .tc main_v2) = val_main_v2 (F := F) x1
      ∧ after (stretch9 (F := F)) W (Proc.devRef .tc main_v22) = val_main_v22 (F := F) x1
      ∧ after (stretch9 (F := F)) W (Proc.devRef .tc main_v23) = val_main_v23 (F := F) x0
      ∧ after (stretch9 (F := F)) W (Proc.devRef .tc main_call3_v5) = val_main_call3_v5 (F := F) x1 := by
  refine ⟨?_, ?_, ?_, ?_, ?_⟩
  · unfold stretch9; after_results; exact h_v1
  · unfold stretch9; after_results; exact h_v2
  · unfold stretch9; after_results; exact h_v22
  · unfold stretch9; after_results; exact h_v23
  · unfold stretch9; after_results
    simp only [TRef.ofBuf, TRef.toBuf, cast_eq]
    rw [h_v2]
    rfl

/-- Operations 62 to 71. -/
def stretch10 : List (HloOp τ sig (Elt F)) :=
  [ TRef.nullary (TRef.of (T := ⟨S1, .i32⟩) main_call3_c_1) (constantI S1 32 18#32),
    TRef.nullary (TRef.of (T := ⟨S_, .i32⟩) main_call3_c_2) (constantI S_ 32 0#32),
    TRef.unary (TRef.of (T := ⟨S_, .i32⟩) main_call3_c_2) (TRef.of (T := ⟨S8x1x512x512x1, .i32⟩) main_call3_v6) (broadcastInDim S8x1x512x512x1 ![] bcast_S_S8x1x512x512x1),
    TRef.binary (TRef.of (T := ⟨S8x1x512x512x1, .i32⟩) main_call3_v5) (TRef.of (T := ⟨S8x1x512x512x1, .i32⟩) main_call3_v6) (TRef.of (T := ⟨S8x1x512x512x1, .i1⟩) main_call3_v7) (cmpi .sge),
    TRef.unary (TRef.of (T := ⟨S1, .i32⟩) main_call3_c_1) (TRef.of (T := ⟨S1x1x1x1x1, .i32⟩) main_call3_v8) (broadcastInDim S1x1x1x1x1 ![4] bcast_S1_S1x1x1x1x1_4),
    TRef.unary (TRef.of (T := ⟨S1x1x1x1x1, .i32⟩) main_call3_v8) (TRef.of (T := ⟨S8x1x512x512x1, .i32⟩) main_call3_v9) (broadcastInDim S8x1x512x512x1 ![0, 1, 2, 3, 4] bcast_S1x1x1x1x1_S8x1x512x512x1_0_1_2_3_4),
    TRef.binary (TRef.of (T := ⟨S8x1x512x512x1, .i32⟩) main_call3_v5) (TRef.of (T := ⟨S8x1x512x512x1, .i32⟩) main_call3_v9) (TRef.of (T := ⟨S8x1x512x512x1, .i1⟩) main_call3_v10) (cmpi .sle),
    TRef.binary (TRef.of (T := ⟨S8x1x512x512x1, .i1⟩) main_call3_v7) (TRef.of (T := ⟨S8x1x512x512x1, .i1⟩) main_call3_v10) (TRef.of (T := ⟨S8x1x512x512x1, .i1⟩) main_call3_v11) andi,
    TRef.nullary (TRef.of (T := ⟨S_, .i1⟩) main_call3_c_3) (constantI S_ 1 1#1),
    TRef.binary (TRef.of (T := ⟨S8x1x512x512x1, .i1⟩) main_call3_v11) (TRef.of (T := ⟨S_, .i1⟩) main_call3_c_3) (TRef.of (T := ⟨S8x1x512x512, .i1⟩) main_call3_v12) (fun x v => Host.reduce IntOp.andi x v reducesTo_S8x1x512x512x1_S8x1x512x512_d4 h_S_) ]

theorem stretch10_fresh : ∀ op ∈ stretch10 (F := F), op.fresh = ∅ := by
  intro _ h; unfold stretch10 at h; (repeat (cases h with | head => rfl | tail _ h => ?_)); exact nomatch h

theorem stretch10_run (W : Valuation τ sig (Elt F)) (x0 : (⟨S8x19x512x512, .f32⟩ : BufTy).Contents (Elt F)) (x1 : (⟨S8x512x512, .i32⟩ : BufTy).Contents (Elt F))
    (h_v1 : W (Proc.devRef .tc main_v1) = val_main_v1 (F := F) x1)
    (h_v2 : W (Proc.devRef .tc main_v2) = val_main_v2 (F := F) x1)
    (h_v22 : W (Proc.devRef .tc main_v22) = val_main_v22 (F := F) x1)
    (h_v23 : W (Proc.devRef .tc main_v23) = val_main_v23 (F := F) x0)
    (h_call3_v5 : W (Proc.devRef .tc main_call3_v5) = val_main_call3_v5 (F := F) x1) :
    after (stretch10 (F := F)) W (Proc.devRef .tc main_v1) = val_main_v1 (F := F) x1
      ∧ after (stretch10 (F := F)) W (Proc.devRef .tc main_v2) = val_main_v2 (F := F) x1
      ∧ after (stretch10 (F := F)) W (Proc.devRef .tc main_v22) = val_main_v22 (F := F) x1
      ∧ after (stretch10 (F := F)) W (Proc.devRef .tc main_v23) = val_main_v23 (F := F) x0
      ∧ after (stretch10 (F := F)) W (Proc.devRef .tc main_call3_v5) = val_main_call3_v5 (F := F) x1
      ∧ after (stretch10 (F := F)) W (Proc.devRef .tc main_call3_v12) = val_main_call3_v12 (F := F) x1 := by
  refine ⟨?_, ?_, ?_, ?_, ?_, ?_⟩
  · unfold stretch10; after_results; exact h_v1
  · unfold stretch10; after_results; exact h_v2
  · unfold stretch10; after_results; exact h_v22
  · unfold stretch10; after_results; exact h_v23
  · unfold stretch10; after_results; exact h_call3_v5
  · unfold stretch10; after_results
    simp only [TRef.ofBuf, TRef.toBuf, cast_eq]
    rw [h_call3_v5]
    rfl

/-- Operations 72 to 77. -/
def stretch11 : List (HloOp τ sig (Elt F)) :=
  [ TRef.binary (TRef.of (T := ⟨S8x19x512x512, .f32⟩) main_v23) (TRef.of (T := ⟨S8x1x512x512x1, .i32⟩) main_call3_v5) (TRef.of (T := ⟨S8x1x512x512, .f32⟩) main_call3_v13) (fun x i => Host.gather gather_S8x19x512x512_S8x1x512x512x1_S8x1x512x512_n_1_023_023_1_4_1111 x i),
    TRef.nullary (TRef.of (T := ⟨S_, .f32⟩) main_call3_cst) (constant S_ .f32 0x7FC00000#32),
    TRef.unary (TRef.of (T := ⟨S_, .f32⟩) main_call3_cst) (TRef.of (T := ⟨S8x1x512x512, .f32⟩) main_call3_v14) (broadcastInDim S8x1x512x512 ![] bcast_S_S8x1x512x512),
    TRef.ternary (TRef.of (T := ⟨S8x1x512x512, .i1⟩) main_call3_v12) (TRef.of (T := ⟨S8x1x512x512, .f32⟩) main_call3_v13) (TRef.of (T := ⟨S8x1x512x512, .f32⟩) main_call3_v14) (TRef.of (T := ⟨S8x1x512x512, .f32⟩) main_v25) select,
    reshape main_v25 main_v26 rfl shapeCasts_S8x1x512x512_S8x512x512,
    unary main_v26 main_v27 (Host.negf : (⟨S8x512x512, .f32⟩ : BufTy).Contents (Elt F) → (⟨S8x512x512, .f32⟩ : BufTy).Contents (Elt F)) ]

theorem stretch11_fresh : ∀ op ∈ stretch11 (F := F), op.fresh = ∅ := by
  intro _ h; unfold stretch11 at h; (repeat (cases h with | head => rfl | tail _ h => ?_)); exact nomatch h

theorem stretch11_run (W : Valuation τ sig (Elt F)) (x0 : (⟨S8x19x512x512, .f32⟩ : BufTy).Contents (Elt F)) (x1 : (⟨S8x512x512, .i32⟩ : BufTy).Contents (Elt F))
    (h_v1 : W (Proc.devRef .tc main_v1) = val_main_v1 (F := F) x1)
    (h_v2 : W (Proc.devRef .tc main_v2) = val_main_v2 (F := F) x1)
    (h_v22 : W (Proc.devRef .tc main_v22) = val_main_v22 (F := F) x1)
    (h_v23 : W (Proc.devRef .tc main_v23) = val_main_v23 (F := F) x0)
    (h_call3_v5 : W (Proc.devRef .tc main_call3_v5) = val_main_call3_v5 (F := F) x1)
    (h_call3_v12 : W (Proc.devRef .tc main_call3_v12) = val_main_call3_v12 (F := F) x1) :
    after (stretch11 (F := F)) W (Proc.devRef .tc main_v1) = val_main_v1 (F := F) x1
      ∧ after (stretch11 (F := F)) W (Proc.devRef .tc main_v2) = val_main_v2 (F := F) x1
      ∧ after (stretch11 (F := F)) W (Proc.devRef .tc main_v22) = val_main_v22 (F := F) x1
      ∧ after (stretch11 (F := F)) W (Proc.devRef .tc main_v27) = val_main_v27 (F := F) x0 x1 := by
  refine ⟨?_, ?_, ?_, ?_⟩
  · unfold stretch11; after_results; exact h_v1
  · unfold stretch11; after_results; exact h_v2
  · unfold stretch11; after_results; exact h_v22
  · unfold stretch11; after_results
    simp only [TRef.ofBuf, TRef.toBuf, cast_eq]
    rw [h_v23, h_call3_v5, h_call3_v12]
    rfl

/-- Operations 78 to 86. -/
def stretch12 : List (HloOp τ sig (Elt F)) :=
  [ nullary main_c_8 (constantI S_ 32 0#32),
    unary main_c_8 main_v28 (broadcastInDim S8x512x512 ![] bcast_S_S8x512x512 : (⟨S_, .i32⟩ : BufTy).Contents (Elt F) → (⟨S8x512x512, .i32⟩ : BufTy).Contents (Elt F)),
    binary main_v2 main_v28 main_v29 (cmpi .slt : (⟨S8x512x512, .i32⟩ : BufTy).Contents (Elt F) → (⟨S8x512x512, .i32⟩ : BufTy).Contents (Elt F) → (⟨S8x512x512, .i1⟩ : BufTy).Contents (Elt F)),
    nullary main_c_9 (constantI S_ 32 19#32),
    unary main_c_9 main_v30 (broadcastInDim S8x512x512 ![] bcast_S_S8x512x512 : (⟨S_, .i32⟩ : BufTy).Contents (Elt F) → (⟨S8x512x512, .i32⟩ : BufTy).Contents (Elt F)),
    binary main_v2 main_v30 main_v31 (addi : (⟨S8x512x512, .i32⟩ : BufTy).Contents (Elt F) → (⟨S8x512x512, .i32⟩ : BufTy).Contents (Elt F) → (⟨S8x512x512, .i32⟩ : BufTy).Contents (Elt F)),
    ternary main_v29 main_v31 main_v2 main_v32 (select : (⟨S8x512x512, .i1⟩ : BufTy).Contents (Elt F) → (⟨S8x512x512, .i32⟩ : BufTy).Contents (Elt F) → (⟨S8x512x512, .i32⟩ : BufTy).Contents (Elt F) → (⟨S8x512x512, .i32⟩ : BufTy).Contents (Elt F)),
    unary main_v32 main_v33 (broadcastInDim S8x512x512x1 ![0, 1, 2] bcast_S8x512x512_S8x512x512x1_0_1_2 : (⟨S8x512x512, .i32⟩ : BufTy).Contents (Elt F) → (⟨S8x512x512x1, .i32⟩ : BufTy).Contents (Elt F)),
    binary main_v22 main_v33 main_v34 ((fun x i => Host.gather gather_S19_S8x512x512x1_S8x512x512_n_0_n_n_0_3_1 x i) : (⟨S19, .f32⟩ : BufTy).Contents (Elt F) → (⟨S8x512x512x1, .i32⟩ : BufTy).Contents (Elt F) → (⟨S8x512x512, .f32⟩ : BufTy).Contents (Elt F)) ]

theorem stretch12_fresh : ∀ op ∈ stretch12 (F := F), op.fresh = ∅ := by
  intro _ h; unfold stretch12 at h; (repeat (cases h with | head => rfl | tail _ h => ?_)); exact nomatch h

theorem stretch12_run (W : Valuation τ sig (Elt F)) (x0 : (⟨S8x19x512x512, .f32⟩ : BufTy).Contents (Elt F)) (x1 : (⟨S8x512x512, .i32⟩ : BufTy).Contents (Elt F))
    (h_v1 : W (Proc.devRef .tc main_v1) = val_main_v1 (F := F) x1)
    (h_v2 : W (Proc.devRef .tc main_v2) = val_main_v2 (F := F) x1)
    (h_v22 : W (Proc.devRef .tc main_v22) = val_main_v22 (F := F) x1)
    (h_v27 : W (Proc.devRef .tc main_v27) = val_main_v27 (F := F) x0 x1) :
    after (stretch12 (F := F)) W (Proc.devRef .tc main_v1) = val_main_v1 (F := F) x1
      ∧ after (stretch12 (F := F)) W (Proc.devRef .tc main_v27) = val_main_v27 (F := F) x0 x1
      ∧ after (stretch12 (F := F)) W (Proc.devRef .tc main_v34) = val_main_v34 (F := F) x1 := by
  refine ⟨?_, ?_, ?_⟩
  · unfold stretch12; after_results; exact h_v1
  · unfold stretch12; after_results; exact h_v27
  · unfold stretch12; after_results
    rw [h_v2, h_v22]
    rfl

/-- Operations 87 to 94. -/
def stretch13 : List (HloOp τ sig (Elt F)) :=
  [ unary main_v1 main_v35 (uitofp (F := F) .f32 : (⟨S8x512x512, .i1⟩ : BufTy).Contents (Elt F) → (⟨S8x512x512, .f32⟩ : BufTy).Contents (Elt F)),
    binary main_v34 main_v35 main_v36 (mulf : (⟨S8x512x512, .f32⟩ : BufTy).Contents (Elt F) → (⟨S8x512x512, .f32⟩ : BufTy).Contents (Elt F) → (⟨S8x512x512, .f32⟩ : BufTy).Contents (Elt F)),
    binary main_v36 main_v27 main_v37 (mulf : (⟨S8x512x512, .f32⟩ : BufTy).Contents (Elt F) → (⟨S8x512x512, .f32⟩ : BufTy).Contents (Elt F) → (⟨S8x512x512, .f32⟩ : BufTy).Contents (Elt F)),
    nullary main_cst_10 (constant S_ .f32 0x00000000#32),
    binary main_v37 main_cst_10 main_v38 ((fun x v => Host.reduceAdd x v reducesTo_S8x512x512_S_d0_1_2 h_S_) : (⟨S8x512x512, .f32⟩ : BufTy).Contents (Elt F) → (⟨S_, .f32⟩ : BufTy).Contents (Elt F) → (⟨S_, .f32⟩ : BufTy).Contents (Elt F)),
    nullary main_cst_11 (constant S_ .f32 0x00000000#32),
    binary main_v36 main_cst_11 main_v39 ((fun x v => Host.reduceAdd x v reducesTo_S8x512x512_S_d0_1_2 h_S_) : (⟨S8x512x512, .f32⟩ : BufTy).Contents (Elt F) → (⟨S_, .f32⟩ : BufTy).Contents (Elt F) → (⟨S_, .f32⟩ : BufTy).Contents (Elt F)),
    binary main_v38 main_v39 main_v40 (Host.divf : (⟨S_, .f32⟩ : BufTy).Contents (Elt F) → (⟨S_, .f32⟩ : BufTy).Contents (Elt F) → (⟨S_, .f32⟩ : BufTy).Contents (Elt F)) ]

theorem stretch13_fresh : ∀ op ∈ stretch13 (F := F), op.fresh = ∅ := by
  intro _ h; unfold stretch13 at h; (repeat (cases h with | head => rfl | tail _ h => ?_)); exact nomatch h

theorem stretch13_run (W : Valuation τ sig (Elt F)) (x0 : (⟨S8x19x512x512, .f32⟩ : BufTy).Contents (Elt F)) (x1 : (⟨S8x512x512, .i32⟩ : BufTy).Contents (Elt F))
    (h_v1 : W (Proc.devRef .tc main_v1) = val_main_v1 (F := F) x1)
    (h_v27 : W (Proc.devRef .tc main_v27) = val_main_v27 (F := F) x0 x1)
    (h_v34 : W (Proc.devRef .tc main_v34) = val_main_v34 (F := F) x1) :
    after (stretch13 (F := F)) W (Proc.devRef .tc main_v40) = val_main_v40 (F := F) x0 x1 := by
  unfold stretch13; after_results
  rw [h_v1, h_v27, h_v34]
  rfl

end Cert.CE

end
-- ==== Proof.RefRun.lean ====
/-
  The reference program's run: its 94 host operations executed in order leave in the result buffer the last stage of the
  stage-by-stage reading of the program (each stage one operation applied to earlier stages), and leave the two arguments
  unchanged.
-/
import proofs.«410359_j30545807409282_3_alg».proof.Proof.RefRunP
import proofs.«410359_j30545807409282_3_alg».proof.Proof.RefReadP
import proofs.«410359_j30545807409282_3_alg».proof.Proof.RefRunArgs
import proofs.«410359_j30545807409282_3_alg».proof.Proof.RefRunSteps
import Idealize.ShloMosaic.Lib.StableHlo.Run

noncomputable section

namespace Cert.CE

open Cert.ReferenceIdeal Cert.ReferenceIdeal.Gen Idealize.ShloMosaic Idealize.ShloMosaic.TcCoe Idealize.SL.Sem Idealize.ShloMosaic.StableHlo

variable {F : FTy → Type} [FloatOps F]

/-! ## Lines one after the other -/

/-- Running two lines one after the other is running the second from where the first ends. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- If neither of two lines leaves a result undetermined, neither does the first followed by the second. -/
theorem fresh_app {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op h => (List.mem_append.mp h).elim (h₁ op) (h₂ op)

/-! ## The program as its stretches -/

/-- The program's operation list is its thirteen stretches in order: the same 94 operations, bracketed. -/
theorem ops_eq : Value.ops (F := F)
    = stretch1 ++ (stretch2 ++ (stretch3 ++ (stretch4 ++ (stretch5 ++ (stretch6 ++ (stretch7 ++ (stretch8
        ++ (stretch9 ++ (stretch10 ++ (stretch11 ++ (stretch12 ++ stretch13))))))))))) := rfl

/-- No operation of the program leaves its result undetermined. -/
theorem ops_fresh : ∀ op ∈ Value.ops (F := F), op.fresh = ∅ := by
  rw [ops_eq]
  exact fresh_app stretch1_fresh (fresh_app stretch2_fresh (fresh_app stretch3_fresh (fresh_app stretch4_fresh
    (fresh_app stretch5_fresh (fresh_app stretch6_fresh (fresh_app stretch7_fresh (fresh_app stretch8_fresh
    (fresh_app stretch9_fresh (fresh_app stretch10_fresh (fresh_app stretch11_fresh (fresh_app stretch12_fresh
    stretch13_fresh)))))))))))

/-! ## The result buffer -/

/-- From any contents `V`, after the whole program the result buffer holds the last stage of `V`'s two arguments.
    The stretches run one from where the one before ends (`after_app`); each is handed, at the buffers still to be
    read, the stages' values the one before left there, and hands on its own. The first is handed the arguments
    themselves; the float argument is carried along until its last reader (operation 45), the integer argument is not
    read after the first stretch. -/
theorem after_ops_v40 (V : Valuation τ sig (Elt F)) :
    after (Value.ops (F := F)) V (Proc.devRef .tc main_v40)
      = Read.val_main_v40 (F := F) (V (Proc.devRef .tc main_arg0)) (V (Proc.devRef .tc main_arg1)) := by
  generalize hx0 : V (Proc.devRef .tc main_arg0) = x0
  generalize hx1 : V (Proc.devRef .tc main_arg1) = x1
  rw [ops_eq]
  simp only [after_app]
  obtain ⟨a0, v1, v2⟩ := stretch1_run V x0 x1 hx0 hx1
  obtain ⟨a0, v1, v2, v3, v4, v6⟩ := stretch2_run _ x0 x1 a0 v1 v2
  obtain ⟨a0, v1, v2, v13⟩ := stretch3_run _ x0 x1 a0 v1 v2 v3 v4 v6
  obtain ⟨a0, v1, v2, v13, v19⟩ := stretch4_run _ x0 x1 a0 v1 v2 v13
  obtain ⟨a0, v1, v2, v22⟩ := stretch5_run _ x0 x1 a0 v1 v2 v13 v19
  obtain ⟨a0, v1, v2, v22, m0⟩ := stretch6_run _ x0 x1 a0 v1 v2 v22
  obtain ⟨v1, v2, v22, s5⟩ := stretch7_run _ x0 x1 a0 v1 v2 v22 m0
  obtain ⟨v1, v2, v22, v23⟩ := stretch8_run _ x0 x1 v1 v2 v22 s5
  obtain ⟨v1, v2, v22, v23, t5⟩ := stretch9_run _ x0 x1 v1 v2 v22 v23
  obtain ⟨v1, v2, v22, v23, t5, t12⟩ := stretch10_run _ x0 x1 v1 v2 v22 v23 t5
  obtain ⟨v1, v2, v22, v27⟩ := stretch11_run _ x0 x1 v1 v2 v22 v23 t5 t12
  obtain ⟨v1, v27, v34⟩ := stretch12_run _ x0 x1 v1 v2 v22 v27
  exact stretch13_run _ x0 x1 v1 v27 v34

/-! ## The run -/

/-- Every weakly fair execution of the reference program terminates with its result at the last stage, applied to the two
    arguments' launch contents, and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40)
          = Cert.ReferenceIdeal.Read.val_main_v40 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c main_v40).trans (after_ops_v40 (launchContents m c)),
      (h c main_arg0).trans (after_ops_arg0 (launchContents m c)),
      (h c main_arg1).trans (after_ops_arg1 (launchContents m c))⟩)
    (run_seq Value.scopedRefs_eq Value.scopedSems_eq defs main (fun _ => Value.ops) Value.main_eq
      (fun _ => Value.ops_sub) m ρ (fun _ => ops_fresh))

end Cert.CE

end
-- ==== Proof.KPieces.lean ====
/-
  What one run of the kernel's body leaves in its two accumulators and, at an image's last tile, in its two output blocks, as
  pure terms of the tile's two input blocks and of what the accumulators held before: for any float family.
-/
import proofs.«410359_j30545807409282_3_alg».proof.Proof.Gen.KernelIdeal.Frame
import Idealize.ShloMosaic.Lib.Pipeline.Value

set_option maxRecDepth 16384

noncomputable section

namespace Cert.CE

open Idealize.ShloMosaic Idealize.ShloMosaic.TcCoe Idealize.ShloMosaic.Tactic Idealize.SL.Sem Cert.KernelIdeal Cert.KernelIdeal.Gen

variable {F : FTy → Type} [FloatOps F]

/-- The zero offset of a rank-four block, as the constant function. -/
theorem KPieces.zeroOff4 : (![0, 0, 0, 0] : Fin 4 → Nat) = fun _ => 0 := funext fun a => by fin_cases a <;> rfl

/-- The zero offset of a rank-three block, as the constant function. -/
theorem KPieces.zeroOff3 : (![0, 0, 0] : Fin 3 → Nat) = fun _ => 0 := funext fun a => by fin_cases a <;> rfl

/-- First tile of an image: the numerator accumulator is reset, then takes the tile's contribution. -/
theorem sout0_A_0_eq (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x19x1x1 .f32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (hc0 : cond0_0 i) (hc1 : ¬cond0_1 i) (x0 : Vec F S1x19x128x512 .f32) (x1 : Vec F S1x128x512 .i32) :
    sout0_A_0 c i arg2 harg2 arg3 harg3 arg4 harg4 arg5 harg5 arg6 harg6 arg7 harg7 hc0 hc1 x0 x1 = k0_pay1 (k0_pay9 x0 x1) (k0_pay3 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1x19x1x1) KPieces.zeroOff4, View.readCov_unit_zero (S := S1x19x1x1) _ KPieces.zeroOff4]
  simp only [View.readAt_eq_ld, harg2.read_unread, harg3.read_unread, harg6.read_unread, harg7.read_unread,
    View.ld_unit_zero (S := S1x19x128x512) KPieces.zeroOff4, View.ld_unit_zero (S := S1x128x512) KPieces.zeroOff3,
    View.ld_unit_zero (S := S1x19x1x1) KPieces.zeroOff4, View.readCov_unit_zero (S := S1x19x1x1) _ KPieces.zeroOff4]

/-- First tile of an image: the count accumulator is reset, then takes the tile's contribution. -/
theorem sout0_A_1_eq (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x19x1x1 .f32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (hc0 : cond0_0 i) (hc1 : ¬cond0_1 i) (x0 : Vec F S1x19x128x512 .f32) (x1 : Vec F S1x128x512 .i32) :
    sout0_A_1 c i arg2 harg2 arg3 harg3 arg4 harg4 arg5 harg5 arg6 harg6 arg7 harg7 hc0 hc1 x0 x1 = k0_pay2 (k0_pay8 x1) (Scalar.ofBits .f32 0x00000000#32) (k0_pay10 x1) (k0_pay4 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x19x1x1) KPieces.zeroOff4, View.readCov_unit_zero (S := S1x19x1x1) _ KPieces.zeroOff4]
  simp only [View.readAt_eq_ld, harg2.read_unread, harg3.read_unread, harg6.read_unread, harg7.read_unread,
    View.ld_unit_zero (S := S1x19x128x512) KPieces.zeroOff4, View.ld_unit_zero (S := S1x128x512) KPieces.zeroOff3,
    View.ld_unit_zero (S := S1x19x1x1) KPieces.zeroOff4, View.readCov_unit_zero (S := S1x19x1x1) _ KPieces.zeroOff4]

/-- A middle tile: the numerator accumulator takes the tile's contribution over what the tile before left. -/
theorem sout0_B_0_eq (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x19x1x1 .f32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (hc0 : ¬cond0_0 i) (hc1 : ¬cond0_1 i) (x0 : Vec F S1x19x128x512 .f32) (x1 : Vec F S1x128x512 .i32) (xs0 : Vec F S1x19x1x1 .f32) (xs1 : Vec F S1x19x1x1 .f32) :
    sout0_B_0 c i arg2 harg2 arg3 harg3 arg4 harg4 arg5 harg5 arg6 harg6 arg7 harg7 hc0 hc1 x0 x1 xs0 xs1 = k0_pay1 (k0_pay9 x0 x1) xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero KPieces.zeroOff4]
  simp only [View.readAt_eq_ld, harg2.read_unread, harg3.read_unread, harg6.read_unread, harg7.read_unread,
    View.ld_unit_zero (S := S1x19x128x512) KPieces.zeroOff4, View.ld_unit_zero (S := S1x128x512) KPieces.zeroOff3,
    View.ld_unit_zero (S := S1x19x1x1) KPieces.zeroOff4, View.readCov_unit_zero (S := S1x19x1x1) _ KPieces.zeroOff4]

/-- A middle tile: the count accumulator takes the tile's contribution over what the tile before left. -/
theorem sout0_B_1_eq (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x19x1x1 .f32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (hc0 : ¬cond0_0 i) (hc1 : ¬cond0_1 i) (x0 : Vec F S1x19x128x512 .f32) (x1 : Vec F S1x128x512 .i32) (xs0 : Vec F S1x19x1x1 .f32) (xs1 : Vec F S1x19x1x1 .f32) :
    sout0_B_1 c i arg2 harg2 arg3 harg3 arg4 harg4 arg5 harg5 arg6 harg6 arg7 harg7 hc0 hc1 x0 x1 xs0 xs1 = k0_pay2 (k0_pay8 x1) (Scalar.ofBits .f32 0x00000000#32) (k0_pay10 x1) xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero KPieces.zeroOff4]
  simp only [View.readAt_eq_ld, harg2.read_unread, harg3.read_unread, harg6.read_unread, harg7.read_unread,
    View.ld_unit_zero (S := S1x19x128x512) KPieces.zeroOff4, View.ld_unit_zero (S := S1x128x512) KPieces.zeroOff3,
    View.ld_unit_zero (S := S1x19x1x1) KPieces.zeroOff4, View.readCov_unit_zero (S := S1x19x1x1) _ KPieces.zeroOff4]

/-- Last tile of an image: the numerator accumulator takes the tile's contribution over what the tile before left. -/
theorem sout0_C_0_eq (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x19x1x1 .f32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (hc0 : ¬cond0_0 i) (hc1 : cond0_1 i) (x0 : Vec F S1x19x128x512 .f32) (x1 : Vec F S1x128x512 .i32) (xs0 : Vec F S1x19x1x1 .f32) (xs1 : Vec F S1x19x1x1 .f32) :
    sout0_C_0 c i arg2 harg2 arg3 harg3 arg4 harg4 arg5 harg5 arg6 harg6 arg7 harg7 hc0 hc1 x0 x1 xs0 xs1 = k0_pay1 (k0_pay9 x0 x1) xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero KPieces.zeroOff4]
  simp only [View.readAt_eq_ld, harg2.read_unread, harg3.read_unread, harg6.read_unread, harg7.read_unread,
    View.ld_unit_zero (S := S1x19x128x512) KPieces.zeroOff4, View.ld_unit_zero (S := S1x128x512) KPieces.zeroOff3,
    View.ld_unit_zero (S := S1x19x1x1) KPieces.zeroOff4, View.readCov_unit_zero (S := S1x19x1x1) _ KPieces.zeroOff4]

/-- Last tile of an image: the count accumulator takes the tile's contribution over what the tile before left. -/
theorem sout0_C_1_eq (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x19x1x1 .f32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (hc0 : ¬cond0_0 i) (hc1 : cond0_1 i) (x0 : Vec F S1x19x128x512 .f32) (x1 : Vec F S1x128x512 .i32) (xs0 : Vec F S1x19x1x1 .f32) (xs1 : Vec F S1x19x1x1 .f32) :
    sout0_C_1 c i arg2 harg2 arg3 harg3 arg4 harg4 arg5 harg5 arg6 harg6 arg7 harg7 hc0 hc1 x0 x1 xs0 xs1 = k0_pay2 (k0_pay8 x1) (Scalar.ofBits .f32 0x00000000#32) (k0_pay10 x1) xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero KPieces.zeroOff4]
  simp only [View.readAt_eq_ld, harg2.read_unread, harg3.read_unread, harg6.read_unread, harg7.read_unread,
    View.ld_unit_zero (S := S1x19x128x512) KPieces.zeroOff4, View.ld_unit_zero (S := S1x128x512) KPieces.zeroOff3,
    View.ld_unit_zero (S := S1x19x1x1) KPieces.zeroOff4, View.readCov_unit_zero (S := S1x19x1x1) _ KPieces.zeroOff4]

/-- Last tile of an image: the first output's block is the numerator accumulator as that tile leaves it. -/
theorem out0_C_2_eq (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x19x1x1 .f32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (hc0 : ¬cond0_0 i) (hc1 : cond0_1 i) (x0 : Vec F S1x19x128x512 .f32) (x1 : Vec F S1x128x512 .i32) (xs0 : Vec F S1x19x1x1 .f32) (xs1 : Vec F S1x19x1x1 .f32) :
    out0_C_2 c i arg2 harg2 arg3 harg3 arg4 harg4 arg5 harg5 arg6 harg6 arg7 harg7 hc0 hc1 x0 x1 xs0 xs1 = k0_pay1 (k0_pay9 x0 x1) xs0 := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero KPieces.zeroOff4]
  simp only [View.readAt_eq_ld, harg2.read_unread, harg3.read_unread, harg6.read_unread, harg7.read_unread,
    View.ld_unit_zero (S := S1x19x128x512) KPieces.zeroOff4, View.ld_unit_zero (S := S1x128x512) KPieces.zeroOff3,
    View.ld_unit_zero (S := S1x19x1x1) KPieces.zeroOff4, View.readCov_unit_zero (S := S1x19x1x1) _ KPieces.zeroOff4]

/-- Last tile of an image: the second output's block is the count accumulator as that tile leaves it. -/
theorem out0_C_3_eq (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x19x1x1 .f32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (hc0 : ¬cond0_0 i) (hc1 : cond0_1 i) (x0 : Vec F S1x19x128x512 .f32) (x1 : Vec F S1x128x512 .i32) (xs0 : Vec F S1x19x1x1 .f32) (xs1 : Vec F S1x19x1x1 .f32) :
    out0_C_3 c i arg2 harg2 arg3 harg3 arg4 harg4 arg5 harg5 arg6 harg6 arg7 harg7 hc0 hc1 x0 x1 xs0 xs1 = k0_pay2 (k0_pay8 x1) (Scalar.ofBits .f32 0x00000000#32) (k0_pay10 x1) xs1 := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero KPieces.zeroOff4]
  simp only [View.readAt_eq_ld, harg2.read_unread, harg3.read_unread, harg6.read_unread, harg7.read_unread,
    View.ld_unit_zero (S := S1x19x128x512) KPieces.zeroOff4, View.ld_unit_zero (S := S1x128x512) KPieces.zeroOff3,
    View.ld_unit_zero (S := S1x19x1x1) KPieces.zeroOff4, View.readCov_unit_zero (S := S1x19x1x1) _ KPieces.zeroOff4]

end Cert.CE

end
-- ==== Proof.Spec.lean ====
/-
  The class-balanced cross-entropy loss as one function of the logits and the labels.

  A pixel is a position (a, h, w); its logits are the 19 numbers x(a, c, h, w) and its label the 32-bit word t(a, h, w).
  A label counts when, read as a signed integer, it lies in [0, 19); otherwise the pixel is ignored. The pixel's
  negative log-likelihood is  max_c x_c + log (sum_c exp (x_c - max_c x_c)) - x_label.
  Per class c, cnt c is the number of counted pixels labelled c and num c the sum of their negative log-likelihoods.
  The class weight is w(n) = 0.001 / (1 - 0.999 ^ n) for n > 0 and 0 for an empty class, and the loss is
      (sum_c w(cnt c) * num c) / (sum_c w(cnt c) * cnt c).
  Everything is stated for a batch of A images of H rows of 512 pixels, so that the whole arrays (A = 8, H = 512)
  and one tile of 128 rows of one image (A = 1, H = 128) are instances of the same definitions.
-/
import Idealize.ShloMosaic.PureOps.Ideal
import Idealize.ShloMosaic.PureOps.Ideal.Laws
import Idealize.ShloMosaic.Lib.ValueIdx

noncomputable section

namespace Cert.CE

open Idealize.ShloMosaic Idealize.ShloMosaic.ValueIdx
open scoped BigOperators

/-- A label counts when, read signed, it lies in [0, 19). -/
def Valid (w : BitVec 32) : Prop := 0 ≤ w.toInt ∧ w.toInt < 19

instance (w : BitVec 32) : Decidable (Valid w) := by unfold Valid; infer_instance

/-- The class a label names; an ignored label is sent to class 0, where its factor `vf` is 0. -/
def cls (w : BitVec 32) : Fin 19 :=
  if h : Valid w then ⟨w.toInt.toNat, by have h1 := h.1; have h2 := h.2; omega⟩ else 0

/-- 1 for a label that counts, 0 for an ignored one. -/
def vf (w : BitVec 32) : EReal := if Valid w then 1 else 0

section Arrays

variable {A H : Nat}

/-- The largest logit of pixel (a, h, w). -/
def rowmax (x : (⟨4, ![A, 19, H, 512]⟩ : Shape).Idx → EReal) (a : Fin A) (h : Fin H) (w : Fin 512) : EReal :=
  (Finset.univ : Finset (Fin 19)).fold max ⊥ (fun c => x (ix4 a c h w))

/-- log of the sum of the exponentials of the logits of pixel (a, h, w), shifted by their maximum. -/
def lse (x : (⟨4, ![A, 19, H, 512]⟩ : Shape).Idx → EReal) (a : Fin A) (h : Fin H) (w : Fin 512) : EReal :=
  Ideal.log (∑ c : Fin 19, Ideal.exp (x (ix4 a c h w) - rowmax x a h w))

/-- The negative log-likelihood of pixel (a, h, w) at its label's class. -/
def nll (x : (⟨4, ![A, 19, H, 512]⟩ : Shape).Idx → EReal) (t : (⟨3, ![A, H, 512]⟩ : Shape).Idx → BitVec 32)
    (a : Fin A) (h : Fin H) (w : Fin 512) : EReal :=
  (rowmax x a h w + lse x a h w) - x (ix4 a (cls (t (ix3 a h w))) h w)

/-- Image a's contribution to class c's numerator: the negative log-likelihoods of its counted pixels labelled c. -/
def imgNum (x : (⟨4, ![A, 19, H, 512]⟩ : Shape).Idx → EReal) (t : (⟨3, ![A, H, 512]⟩ : Shape).Idx → BitVec 32)
    (a : Fin A) (c : Fin 19) : EReal :=
  ∑ h : Fin H, ∑ w : Fin 512, if cls (t (ix3 a h w)) = c then nll x t a h w * vf (t (ix3 a h w)) else 0

/-- Image a's contribution to class c's count: its counted pixels labelled c. -/
def imgCnt (t : (⟨3, ![A, H, 512]⟩ : Shape).Idx → BitVec 32) (a : Fin A) (c : Fin 19) : EReal :=
  ∑ h : Fin H, ∑ w : Fin 512, if cls (t (ix3 a h w)) = c then vf (t (ix3 a h w)) else 0

/-- Class c's numerator over the whole batch. -/
def num (x : (⟨4, ![A, 19, H, 512]⟩ : Shape).Idx → EReal) (t : (⟨3, ![A, H, 512]⟩ : Shape).Idx → BitVec 32)
    (c : Fin 19) : EReal := ∑ a : Fin A, imgNum x t a c

/-- Class c's count over the whole batch. -/
def cnt (t : (⟨3, ![A, H, 512]⟩ : Shape).Idx → BitVec 32) (c : Fin 19) : EReal := ∑ a : Fin A, imgCnt t a c

end Arrays

/-- The class weight of a class counted n times: 0.001 / (1 - 0.999 ^ n) when n > 0, else 0 (the three float words are
    the single-precision 0.001, 1 and 0.999). -/
def wgt (n : EReal) : EReal :=
  Scalar.select (Ideal.cmp .ogt n (Ideal.ofBits .f32 0x00000000#32))
    (Ideal.div (Ideal.ofBits .f32 0x3A83126F#32) (Ideal.ofBits .f32 0x3F800000#32 - Ideal.pow (Ideal.ofBits .f32 0x3F7FBE77#32) n))
    (Ideal.ofBits .f32 0x00000000#32)

/-- The loss as a function of the per-class numerators S and counts N. -/
def lossOf (S N : Fin 19 → EReal) : EReal :=
  Ideal.div (∑ c : Fin 19, wgt (N c) * S c) (∑ c : Fin 19, wgt (N c) * N c)

/-- The class-balanced cross-entropy loss of logits x and labels t. -/
def loss {A H : Nat} (x : (⟨4, ![A, 19, H, 512]⟩ : Shape).Idx → EReal) (t : (⟨3, ![A, H, 512]⟩ : Shape).Idx → BitVec 32) : EReal :=
  lossOf (num x t) (cnt t)

end Cert.CE

end
-- ==== Proof.LibColumn.lean ====
/-
  A column kept as a unit axis: the two layout steps of a row reduction with `keepdims`.

  A length-`a` vector cast to an `[a, 1]` column reads, at `(i, 0)`, the vector at `i`; an `[a, 1]` column broadcast
  to `[a, b]` reads, at `(i, j)`, the column at `(i, 0)`. General in `a` and `b` and in the element type.
  Also the two float words a row maximum and a reciprocal start from: −∞ and 1.
-/
import Idealize.ShloMosaic.Lib.Pipeline.Value
import Idealize.ShloMosaic.Lib.ValueIdx
import Idealize.ShloMosaic.PureOps.Ideal

noncomputable section

namespace Idealize.ShloMosaic.Column

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- The f32 word `0xFF800000` denotes −∞. -/
theorem ofBits_negInf_f32 : Ideal.ofBits .f32 0xFF800000#32 = (⊥ : EReal) := by
  simp [Ideal.ofBits, Ideal.ieee]

/-- The f32 word `0x3F800000` denotes 1. -/
theorem ofBits_one_f32 : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h, EReal.coe_one]

end Idealize.ShloMosaic.Column

end
-- ==== Proof.KPayload.lean ====
/-
  What the kernel's body adds to its two accumulators at one tile, read at a class: the tile's contribution to that class's
  numerator and to its count.
-/
import proofs.«410359_j30545807409282_3_alg».proof.Proof.Gen.KernelIdeal.Skeleton
import proofs.«410359_j30545807409282_3_alg».proof.Proof.Spec
import proofs.«410359_j30545807409282_3_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.CE

open Idealize.ShloMosaic Idealize.ShloMosaic.ValueIdx Cert.KernelIdeal Cert.KernelIdeal.Gen
open scoped BigOperators

namespace Payload

/-- The one-bit word saying that a label counts. -/
def vbit (a : BitVec 32) : BitVec 1 := if Valid a then 1#1 else 0#1

theorem vbit_of_valid {a : BitVec 32} (h : Valid a) : vbit a = 1#1 := if_pos h
theorem vbit_of_not_valid {a : BitVec 32} (h : ¬Valid a) : vbit a = 0#1 := if_neg h

/-- The conjunction of the two signed comparisons, 0 ≤ a and a < 19, is the validity bit. -/
theorem andi_cmpi_eq_vbit (a : BitVec 32) :
    IntOp.andi (IntOp.cmpi .sge a 0#32) (IntOp.cmpi .slt a 19#32) = vbit a := by
  have h0 : (0#32 : BitVec 32).toInt = 0 := by decide
  have h19 : (19#32 : BitVec 32).toInt = 19 := by decide
  unfold vbit Valid IntOp.andi IntOp.cmpi
  simp only [BitVec.sle, BitVec.slt, h0, h19]
  by_cases h1 : 0 ≤ a.toInt <;> by_cases h2 : a.toInt < 19 <;> simp [h1, h2]

/-- The validity bit, widened to 32 bits and read as a signed integer, is the factor 1 or 0. -/
theorem sitofp_vbit (a : BitVec 32) :
    FloatOps.sitofp (F := Ideal) .f32 ((vbit a).setWidth 32) = vf a := by
  show (((((vbit a).setWidth 32).toInt : ℤ) : ℝ) : EReal) = vf a
  unfold vbit vf
  by_cases h : Valid a
  · rw [if_pos h, if_pos h]
    have : ((1#1 : BitVec 1).setWidth 32).toInt = 1 := by decide
    rw [this]; simp
  · rw [if_neg h, if_neg h]
    have : ((0#1 : BitVec 1).setWidth 32).toInt = 0 := by decide
    rw [this]; simp

/-- An equality comparison of two words is the bit of their equality. -/
theorem cmpi_eq_ite {w : Nat} (a b : BitVec w) : IntOp.cmpi .eq a b = if a = b then 1#1 else 0#1 := by
  unfold IntOp.cmpi
  by_cases h : a = b
  · rw [if_pos h, (beq_iff_eq).mpr h]; rfl
  · rw [if_neg h, (beq_eq_false_iff_ne).mpr h]; rfl

/-- A class number, as a word, equals the label made safe exactly when it is the label's class. -/
theorem ofNat_eq_safe_iff (a : BitVec 32) (c : Fin 19) :
    BitVec.ofNat 32 c.val = Scalar.select (vbit a) a 0#32 ↔ cls a = c := by
  have hc : c.val < 19 := c.isLt
  by_cases h : Valid a
  · rw [vbit_of_valid h, select_one]
    have h1 := h.1; have h2 := h.2
    have hcls : (cls a).val = a.toInt.toNat := by unfold cls; rw [dif_pos h]
    have hlt := a.isLt
    have hnat : a.toInt = (a.toNat : ℤ) := by
      rw [BitVec.toInt_eq_toNat_cond] at h1 ⊢
      split_ifs at h1 ⊢ with hh
      · rfl
      · exfalso; omega
    have key : BitVec.ofNat 32 c.val = a ↔ c.val = a.toNat := by
      constructor
      · intro e; rw [← e, BitVec.toNat_ofNat]; omega
      · intro e; apply BitVec.eq_of_toNat_eq; rw [BitVec.toNat_ofNat]; omega
    rw [key]
    constructor
    · intro e; apply Fin.ext; rw [hcls]; omega
    · intro e; rw [← e, hcls]; omega
  · rw [vbit_of_not_valid h, select_zero]
    have hcls : cls a = 0 := by unfold cls; rw [dif_neg h]
    rw [hcls]
    constructor
    · intro e
      have h3 := congrArg BitVec.toNat e
      rw [BitVec.toNat_ofNat] at h3
      have h0 : (0#32 : BitVec 32).toNat = 0 := rfl
      rw [h0] at h3
      apply Fin.ext; show 0 = c.val; omega
    · intro e; rw [← e]; rfl

/-- The comparison of a class number with the label made safe is the bit "the label's class is this one". -/
theorem cmpi_eq_cls (a : BitVec 32) (c : Fin 19) :
    IntOp.cmpi .eq (BitVec.ofNat 32 c.val) (Scalar.select (vbit a) a 0#32) = if cls a = c then 1#1 else 0#1 := by
  rw [cmpi_eq_ite]
  exact if_congr (ofNat_eq_safe_iff a c) rfl rfl

/-! ## The layout steps of the tile, read at an index -/

section Layout
variable {α : Type}

/-- A trailing unit axis added by a shape cast: `[a, b, c]` cast to `[a, b, c, 1]` reads, at `(i, j, k, u)`, the operand
    at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- One row of classes broadcast over the 19 classes reads, at `(0, c, r, w)`, the row at `(0, 0, r, w)`. -/
theorem broadcastTo_classes_apply (v : (⟨4, ![1, 1, 128, 512]⟩ : Shape).Idx → α)
    (h : (⟨4, ![1, 1, 128, 512]⟩ : Shape).Broadcasts ⟨4, ![1, 19, 128, 512]⟩) (c : Fin 19) (r : Fin 128) (w : Fin 512) :
    broadcastTo ⟨4, ![1, 19, 128, 512]⟩ v h (ix4 (0 : Fin 1) c r w) = v (ix4 (0 : Fin 1) (0 : Fin 1) r w) := by
  refine broadcastTo_apply v h (ix4 (0 : Fin 1) c r w) (ix4 (0 : Fin 1) (0 : Fin 1) r w) fun ax => ?_
  match ax with
  | ⟨0, _⟩ => rfl
  | ⟨1, _⟩ => rfl
  | ⟨2, _⟩ => rfl
  | ⟨3, _⟩ => rfl

/-- The index over pixel `(0, r, w)` with class `k` inserted on axis 1 is `(0, k, r, w)`. -/
theorem lift_class (h : (⟨4, ![1, 19, 128, 512]⟩ : Shape).Reduces [1] ⟨3, ![1, 128, 512]⟩) (r : Fin 128) (w : Fin 512)
    (k : Fin 19) : h.lift (ix3 (0 : Fin 1) r w) k = ix4 (0 : Fin 1) k r w := by
  funext ax
  match ax with
  | ⟨0, _⟩ => exact Fin.ext rfl
  | ⟨1, _⟩ => exact Fin.ext rfl
  | ⟨2, _⟩ => exact Fin.ext rfl
  | ⟨3, _⟩ => exact Fin.ext rfl

/-- The index over `(0, c, r)` with lane `w` inserted on axis 3 is `(0, c, r, w)`. -/
theorem lift_lane (h : (⟨4, ![1, 19, 128, 512]⟩ : Shape).Reduces [3] ⟨3, ![1, 19, 128]⟩) (c : Fin 19) (r : Fin 128)
    (w : Fin 512) : h.lift (ix3 (0 : Fin 1) c r) w = ix4 (0 : Fin 1) c r w := by
  funext ax
  match ax with
  | ⟨0, _⟩ => exact Fin.ext rfl
  | ⟨1, _⟩ => exact Fin.ext rfl
  | ⟨2, _⟩ => exact Fin.ext rfl
  | ⟨3, _⟩ => exact Fin.ext rfl

/-- The index over `(0, c, 0)` with row `r` inserted on axis 2 is `(0, c, r, 0)`. -/
theorem lift_row (h : (⟨4, ![1, 19, 128, 1]⟩ : Shape).Reduces [2] ⟨3, ![1, 19, 1]⟩) (c : Fin 19) (r : Fin 128) :
    h.lift (ix3 (0 : Fin 1) c (0 : Fin 1)) r = ix4 (0 : Fin 1) c r (0 : Fin 1) := by
  funext ax
  match ax with
  | ⟨0, _⟩ => exact Fin.ext rfl
  | ⟨1, _⟩ => exact Fin.ext rfl
  | ⟨2, _⟩ => exact Fin.ext rfl
  | ⟨3, _⟩ => exact Fin.ext rfl

end Layout

/-! ## The payloads of the labels, read at an index -/

/-- The labels with a unit class axis added: at `(0, 0, r, w)` the label of pixel `(0, r, w)`. -/
theorem pay5_apply (x1 : Vec Ideal S1x128x512 .i32) (r : Fin 128) (w : Fin 512) :
    k0_pay5 (F := Ideal) x1 (ix4 0 0 r w) = x1 (ix3 0 r w) :=
  shapeCast_abc_1abc_apply x1 shapeCasts_S1x128x512_S1x1x128x512 0 0 r w

/-- The bit "the label is at least 0 and below 19, read signed" is the validity bit of the label. -/
theorem pay6_apply (x1 : Vec Ideal S1x128x512 .i32) (r : Fin 128) (w : Fin 512) :
    k0_pay6 (F := Ideal) x1 (ix4 0 0 r w) = vbit (x1 (ix3 0 r w)) := by
  show IntOp.andi (IntOp.cmpi .sge (k0_pay5 (F := Ideal) x1 (ix4 0 0 r w)) 0#32)
      (IntOp.cmpi .slt (k0_pay5 (F := Ideal) x1 (ix4 0 0 r w)) 19#32) = _
  rw [pay5_apply]
  exact andi_cmpi_eq_vbit _

/-- That bit as a float is the factor 1 of a counted label, 0 of an ignored one. -/
theorem pay7_apply (x1 : Vec Ideal S1x128x512 .i32) (r : Fin 128) (w : Fin 512) :
    k0_pay7 (F := Ideal) x1 (ix4 0 0 r w) = vf (x1 (ix3 0 r w)) := by
  show FloatOps.sitofp (F := Ideal) .f32 ((k0_pay6 (F := Ideal) x1 (ix4 0 0 r w)).setWidth 32) = _
  rw [pay6_apply]
  exact sitofp_vbit _

/-- The comparison of the class number with the label made safe: the bit "pixel `(0, r, w)` is of class `c`". -/
theorem pay8_apply (x1 : Vec Ideal S1x128x512 .i32) (c : Fin 19) (r : Fin 128) (w : Fin 512) :
    k0_pay8 (F := Ideal) x1 (ix4 0 c r w) = if cls (x1 (ix3 0 r w)) = c then 1#1 else 0#1 := by
  have e1 : iota .tc S1x19x128x512 32 [1] iota_S1x19x128x512_d1_w32 (ix4 0 c r w) = BitVec.ofNat 32 c.val :=
    iota_single_apply _ _ _ _ _ _
  have e2 : broadcastTo S1x19x128x512
      (select (k0_pay6 (F := Ideal) x1) (k0_pay5 (F := Ideal) x1) (broadcast S1x1x128x512 0#32))
      broadcasts_S1x1x128x512_S1x19x128x512 (ix4 0 c r w)
        = Scalar.select (vbit (x1 (ix3 0 r w))) (x1 (ix3 0 r w)) 0#32 := by
    refine (broadcastTo_classes_apply _ _ c r w).trans ?_
    show Scalar.select (k0_pay6 (F := Ideal) x1 (ix4 0 0 r w)) (k0_pay5 (F := Ideal) x1 (ix4 0 0 r w)) 0#32 = _
    rw [pay6_apply, pay5_apply]
  show IntOp.cmpi .eq (iota .tc S1x19x128x512 32 [1] iota_S1x19x128x512_d1_w32 (ix4 0 c r w))
      (broadcastTo S1x19x128x512
        (select (k0_pay6 (F := Ideal) x1) (k0_pay5 (F := Ideal) x1) (broadcast S1x1x128x512 0#32))
        broadcasts_S1x1x128x512_S1x19x128x512 (ix4 0 c r w)) = _
  rw [e1, e2]
  exact cmpi_eq_cls _ c

/-- The factor of pixel `(0, r, w)` spread over the classes. -/
theorem pay10_apply (x1 : Vec Ideal S1x128x512 .i32) (c : Fin 19) (r : Fin 128) (w : Fin 512) :
    k0_pay10 (F := Ideal) x1 (ix4 0 c r w) = vf (x1 (ix3 0 r w)) := by
  show broadcastTo S1x19x128x512
      (shapeCast S1x1x128x512 (k0_pay7 (F := Ideal) x1) shapeCasts_S1x1x128x512_S1x1x128x512)
      broadcasts_S1x1x128x512_S1x19x128x512 (ix4 0 c r w) = _
  refine (broadcastTo_classes_apply _ _ c r w).trans ?_
  rw [shapeCast_self]
  exact pay7_apply x1 r w

/-! ## The tile's reductions, read at an index -/

/-- The largest logit of pixel `(0, r, w)`: the maximum over the class axis, from minus infinity. -/
theorem tile_rowmax (x0 : FVec Ideal S1x19x128x512 .f32) (r : Fin 128) (w : Fin 512) :
    multiReduction (F := Ideal) .maximumf [1] S1x128x512 x0 0xFF800000#32 reduces_S1x19x128x512_S1x128x512 (.inl rfl) rfl
        (ix3 0 r w)
      = rowmax (A := 1) (H := 128) x0 0 r w := by
  refine (Ideal.multiReduction_maximumf_single x0 0xFF800000#32 reduces_S1x19x128x512_S1x128x512 (.inl rfl) rfl
    (ix3 0 r w)).trans ?_
  show (Finset.univ : Finset (Fin 19)).fold max (Ideal.ofBits .f32 0xFF800000#32)
      (fun k : Fin 19 => x0 (reduces_S1x19x128x512_S1x128x512.lift (ix3 0 r w) k))
    = (Finset.univ : Finset (Fin 19)).fold max ⊥ (fun k : Fin 19 => x0 (ix4 0 k r w))
  rw [Column.ofBits_negInf_f32]
  exact congrArg (fun f => (Finset.univ : Finset (Fin 19)).fold max ⊥ f)
    (funext fun k => congrArg x0 (lift_class _ r w k))

/-- A sum over the class axis at pixel `(0, r, w)`. -/
theorem tile_classSum (v : FVec Ideal S1x19x128x512 .f32) (r : Fin 128) (w : Fin 512) :
    multiReduction (F := Ideal) .add [1] S1x128x512 v 0x00000000#32 reduces_S1x19x128x512_S1x128x512 (.inl rfl) rfl
        (ix3 0 r w)
      = ∑ k : Fin 19, v (ix4 0 k r w) := by
  refine (Ideal.multiReduction_add_single v 0x00000000#32 reduces_S1x19x128x512_S1x128x512 (.inl rfl) rfl
    (ix3 0 r w)).trans ?_
  show ∑ k : Fin 19, v (reduces_S1x19x128x512_S1x128x512.lift (ix3 0 r w) k) = _
  exact Finset.sum_congr rfl fun k _ => congrArg v (lift_class _ r w k)

/-- The two sums of a tile, over the lanes and then over the rows, at class `c`. -/
theorem tile_sum (v : FVec Ideal S1x19x128x512 .f32) (c : Fin 19) :
    shapeCast S1x19x1x1
        (multiReduction (F := Ideal) .add [2] S1x19x1
          (shapeCast S1x19x128x1
            (multiReduction (F := Ideal) .add [3] S1x19x128 v 0x00000000#32 reduces_S1x19x128x512_S1x19x128 (.inl rfl) rfl)
            shapeCasts_S1x19x128_S1x19x128x1)
          0x00000000#32 reduces_S1x19x128x1_S1x19x1 (.inl rfl) rfl)
        shapeCasts_S1x19x1_S1x19x1x1 (ix4 0 c 0 0)
      = ∑ r : Fin 128, ∑ w : Fin 512, v (ix4 0 c r w) := by
  refine (shapeCast_abc_abc1_apply _ _ 0 c 0 0).trans ?_
  refine (Ideal.multiReduction_add_single _ 0x00000000#32 reduces_S1x19x128x1_S1x19x1 (.inl rfl) rfl (ix3 0 c 0)).trans ?_
  show ∑ r : Fin 128, shapeCast S1x19x128x1
      (multiReduction (F := Ideal) .add [3] S1x19x128 v 0x00000000#32 reduces_S1x19x128x512_S1x19x128 (.inl rfl) rfl)
      shapeCasts_S1x19x128_S1x19x128x1 (reduces_S1x19x128x1_S1x19x1.lift (ix3 0 c 0) r) = _
  refine Finset.sum_congr rfl fun r _ => ?_
  rw [lift_row]
  refine (shapeCast_abc_abc1_apply _ _ 0 c r 0).trans ?_
  refine (Ideal.multiReduction_add_single v 0x00000000#32 reduces_S1x19x128x512_S1x19x128 (.inl rfl) rfl (ix3 0 c r)).trans ?_
  show ∑ w : Fin 512, v (reduces_S1x19x128x512_S1x19x128.lift (ix3 0 c r) w) = _
  exact Finset.sum_congr rfl fun w _ => congrArg v (lift_lane _ c r w)

/-- The accumulator update is the two sums added to what the accumulator held. -/
theorem pay1_eq (v : FVec Ideal S1x19x128x512 .f32) (s : Vec Ideal S1x19x1x1 .f32) :
    k0_pay1 (F := Ideal) v s
      = shapeCast S1x19x1x1 (addf s (shapeCast S1x19x1x1
          (multiReduction (F := Ideal) .add [2] S1x19x1
            (shapeCast S1x19x128x1
              (multiReduction (F := Ideal) .add [3] S1x19x128 v 0x00000000#32 reduces_S1x19x128x512_S1x19x128 (.inl rfl) rfl)
              shapeCasts_S1x19x128_S1x19x128x1)
            0x00000000#32 reduces_S1x19x128x1_S1x19x1 (.inl rfl) rfl)
          shapeCasts_S1x19x1_S1x19x1x1)) shapeCasts_S1x19x1x1_S1x19x1x1 := rfl

/-- The accumulator after a tile, at class `c`: what it held plus the sum of the tile's values of that class. -/
theorem pay1_apply (v : FVec Ideal S1x19x128x512 .f32) (s : Vec Ideal S1x19x1x1 .f32) (c : Fin 19) :
    k0_pay1 (F := Ideal) v s (ix4 0 c 0 0) = s (ix4 0 c 0 0) + ∑ r : Fin 128, ∑ w : Fin 512, v (ix4 0 c r w) := by
  rw [pay1_eq, shapeCast_self]
  exact congrArg (s (ix4 0 c 0 0) + ·) (tile_sum v c)

/-- The count's update is the numerator's, of the masked factors. -/
theorem pay2_eq (b : IVec S1x19x128x512 1) (z : Ideal .f32) (v : FVec Ideal S1x19x128x512 .f32) (s : Vec Ideal S1x19x1x1 .f32) :
    k0_pay2 (F := Ideal) b z v s = k0_pay1 (F := Ideal) (select b v (broadcast S1x19x128x512 z)) s := rfl

/-! ## The negative log-likelihood of a pixel -/

/-- A select on the bit of a decidable proposition is the `if`. -/
theorem select_ite {α : Type} (p : Prop) [Decidable p] (a b : α) :
    Scalar.select (if p then 1#1 else 0#1) a b = if p then a else b := by
  by_cases h : p
  · rw [if_pos h, if_pos h, select_one]
  · rw [if_neg h, if_neg h, select_zero]

/-- The tile's maxima over the classes, with a unit class axis. -/
def tmax (x0 : FVec Ideal S1x19x128x512 .f32) : FVec Ideal S1x1x128x512 .f32 :=
  shapeCast S1x1x128x512
    (multiReduction (F := Ideal) .maximumf [1] S1x128x512 x0 0xFF800000#32 reduces_S1x19x128x512_S1x128x512 (.inl rfl) rfl)
    shapeCasts_S1x128x512_S1x1x128x512

/-- The logarithm of the sum over the classes of the exponentials of the logits less their maximum. -/
def tlse (x0 : FVec Ideal S1x19x128x512 .f32) : FVec Ideal S1x1x128x512 .f32 :=
  log (shapeCast S1x1x128x512
    (multiReduction (F := Ideal) .add [1] S1x128x512
      (exp (subf x0 (broadcastTo S1x19x128x512 (tmax x0) broadcasts_S1x1x128x512_S1x19x128x512)))
      0x00000000#32 reduces_S1x19x128x512_S1x128x512 (.inl rfl) rfl)
    shapeCasts_S1x128x512_S1x1x128x512)

/-- The logit at the label's class, picked out by a masked sum over the classes. -/
def tpick (x0 : FVec Ideal S1x19x128x512 .f32) (x1 : Vec Ideal S1x128x512 .i32) : FVec Ideal S1x1x128x512 .f32 :=
  shapeCast S1x1x128x512
    (multiReduction (F := Ideal) .add [1] S1x128x512
      (select (k0_pay8 (F := Ideal) x1) x0 (broadcast S1x19x128x512 (Scalar.ofBits (F := Ideal) .f32 0x00000000#32)))
      0x00000000#32 reduces_S1x19x128x512_S1x128x512 (.inl rfl) rfl)
    shapeCasts_S1x128x512_S1x1x128x512

/-- The masked per-pixel term in those three quantities. -/
theorem pay9_eq (x0 : FVec Ideal S1x19x128x512 .f32) (x1 : Vec Ideal S1x128x512 .i32) :
    k0_pay9 (F := Ideal) x0 x1
      = select (k0_pay8 (F := Ideal) x1)
          (broadcastTo S1x19x128x512
            (shapeCast S1x1x128x512
              (mulf (subf (addf (tmax x0) (tlse x0)) (tpick x0 x1)) (k0_pay7 (F := Ideal) x1))
              shapeCasts_S1x1x128x512_S1x1x128x512)
            broadcasts_S1x1x128x512_S1x19x128x512)
          (broadcast S1x19x128x512 (Scalar.ofBits (F := Ideal) .f32 0x00000000#32)) := rfl

theorem tmax_apply (x0 : FVec Ideal S1x19x128x512 .f32) (r : Fin 128) (w : Fin 512) :
    tmax x0 (ix4 0 0 r w) = rowmax (A := 1) (H := 128) x0 0 r w :=
  (shapeCast_abc_1abc_apply _ shapeCasts_S1x128x512_S1x1x128x512 0 0 r w).trans (tile_rowmax x0 r w)

theorem tlse_apply (x0 : FVec Ideal S1x19x128x512 .f32) (r : Fin 128) (w : Fin 512) :
    tlse x0 (ix4 0 0 r w) = lse (A := 1) (H := 128) x0 0 r w := by
  show Ideal.log (shapeCast S1x1x128x512
    (multiReduction (F := Ideal) .add [1] S1x128x512
      (exp (subf x0 (broadcastTo S1x19x128x512 (tmax x0) broadcasts_S1x1x128x512_S1x19x128x512)))
      0x00000000#32 reduces_S1x19x128x512_S1x128x512 (.inl rfl) rfl)
    shapeCasts_S1x128x512_S1x1x128x512 (ix4 0 0 r w)) = _
  unfold lse
  refine congrArg Ideal.log ?_
  refine (shapeCast_abc_1abc_apply _ shapeCasts_S1x128x512_S1x1x128x512 0 0 r w).trans ?_
  refine (tile_classSum _ r w).trans ?_
  refine Finset.sum_congr rfl fun k _ => ?_
  show Ideal.exp (x0 (ix4 0 k r w)
    - broadcastTo S1x19x128x512 (tmax x0) broadcasts_S1x1x128x512_S1x19x128x512 (ix4 0 k r w)) = _
  rw [broadcastTo_classes_apply, tmax_apply]

theorem tpick_apply (x0 : FVec Ideal S1x19x128x512 .f32) (x1 : Vec Ideal S1x128x512 .i32) (r : Fin 128) (w : Fin 512) :
    tpick x0 x1 (ix4 0 0 r w) = x0 (ix4 0 (cls (x1 (ix3 0 r w))) r w) := by
  refine (shapeCast_abc_1abc_apply _ shapeCasts_S1x128x512_S1x1x128x512 0 0 r w).trans ?_
  refine (tile_classSum _ r w).trans ?_
  have hk : ∀ k : Fin 19,
      select (k0_pay8 (F := Ideal) x1) x0 (broadcast S1x19x128x512 (Scalar.ofBits (F := Ideal) .f32 0x00000000#32))
          (ix4 0 k r w)
        = if cls (x1 (ix3 0 r w)) = k then x0 (ix4 0 k r w) else 0 := fun k => by
    show Scalar.select (k0_pay8 (F := Ideal) x1 (ix4 0 k r w)) (x0 (ix4 0 k r w)) (Ideal.ofBits .f32 0x00000000#32) = _
    rw [pay8_apply, select_ite, Ideal.ofBits_zero_f32]
  rw [Finset.sum_congr rfl fun k _ => hk k, Finset.sum_ite_eq, if_pos (Finset.mem_univ _)]

/-- A per-pixel value, spread over the classes and masked by a bit, at `(0, c, r, w)`. -/
theorem masked_apply (b : IVec S1x19x128x512 1) (m : FVec Ideal S1x1x128x512 .f32) (c : Fin 19) (r : Fin 128)
    (w : Fin 512) :
    select b
        (broadcastTo S1x19x128x512 (shapeCast S1x1x128x512 m shapeCasts_S1x1x128x512_S1x1x128x512)
          broadcasts_S1x1x128x512_S1x19x128x512)
        (broadcast S1x19x128x512 (Scalar.ofBits (F := Ideal) .f32 0x00000000#32)) (ix4 0 c r w)
      = Scalar.select (b (ix4 0 c r w)) (m (ix4 0 0 r w)) 0 := by
  show Scalar.select (b (ix4 0 c r w))
      (broadcastTo S1x19x128x512 (shapeCast S1x1x128x512 m shapeCasts_S1x1x128x512_S1x1x128x512)
        broadcasts_S1x1x128x512_S1x19x128x512 (ix4 0 c r w))
      (Ideal.ofBits .f32 0x00000000#32) = _
  rw [Ideal.ofBits_zero_f32, broadcastTo_classes_apply, shapeCast_self]

/-- A vector masked by a bit against the zero splat, at an index. -/
theorem masked_zero_apply (b : IVec S1x19x128x512 1) (v : FVec Ideal S1x19x128x512 .f32) (i : S1x19x128x512.Idx) :
    select b v (broadcast S1x19x128x512 (Scalar.ofBits (F := Ideal) .f32 0x00000000#32)) i
      = Scalar.select (b i) (v i) 0 := by
  show Scalar.select (b i) (v i) (Ideal.ofBits .f32 0x00000000#32) = _
  rw [Ideal.ofBits_zero_f32]

/-- A sum, less a third vector, times a fourth, at an index. -/
theorem arith_apply {s : Shape} (T L P K : FVec Ideal s .f32) (i : s.Idx) :
    mulf (subf (addf T L) P) K i = ((T i + L i) - P i) * K i := rfl

/-- The per-pixel term: the negative log-likelihood times the factor. -/
theorem term_apply (x0 : FVec Ideal S1x19x128x512 .f32) (x1 : Vec Ideal S1x128x512 .i32) (r : Fin 128) (w : Fin 512) :
    mulf (subf (addf (tmax x0) (tlse x0)) (tpick x0 x1)) (k0_pay7 (F := Ideal) x1) (ix4 0 0 r w)
      = nll (A := 1) (H := 128) x0 x1 0 r w * vf (x1 (ix3 0 r w)) := by
  refine (arith_apply (tmax x0) (tlse x0) (tpick x0 x1) (k0_pay7 (F := Ideal) x1) (ix4 0 0 r w)).trans ?_
  rw [tmax_apply, tlse_apply, tpick_apply, pay7_apply]
  unfold nll
  rfl

/-- The masked per-pixel term at `(0, c, r, w)`: the pixel's negative log-likelihood times its factor where the pixel is
    of class `c`, zero elsewhere. -/
theorem pay9_apply (x0 : FVec Ideal S1x19x128x512 .f32) (x1 : Vec Ideal S1x128x512 .i32) (c : Fin 19) (r : Fin 128)
    (w : Fin 512) :
    k0_pay9 (F := Ideal) x0 x1 (ix4 0 c r w)
      = if cls (x1 (ix3 0 r w)) = c then nll (A := 1) (H := 128) x0 x1 0 r w * vf (x1 (ix3 0 r w)) else 0 := by
  refine (congrFun (pay9_eq x0 x1) (ix4 0 c r w)).trans ?_
  refine (masked_apply _ _ c r w).trans ?_
  rw [pay8_apply, select_ite, term_apply]

end Payload

open Payload

/-- The numerator accumulator after a tile: what it held plus the tile's contribution, class by class. -/
theorem pay_num (x0 : Vec Ideal S1x19x128x512 .f32) (x1 : Vec Ideal S1x128x512 .i32) (s : Vec Ideal S1x19x1x1 .f32) (c : Fin 19) :
    k0_pay1 (F := Ideal) (k0_pay9 (F := Ideal) x0 x1) s (ix4 0 c 0 0)
      = s (ix4 0 c 0 0) + imgNum (A := 1) (H := 128) x0 x1 0 c := by
  refine (pay1_apply (k0_pay9 (F := Ideal) x0 x1) s c).trans ?_
  unfold imgNum
  refine congrArg (s (ix4 0 c 0 0) + ·) ?_
  refine Finset.sum_congr rfl fun r _ => ?_
  refine Finset.sum_congr rfl fun w _ => ?_
  exact pay9_apply x0 x1 c r w

/-- The count accumulator after a tile: what it held plus the tile's contribution, class by class. -/
theorem pay_cnt (x1 : Vec Ideal S1x128x512 .i32) (s : Vec Ideal S1x19x1x1 .f32) (c : Fin 19) :
    k0_pay2 (F := Ideal) (k0_pay8 (F := Ideal) x1) (Scalar.ofBits .f32 0x00000000#32) (k0_pay10 (F := Ideal) x1) s (ix4 0 c 0 0)
      = s (ix4 0 c 0 0) + imgCnt (A := 1) (H := 128) x1 0 c := by
  refine (congrFun (pay2_eq (k0_pay8 (F := Ideal) x1) (Scalar.ofBits .f32 0x00000000#32) (k0_pay10 (F := Ideal) x1) s)
    (ix4 0 c 0 0)).trans ?_
  refine (pay1_apply _ s c).trans ?_
  unfold imgCnt
  refine congrArg (s (ix4 0 c 0 0) + ·) ?_
  refine Finset.sum_congr rfl fun r _ => ?_
  refine Finset.sum_congr rfl fun w _ => ?_
  refine (masked_zero_apply _ _ (ix4 0 c r w)).trans ?_
  rw [pay8_apply, select_ite, pay10_apply]

/-- The numerator accumulator is reset to zero. -/
theorem pay3_apply (c : Fin 19) : k0_pay3 (F := Ideal) (ix4 0 c 0 0) = 0 := by
  show shapeCast S1x19x1x1 (broadcast S1x19x1x1 (Scalar.ofBits (F := Ideal) .f32 0x00000000#32))
    shapeCasts_S1x19x1x1_S1x19x1x1 (ix4 0 c 0 0) = 0
  rw [shapeCast_self]
  exact Ideal.ofBits_zero_f32

/-- The count accumulator is reset to zero. -/
theorem pay4_apply (c : Fin 19) : k0_pay4 (F := Ideal) (ix4 0 c 0 0) = 0 := by
  show shapeCast S1x19x1x1 (broadcast S1x19x1x1 (Scalar.ofBits (F := Ideal) .f32 0x00000000#32))
    shapeCasts_S1x19x1x1_S1x19x1x1 (ix4 0 c 0 0) = 0
  rw [shapeCast_self]
  exact Ideal.ofBits_zero_f32

end Cert.CE

end
-- ==== Proof.SpecTiles.lean ====
/-
  One image of 512 rows is four tiles of 128 rows: an image's contribution to a class's numerator and count is the sum of its
  four tiles' contributions, each tile read as a batch of one image of 128 rows.
-/
import proofs.«410359_j30545807409282_3_alg».proof.Proof.Spec

noncomputable section

namespace Cert.CE

open Idealize.ShloMosaic Idealize.ShloMosaic.ValueIdx
open scoped BigOperators

/-- Rows 128 s … 128 s + 127 of image b's logits, as a batch of one image of 128 rows. -/
def tileX (x : (⟨4, ![8, 19, 512, 512]⟩ : Shape).Idx → EReal) (b : Fin 8) (s : Fin 4) :
    (⟨4, ![1, 19, 128, 512]⟩ : Shape).Idx → EReal :=
  fun j => x (ix4 b (j 1) (⟨128 * s.val + (j 2).val, by have hs : s.val < 4 := s.isLt; have hj : (j 2).val < 128 := (j 2).isLt; omega⟩ : Fin 512) (j 3))

/-- Rows 128 s … 128 s + 127 of image b's labels, as a batch of one image of 128 rows. -/
def tileT (t : (⟨3, ![8, 512, 512]⟩ : Shape).Idx → BitVec 32) (b : Fin 8) (s : Fin 4) :
    (⟨3, ![1, 128, 512]⟩ : Shape).Idx → BitVec 32 :=
  fun j => t (ix3 b (⟨128 * s.val + (j 1).val, by have hs : s.val < 4 := s.isLt; have hj : (j 1).val < 128 := (j 1).isLt; omega⟩ : Fin 512) (j 2))

/-- Row 128 s + r of the image: row r of tile s. -/
def tileRow (s : Fin 4) (r : Fin 128) : Fin 512 :=
  ⟨128 * s.val + r.val, by have hs : s.val < 4 := s.isLt; have hr : r.val < 128 := r.isLt; omega⟩

/-- A tile's logit at (a, c, r, w) is the image's at (b, c, 128 s + r, w). -/
theorem tileX_apply (x : (⟨4, ![8, 19, 512, 512]⟩ : Shape).Idx → EReal) (b : Fin 8) (s : Fin 4)
    (a : Fin 1) (c : Fin 19) (r : Fin 128) (w : Fin 512) :
    tileX x b s (ix4 a c r w) = x (ix4 b c (tileRow s r) w) := rfl

/-- A tile's label at (a, r, w) is the image's at (b, 128 s + r, w). -/
theorem tileT_apply (t : (⟨3, ![8, 512, 512]⟩ : Shape).Idx → BitVec 32) (b : Fin 8) (s : Fin 4)
    (a : Fin 1) (r : Fin 128) (w : Fin 512) :
    tileT t b s (ix3 a r w) = t (ix3 b (tileRow s r) w) := rfl

/-- The largest logit of a tile's pixel is that of the image's pixel. -/
theorem rowmax_tile (x : (⟨4, ![8, 19, 512, 512]⟩ : Shape).Idx → EReal) (b : Fin 8) (s : Fin 4)
    (a : Fin 1) (r : Fin 128) (w : Fin 512) :
    rowmax (A := 1) (H := 128) (tileX x b s) a r w = rowmax (A := 8) (H := 512) x b (tileRow s r) w := by
  unfold rowmax
  simp only [tileX_apply]

/-- The log-sum-exp of a tile's pixel is that of the image's pixel. -/
theorem lse_tile (x : (⟨4, ![8, 19, 512, 512]⟩ : Shape).Idx → EReal) (b : Fin 8) (s : Fin 4)
    (a : Fin 1) (r : Fin 128) (w : Fin 512) :
    lse (A := 1) (H := 128) (tileX x b s) a r w = lse (A := 8) (H := 512) x b (tileRow s r) w := by
  unfold lse
  simp only [tileX_apply, rowmax_tile]

/-- The negative log-likelihood of a tile's pixel is that of the image's pixel. -/
theorem nll_tile (x : (⟨4, ![8, 19, 512, 512]⟩ : Shape).Idx → EReal) (t : (⟨3, ![8, 512, 512]⟩ : Shape).Idx → BitVec 32)
    (b : Fin 8) (s : Fin 4) (a : Fin 1) (r : Fin 128) (w : Fin 512) :
    nll (A := 1) (H := 128) (tileX x b s) (tileT t b s) a r w = nll (A := 8) (H := 512) x t b (tileRow s r) w := by
  unfold nll
  simp only [tileX_apply, tileT_apply, rowmax_tile, lse_tile]

/-- A sum over the 512 rows is the sum over the four tiles of the sum over a tile's 128 rows: the rows are re-indexed
    through the bijection (s, r) ↦ 128 s + r, which needs only commutativity and associativity of the addition. -/
theorem sum_tiles {M : Type*} [AddCommMonoid M] (f : Fin 512 → M) :
    ∑ h : Fin 512, f h = ∑ s : Fin 4, ∑ r : Fin 128, f (tileRow s r) := by
  rw [← Fintype.sum_prod_type' (f := fun s r => f (tileRow s r))]
  refine (Fintype.sum_equiv (finProdFinEquiv (m := 4) (n := 128)) _ _ (fun p => ?_)).symm
  congr 1
  apply Fin.ext
  have hv : (finProdFinEquiv (m := 4) (n := 128) p).val = p.2.val + 128 * p.1.val := rfl
  rw [hv]
  show 128 * p.1.val + p.2.val = p.2.val + 128 * p.1.val
  omega

/-- An image's numerator contribution is the sum of its four tiles'. -/
theorem imgNum_tiles (x : (⟨4, ![8, 19, 512, 512]⟩ : Shape).Idx → EReal) (t : (⟨3, ![8, 512, 512]⟩ : Shape).Idx → BitVec 32)
    (b : Fin 8) (c : Fin 19) :
    imgNum (A := 8) (H := 512) x t b c = ∑ s : Fin 4, imgNum (A := 1) (H := 128) (tileX x b s) (tileT t b s) 0 c := by
  unfold imgNum
  rw [sum_tiles]
  refine Finset.sum_congr rfl (fun s _ => Finset.sum_congr rfl (fun r _ => Finset.sum_congr rfl (fun w _ => ?_)))
  rw [tileT_apply, nll_tile]

/-- An image's count contribution is the sum of its four tiles'. -/
theorem imgCnt_tiles (t : (⟨3, ![8, 512, 512]⟩ : Shape).Idx → BitVec 32) (b : Fin 8) (c : Fin 19) :
    imgCnt (A := 8) (H := 512) t b c = ∑ s : Fin 4, imgCnt (A := 1) (H := 128) (tileT t b s) 0 c := by
  unfold imgCnt
  rw [sum_tiles]
  refine Finset.sum_congr rfl (fun s _ => Finset.sum_congr rfl (fun r _ => Finset.sum_congr rfl (fun w _ => ?_)))
  rw [tileT_apply]

end Cert.CE

end
-- ==== Proof.KBlocks.lean ====
/-
  The kernel's two input blocks at a grid point. Point t of the 8 x 4 grid is image t / 4, tile t % 4: the logits' block there is
  rows 128 (t % 4) … 128 (t % 4) + 127 of image t / 4, all 19 classes and 512 columns, and the labels' block the same rows
  of the same image.
-/
import proofs.«410359_j30545807409282_3_alg».proof.Proof.Gen.KernelIdeal.Frame
import proofs.«410359_j30545807409282_3_alg».proof.Proof.SpecTiles
import Idealize.ShloMosaic.Lib.Pipeline.Value

noncomputable section

namespace Cert.CE

open Idealize.ShloMosaic Idealize.ShloMosaic.ValueIdx
open scoped BigOperators

open Cert.KernelIdeal Cert.KernelIdeal.Gen Idealize.SL.Sem

variable (m : (ℓ : Loc nD τ sig) → Buf (Elt Ideal) ℓ)

/-- A grid point's image number is below 8. -/
theorem img_lt (t : Fin cfg0.N) : t.val / 4 < 8 := by
  have h : t.val < 32 := lt_of_lt_of_eq t.isLt N_0
  omega

/-- The printed index maps over the grid: on the image axis the block index is t / 4, on the row axis t % 4, on the others 0. -/
theorem KBlocks.idx_facts : ∀ t : Fin cfg0.N,
    win0_0.index t (0 : Fin 4) = t.val / 4 ∧ win0_0.index t (1 : Fin 4) = 0
    ∧ win0_0.index t (2 : Fin 4) = t.val % 4 ∧ win0_0.index t (3 : Fin 4) = 0
    ∧ win0_1.index t (0 : Fin 3) = t.val / 4 ∧ win0_1.index t (1 : Fin 3) = t.val % 4
    ∧ win0_1.index t (2 : Fin 3) = 0 :=
  (by decide +kernel : ∀ t : Fin grid0.N, _)

/-- The logits' block at point t is tile t % 4 of image t / 4. -/
theorem iblk0_eq (c : Dev nD) (t : Fin cfg0.N) :
    iblk (F := Ideal) m c 0 t
      = tileX (m ((c.tc : Thread nD τ).loc main_arg0)) ⟨t.val / 4, img_lt t⟩ ⟨t.val % 4, Nat.mod_lt _ (by decide)⟩ := by
  obtain ⟨e0, e1, e2, e3, e4, e5, e6⟩ := KBlocks.idx_facts t
  funext j
  show V m c main_arg0 (((cfg0.win 0).blk t).view.emb j) = m ((c.tc : Thread nD τ).loc main_arg0) _
  refine congrArg (m ((c.tc : Thread nD τ).loc main_arg0)) ?_
  funext a
  apply Fin.ext
  match a with
  | ⟨0, _⟩ =>
    show win0_0.index t (0 : Fin 4) * 1 + 1 * (j 0).val = t.val / 4
    have hj : (j 0).val < 1 := (j 0).isLt
    omega
  | ⟨1, _⟩ =>
    show win0_0.index t (1 : Fin 4) * 19 + 1 * (j 1).val = (j 1).val
    omega
  | ⟨2, _⟩ =>
    show win0_0.index t (2 : Fin 4) * 128 + 1 * (j 2).val = 128 * (t.val % 4) + (j 2).val
    omega
  | ⟨3, _⟩ =>
    show win0_0.index t (3 : Fin 4) * 512 + 1 * (j 3).val = (j 3).val
    omega

/-- The labels' block at point t is tile t % 4 of image t / 4. -/
theorem iblk1_eq (c : Dev nD) (t : Fin cfg0.N) :
    iblk (F := Ideal) m c 1 t
      = tileT (m ((c.tc : Thread nD τ).loc main_arg1)) ⟨t.val / 4, img_lt t⟩ ⟨t.val % 4, Nat.mod_lt _ (by decide)⟩ := by
  obtain ⟨e0, e1, e2, e3, e4, e5, e6⟩ := KBlocks.idx_facts t
  funext j
  show V m c main_arg1 (((cfg0.win 1).blk t).view.emb j) = m ((c.tc : Thread nD τ).loc main_arg1) _
  refine congrArg (m ((c.tc : Thread nD τ).loc main_arg1)) ?_
  funext a
  apply Fin.ext
  match a with
  | ⟨0, _⟩ =>
    show win0_1.index t (0 : Fin 3) * 1 + 1 * (j 0).val = t.val / 4
    have hj : (j 0).val < 1 := (j 0).isLt
    omega
  | ⟨1, _⟩ =>
    show win0_1.index t (1 : Fin 3) * 128 + 1 * (j 1).val = 128 * (t.val % 4) + (j 1).val
    omega
  | ⟨2, _⟩ =>
    show win0_1.index t (2 : Fin 3) * 512 + 1 * (j 2).val = (j 2).val
    omega

end Cert.CE

end
-- ==== Proof.KAccum.lean ====
/-
  What the kernel's two output arrays hold after the region. The grid is 8 images by 4 tiles; at image b the two
  accumulators are reset at tile 0, each tile adds its contribution, and after tile 3 they are copied to row b of the
  outputs: entry (b, c, 0, 0) of the first output is image b's contribution to class c's numerator, of the second its
  contribution to class c's count.
-/
import proofs.«410359_j30545807409282_3_alg».proof.Proof.Gen.KernelIdeal.Frame
import proofs.«410359_j30545807409282_3_alg».proof.Proof.KPieces
import proofs.«410359_j30545807409282_3_alg».proof.Proof.KPayload
import proofs.«410359_j30545807409282_3_alg».proof.Proof.SpecTiles
import proofs.«410359_j30545807409282_3_alg».proof.Proof.KBlocks
import Idealize.ShloMosaic.Lib.Pipeline.Value

noncomputable section

namespace Cert.CE

open Idealize.ShloMosaic Idealize.ShloMosaic.ValueIdx
open scoped BigOperators

open Cert.KernelIdeal Cert.KernelIdeal.Gen Idealize.SL.Sem

variable (m : (ℓ : Loc nD τ sig) → Buf (Elt Ideal) ℓ)

/-! ## The blocks and the arrays, by name -/

/-- The logits' block at point t. -/
abbrev xblk (c : Dev nD) (t : Fin cfg0.N) : Vec Ideal S1x19x128x512 .f32 := iblk m c 0 t
/-- The labels' block at point t. -/
abbrev tblk (c : Dev nD) (t : Fin cfg0.N) : Vec Ideal S1x128x512 .i32 := iblk m c 1 t
/-- The logits as the region finds them. -/
abbrev xarr (c : Dev nD) : Vec Ideal S8x19x512x512 .f32 := m ((c.tc : Thread nD τ).loc main_arg0)
/-- The labels as the region finds them. -/
abbrev tarr (c : Dev nD) : Vec Ideal S8x512x512 .i32 := m ((c.tc : Thread nD τ).loc main_arg1)

/-- The two outputs' block at point t is row t / 4 of the output: their block indices there. -/
theorem out_idx_facts : ∀ t : Fin cfg0.N,
    win0_2.index t (0 : Fin 4) = t.val / 4 ∧ win0_2.index t (1 : Fin 4) = 0 ∧ win0_2.index t (2 : Fin 4) = 0 ∧ win0_2.index t (3 : Fin 4) = 0
    ∧ win0_3.index t (0 : Fin 4) = t.val / 4 ∧ win0_3.index t (1 : Fin 4) = 0 ∧ win0_3.index t (2 : Fin 4) = 0 ∧ win0_3.index t (3 : Fin 4) = 0 :=
  (by decide +kernel : ∀ t : Fin grid0.N, _)

/-- The logits' block at point 4 b + s is tile s of image b. -/
theorem xblk_eq (c : Dev nD) (t : Fin cfg0.N) (b : Fin 8) (s : Fin 4) (h : t.val = 4 * b.val + s.val) :
    xblk m c t = tileX (xarr m c) b s := by
  have hs4 : s.val < 4 := s.isLt
  have hb : (⟨t.val / 4, img_lt t⟩ : Fin 8) = b := Fin.ext (by show t.val / 4 = b.val; omega)
  have hs : (⟨t.val % 4, Nat.mod_lt _ (by decide)⟩ : Fin 4) = s := Fin.ext (by show t.val % 4 = s.val; omega)
  exact (iblk0_eq m c t).trans (by rw [hb, hs])

/-- The labels' block at point 4 b + s is tile s of image b. -/
theorem tblk_eq (c : Dev nD) (t : Fin cfg0.N) (b : Fin 8) (s : Fin 4) (h : t.val = 4 * b.val + s.val) :
    tblk m c t = tileT (tarr m c) b s := by
  have hs4 : s.val < 4 := s.isLt
  have hb : (⟨t.val / 4, img_lt t⟩ : Fin 8) = b := Fin.ext (by show t.val / 4 = b.val; omega)
  have hs : (⟨t.val % 4, Nat.mod_lt _ (by decide)⟩ : Fin 4) = s := Fin.ext (by show t.val % 4 = s.val; omega)
  exact (iblk1_eq m c t).trans (by rw [hb, hs])

/-! ## One point's step of the two accumulators, read at a class -/

/-- Tile t's contribution to class cl's numerator. -/
abbrev tNum (c : Dev nD) (t : Fin cfg0.N) (cl : Fin 19) : EReal :=
  imgNum (A := 1) (H := 128) (xblk m c t) (tblk m c t) 0 cl
/-- Tile t's contribution to class cl's count. -/
abbrev tCnt (c : Dev nD) (t : Fin cfg0.N) (cl : Fin 19) : EReal :=
  imgCnt (A := 1) (H := 128) (tblk m c t) 0 cl

/-- At an image's first tile the numerator accumulator restarts from zero. -/
theorem num_reset (c : Dev nD) (t : Fin cfg0.N) (h0 : t.val % 4 = 0) (cl : Fin 19) :
    (outsAt0 m c t.val t.isLt).2.2.1 (ix4 0 cl 0 0) = 0 + tNum m c t cl := by
  have h1 : ¬t.val % 4 = 3 := by omega
  rw [outsAt0_A m c t h0 h1]
  dsimp only
  refine (congrFun (sout0_A_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)) (ix4 0 cl 0 0)).trans ?_
  refine (pay_num (xblk m c t) (tblk m c t) (k0_pay3 (F := Ideal)) cl).trans ?_
  rw [pay3_apply]

/-- At an image's first tile the count accumulator restarts from zero. -/
theorem cnt_reset (c : Dev nD) (t : Fin cfg0.N) (h0 : t.val % 4 = 0) (cl : Fin 19) :
    (outsAt0 m c t.val t.isLt).2.2.2 (ix4 0 cl 0 0) = 0 + tCnt m c t cl := by
  have h1 : ¬t.val % 4 = 3 := by omega
  rw [outsAt0_A m c t h0 h1]
  dsimp only
  refine (congrFun (sout0_A_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)) (ix4 0 cl 0 0)).trans ?_
  refine (pay_cnt (tblk m c t) (k0_pay4 (F := Ideal)) cl).trans ?_
  rw [pay4_apply]

/-- At a later tile of an image the numerator accumulator takes the tile's contribution over what the tile before left. -/
theorem num_step (c : Dev nD) (n : ℕ) (hn : n + 1 < cfg0.N) (h0 : ¬(n + 1) % 4 = 0) (cl : Fin 19) :
    (outsAt0 m c (n + 1) hn).2.2.1 (ix4 0 cl 0 0)
      = (outsAt0 m c n (Nat.lt_of_succ_lt hn)).2.2.1 (ix4 0 cl 0 0) + tNum m c (⟨n + 1, hn⟩ : Fin cfg0.N) cl := by
  by_cases h1 : (n + 1) % 4 = 3
  · rw [outsAt0_C m c (⟨n + 1, hn⟩ : Fin cfg0.N) h0 h1]
    dsimp only
    refine (congrFun (sout0_C_0_eq (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (outsAt0 m c n (Nat.lt_of_succ_lt hn)).2.2.1 (outsAt0 m c n (Nat.lt_of_succ_lt hn)).2.2.2) (ix4 0 cl 0 0)).trans ?_
    exact pay_num (xblk m c (⟨n + 1, hn⟩ : Fin cfg0.N)) (tblk m c (⟨n + 1, hn⟩ : Fin cfg0.N)) (outsAt0 m c n (Nat.lt_of_succ_lt hn)).2.2.1 cl
  · rw [outsAt0_B m c (⟨n + 1, hn⟩ : Fin cfg0.N) h0 h1]
    dsimp only
    refine (congrFun (sout0_B_0_eq (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) (fun h => h0 ((hcond0_0 (⟨n + 1, hn⟩ : Fin cfg0.N)).mp h)) (fun h => h1 ((hcond0_1 (⟨n + 1, hn⟩ : Fin cfg0.N)).mp h)) (iblk m c 0 (⟨n + 1, hn⟩ : Fin cfg0.N)) (iblk m c 1 (⟨n + 1, hn⟩ : Fin cfg0.N)) (outsAt0 m c n (Nat.lt_of_succ_lt hn)).2.2.1 (outsAt0 m c n (Nat.lt_of_succ_lt hn)).2.2.2) (ix4 0 cl 0 0)).trans ?_
    exact pay_num (xblk m c (⟨n + 1, hn⟩ : Fin cfg0.N)) (tblk m c (⟨n + 1, hn⟩ : Fin cfg0.N)) (outsAt0 m c n (Nat.lt_of_succ_lt hn)).2.2.1 cl

/-- At a later tile of an image the count accumulator takes the tile's contribution over what the tile before left. -/
theorem cnt_step (c : Dev nD) (n : ℕ) (hn : n + 1 < cfg0.N) (h0 : ¬(n + 1) % 4 = 0) (cl : Fin 19) :
    (outsAt0 m c (n + 1) hn).2.2.2 (ix4 0 cl 0 0)
      = (outsAt0 m c n (Nat.lt_of_succ_lt hn)).2.2.2 (ix4 0 cl 0 0) + tCnt m c (⟨n + 1, hn⟩ : Fin cfg0.N) cl := by
  by_cases h1 : (n + 1) % 4 = 3
  · rw [outsAt0_C m c (⟨n + 1, hn⟩ : Fin cfg0.N) h0 h1]
    dsimp only
    refine (congrFun (sout0_C_1_eq (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (outsAt0 m c n (Nat.lt_of_succ_lt hn)).2.2.1 (outsAt0 m c n (Nat.lt_of_succ_lt hn)).2.2.2) (ix4 0 cl 0 0)).trans ?_
    exact pay_cnt (tblk m c (⟨n + 1, hn⟩ : Fin cfg0.N)) (outsAt0 m c n (Nat.lt_of_succ_lt hn)).2.2.2 cl
  · rw [outsAt0_B m c (⟨n + 1, hn⟩ : Fin cfg0.N) h0 h1]
    dsimp only
    refine (congrFun (sout0_B_1_eq (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) (fun h => h0 ((hcond0_0 (⟨n + 1, hn⟩ : Fin cfg0.N)).mp h)) (fun h => h1 ((hcond0_1 (⟨n + 1, hn⟩ : Fin cfg0.N)).mp h)) (iblk m c 0 (⟨n + 1, hn⟩ : Fin cfg0.N)) (iblk m c 1 (⟨n + 1, hn⟩ : Fin cfg0.N)) (outsAt0 m c n (Nat.lt_of_succ_lt hn)).2.2.1 (outsAt0 m c n (Nat.lt_of_succ_lt hn)).2.2.2) (ix4 0 cl 0 0)).trans ?_
    exact pay_cnt (tblk m c (⟨n + 1, hn⟩ : Fin cfg0.N)) (outsAt0 m c n (Nat.lt_of_succ_lt hn)).2.2.2 cl

/-- At an image's last tile the first output's block is the numerator accumulator as that tile leaves it. -/
theorem num_out (c : Dev nD) (n : ℕ) (hn : n + 1 < cfg0.N) (h1 : (n + 1) % 4 = 3) (cl : Fin 19) :
    (outsAt0 m c (n + 1) hn).1 (ix4 0 cl 0 0)
      = (outsAt0 m c n (Nat.lt_of_succ_lt hn)).2.2.1 (ix4 0 cl 0 0) + tNum m c (⟨n + 1, hn⟩ : Fin cfg0.N) cl := by
  have h0 : ¬(n + 1) % 4 = 0 := by omega
  rw [outsAt0_C m c (⟨n + 1, hn⟩ : Fin cfg0.N) h0 h1]
  dsimp only
  refine (congrFun (out0_C_2_eq (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (outsAt0 m c n (Nat.lt_of_succ_lt hn)).2.2.1 (outsAt0 m c n (Nat.lt_of_succ_lt hn)).2.2.2) (ix4 0 cl 0 0)).trans ?_
  exact pay_num (xblk m c (⟨n + 1, hn⟩ : Fin cfg0.N)) (tblk m c (⟨n + 1, hn⟩ : Fin cfg0.N)) (outsAt0 m c n (Nat.lt_of_succ_lt hn)).2.2.1 cl

/-- At an image's last tile the second output's block is the count accumulator as that tile leaves it. -/
theorem cnt_out (c : Dev nD) (n : ℕ) (hn : n + 1 < cfg0.N) (h1 : (n + 1) % 4 = 3) (cl : Fin 19) :
    (outsAt0 m c (n + 1) hn).2.1 (ix4 0 cl 0 0)
      = (outsAt0 m c n (Nat.lt_of_succ_lt hn)).2.2.2 (ix4 0 cl 0 0) + tCnt m c (⟨n + 1, hn⟩ : Fin cfg0.N) cl := by
  have h0 : ¬(n + 1) % 4 = 0 := by omega
  rw [outsAt0_C m c (⟨n + 1, hn⟩ : Fin cfg0.N) h0 h1]
  dsimp only
  refine (congrFun (out0_C_3_eq (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (outsAt0 m c n (Nat.lt_of_succ_lt hn)).2.2.1 (outsAt0 m c n (Nat.lt_of_succ_lt hn)).2.2.2) (ix4 0 cl 0 0)).trans ?_
  exact pay_cnt (tblk m c (⟨n + 1, hn⟩ : Fin cfg0.N)) (outsAt0 m c n (Nat.lt_of_succ_lt hn)).2.2.2 cl

/-! ## An image's four tiles -/

/-- A tile's contribution to the numerator, in terms of the whole arrays. -/
theorem tNum_eq (c : Dev nD) (t : Fin cfg0.N) (b : Fin 8) (s : Fin 4) (h : t.val = 4 * b.val + s.val) (cl : Fin 19) :
    tNum m c t cl = imgNum (A := 1) (H := 128) (tileX (xarr m c) b s) (tileT (tarr m c) b s) 0 cl := by
  show imgNum (A := 1) (H := 128) (xblk m c t) (tblk m c t) 0 cl = _
  rw [xblk_eq m c t b s h, tblk_eq m c t b s h]

/-- A tile's contribution to the count, in terms of the whole array. -/
theorem tCnt_eq (c : Dev nD) (t : Fin cfg0.N) (b : Fin 8) (s : Fin 4) (h : t.val = 4 * b.val + s.val) (cl : Fin 19) :
    tCnt m c t cl = imgCnt (A := 1) (H := 128) (tileT (tarr m c) b s) 0 cl := by
  show imgCnt (A := 1) (H := 128) (tblk m c t) 0 cl = _
  rw [tblk_eq m c t b s h]

/-- After an image's last tile the first output's block holds, at a class, zero plus the four tiles' contributions in order. -/
theorem num_image (c : Dev nD) (n : ℕ) (hn : n + 1 + 1 + 1 < cfg0.N) (h4 : n % 4 = 0) (cl : Fin 19) :
    (outsAt0 m c (n + 1 + 1 + 1) hn).1 (ix4 0 cl 0 0)
      = 0 + tNum m c (⟨n, Nat.lt_of_succ_lt (Nat.lt_of_succ_lt (Nat.lt_of_succ_lt hn))⟩ : Fin cfg0.N) cl + tNum m c (⟨n + 1, Nat.lt_of_succ_lt (Nat.lt_of_succ_lt hn)⟩ : Fin cfg0.N) cl + tNum m c (⟨n + 1 + 1, Nat.lt_of_succ_lt hn⟩ : Fin cfg0.N) cl + tNum m c (⟨n + 1 + 1 + 1, hn⟩ : Fin cfg0.N) cl := by
  rw [num_out m c (n + 1 + 1) hn (by omega) cl, num_step m c (n + 1) (Nat.lt_of_succ_lt hn) (by omega) cl,
    num_step m c n (Nat.lt_of_succ_lt (Nat.lt_of_succ_lt hn)) (by omega) cl, num_reset m c (⟨n, Nat.lt_of_succ_lt (Nat.lt_of_succ_lt (Nat.lt_of_succ_lt hn))⟩ : Fin cfg0.N) h4 cl]

/-- After an image's last tile the second output's block holds, at a class, zero plus the four tiles' contributions in order. -/
theorem cnt_image (c : Dev nD) (n : ℕ) (hn : n + 1 + 1 + 1 < cfg0.N) (h4 : n % 4 = 0) (cl : Fin 19) :
    (outsAt0 m c (n + 1 + 1 + 1) hn).2.1 (ix4 0 cl 0 0)
      = 0 + tCnt m c (⟨n, Nat.lt_of_succ_lt (Nat.lt_of_succ_lt (Nat.lt_of_succ_lt hn))⟩ : Fin cfg0.N) cl + tCnt m c (⟨n + 1, Nat.lt_of_succ_lt (Nat.lt_of_succ_lt hn)⟩ : Fin cfg0.N) cl + tCnt m c (⟨n + 1 + 1, Nat.lt_of_succ_lt hn⟩ : Fin cfg0.N) cl + tCnt m c (⟨n + 1 + 1 + 1, hn⟩ : Fin cfg0.N) cl := by
  rw [cnt_out m c (n + 1 + 1) hn (by omega) cl, cnt_step m c (n + 1) (Nat.lt_of_succ_lt hn) (by omega) cl,
    cnt_step m c n (Nat.lt_of_succ_lt (Nat.lt_of_succ_lt hn)) (by omega) cl, cnt_reset m c (⟨n, Nat.lt_of_succ_lt (Nat.lt_of_succ_lt (Nat.lt_of_succ_lt hn))⟩ : Fin cfg0.N) h4 cl]

/-! ## What a flushing point writes back, and the arrays after the region -/

/-- The contributions of one image and class do not depend on how the image and the class are written. -/
theorem imgNum_congr (x : (⟨4, ![8, 19, 512, 512]⟩ : Shape).Idx → EReal) (t : (⟨3, ![8, 512, 512]⟩ : Shape).Idx → BitVec 32)
    {b b' : Fin 8} {cl cl' : Fin 19} (hb : b.val = b'.val) (hc : cl.val = cl'.val) :
    imgNum (A := 8) (H := 512) x t b cl = imgNum (A := 8) (H := 512) x t b' cl' := by
  obtain rfl : b = b' := Fin.ext hb
  obtain rfl : cl = cl' := Fin.ext hc
  rfl

theorem imgCnt_congr (t : (⟨3, ![8, 512, 512]⟩ : Shape).Idx → BitVec 32)
    {b b' : Fin 8} {cl cl' : Fin 19} (hb : b.val = b'.val) (hc : cl.val = cl'.val) :
    imgCnt (A := 8) (H := 512) t b cl = imgCnt (A := 8) (H := 512) t b' cl' := by
  obtain rfl : b = b' := Fin.ext hb
  obtain rfl : cl = cl' := Fin.ext hc
  rfl

/-- The first output array after the region, as one function of the argument arrays. -/
abbrev Gnum (c : Dev nD) : Vec Ideal S8x19x1x1 .f32 :=
  fun i => imgNum (A := 8) (H := 512) (xarr m c) (tarr m c) (i 0) (i 1)
/-- The second output array after the region, as one function of the labels. -/
abbrev Gcnt (c : Dev nD) : Vec Ideal S8x19x1x1 .f32 :=
  fun i => imgCnt (A := 8) (H := 512) (tarr m c) (i 0) (i 1)

/-- At an image's last tile the first output's block is, class by class, the image's contribution to the numerator:
    the four tiles' contributions added in order from zero are the image's, by commutativity and associativity alone. -/
theorem num_block (c : Dev nD) (t : Fin cfg0.N) (h3 : t.val % 4 = 3) (y : S1x19x1x1.Idx) :
    (outsAt0 m c t.val t.isLt).1 y = imgNum (A := 8) (H := 512) (xarr m c) (tarr m c) ⟨t.val / 4, img_lt t⟩ (y 1) := by
  obtain ⟨k, hk⟩ := t
  obtain ⟨n, rfl⟩ : ∃ n, k = n + 1 + 1 + 1 := ⟨k - 3, by dsimp only at h3; omega⟩
  obtain ⟨a, cl, d, e, rfl⟩ : ∃ (a : Fin 1) (cl : Fin 19) (d : Fin 1) (e : Fin 1), y = ix4 a cl d e :=
    ⟨y 0, y 1, y 2, y 3, eq_ix4 y⟩
  obtain rfl : a = 0 := Subsingleton.elim _ _
  obtain rfl : d = 0 := Subsingleton.elim _ _
  obtain rfl : e = 0 := Subsingleton.elim _ _
  have h4 : n % 4 = 0 := by dsimp only at h3; omega
  have hN : n + 1 + 1 + 1 < 32 := lt_of_lt_of_eq hk N_0
  have hb : n / 4 < 8 := by omega
  refine (num_image m c n hk h4 cl).trans ?_
  rw [tNum_eq m c ⟨n, _⟩ ⟨n / 4, hb⟩ 0 (by show n = 4 * (n / 4) + 0; omega) cl,
    tNum_eq m c ⟨n + 1, _⟩ ⟨n / 4, hb⟩ 1 (by show n + 1 = 4 * (n / 4) + 1; omega) cl,
    tNum_eq m c ⟨n + 1 + 1, _⟩ ⟨n / 4, hb⟩ 2 (by show n + 1 + 1 = 4 * (n / 4) + 2; omega) cl,
    tNum_eq m c ⟨n + 1 + 1 + 1, _⟩ ⟨n / 4, hb⟩ 3 (by show n + 1 + 1 + 1 = 4 * (n / 4) + 3; omega) cl, zero_add]
  refine Eq.trans ?_ (imgNum_congr (xarr m c) (tarr m c) (b := ⟨n / 4, hb⟩) (cl := cl) (by show n / 4 = (n + 1 + 1 + 1) / 4; omega) rfl)
  rw [imgNum_tiles, Fin.sum_univ_four]

/-- At an image's last tile the second output's block is, class by class, the image's contribution to the count. -/
theorem cnt_block (c : Dev nD) (t : Fin cfg0.N) (h3 : t.val % 4 = 3) (y : S1x19x1x1.Idx) :
    (outsAt0 m c t.val t.isLt).2.1 y = imgCnt (A := 8) (H := 512) (tarr m c) ⟨t.val / 4, img_lt t⟩ (y 1) := by
  obtain ⟨k, hk⟩ := t
  obtain ⟨n, rfl⟩ : ∃ n, k = n + 1 + 1 + 1 := ⟨k - 3, by dsimp only at h3; omega⟩
  obtain ⟨a, cl, d, e, rfl⟩ : ∃ (a : Fin 1) (cl : Fin 19) (d : Fin 1) (e : Fin 1), y = ix4 a cl d e :=
    ⟨y 0, y 1, y 2, y 3, eq_ix4 y⟩
  obtain rfl : a = 0 := Subsingleton.elim _ _
  obtain rfl : d = 0 := Subsingleton.elim _ _
  obtain rfl : e = 0 := Subsingleton.elim _ _
  have h4 : n % 4 = 0 := by dsimp only at h3; omega
  have hN : n + 1 + 1 + 1 < 32 := lt_of_lt_of_eq hk N_0
  have hb : n / 4 < 8 := by omega
  refine (cnt_image m c n hk h4 cl).trans ?_
  rw [tCnt_eq m c ⟨n, _⟩ ⟨n / 4, hb⟩ 0 (by show n = 4 * (n / 4) + 0; omega) cl,
    tCnt_eq m c ⟨n + 1, _⟩ ⟨n / 4, hb⟩ 1 (by show n + 1 = 4 * (n / 4) + 1; omega) cl,
    tCnt_eq m c ⟨n + 1 + 1, _⟩ ⟨n / 4, hb⟩ 2 (by show n + 1 + 1 = 4 * (n / 4) + 2; omega) cl,
    tCnt_eq m c ⟨n + 1 + 1 + 1, _⟩ ⟨n / 4, hb⟩ 3 (by show n + 1 + 1 + 1 = 4 * (n / 4) + 3; omega) cl, zero_add]
  refine Eq.trans ?_ (imgCnt_congr (tarr m c) (b := ⟨n / 4, hb⟩) (cl := cl) (by show n / 4 = (n + 1 + 1 + 1) / 4; omega) rfl)
  rw [imgCnt_tiles, Fin.sum_univ_four]

/-- What a flushing point writes back into the first output is its block of the one function of the arguments. -/
theorem flushed2_eq (c : Dev nD) (t : Fin cfg0.N) (hf : (cfg0.win 2).flush t = true) :
    (dats m 0 c).flushed 2 t = ((cfg0.win 2).blk t).view.read (Elt Ideal) (Gnum m c) := by
  have h3 : t.val % 4 = 3 := (flush0_2 t).mp hf
  obtain ⟨e0, e1, -⟩ := out_idx_facts t
  show (cfg0.win 2).cut (grid0.coords t) ((dats m 0 c).after 2 t) = _
  rw [after0_2]
  funext y
  refine (num_block m c t h3 y).trans ?_
  show imgNum (A := 8) (H := 512) (xarr m c) (tarr m c) ⟨t.val / 4, img_lt t⟩ (y 1)
    = imgNum (A := 8) (H := 512) (xarr m c) (tarr m c) ((((cfg0.win 2).blk t).view.emb y) 0) ((((cfg0.win 2).blk t).view.emb y) 1)
  refine imgNum_congr _ _ ?_ ?_
  · show t.val / 4 = win0_2.index t (0 : Fin 4) * 1 + 1 * (y 0).val
    have hy : (y 0).val < 1 := (y 0).isLt
    omega
  · show (y 1).val = win0_2.index t (1 : Fin 4) * 19 + 1 * (y 1).val
    omega

/-- What a flushing point writes back into the second output is its block of the one function of the labels. -/
theorem flushed3_eq (c : Dev nD) (t : Fin cfg0.N) (hf : (cfg0.win 3).flush t = true) :
    (dats m 0 c).flushed 3 t = ((cfg0.win 3).blk t).view.read (Elt Ideal) (Gcnt m c) := by
  have h3 : t.val % 4 = 3 := (flush0_3 t).mp hf
  obtain ⟨-, -, -, -, e0, e1, -⟩ := out_idx_facts t
  show (cfg0.win 3).cut (grid0.coords t) ((dats m 0 c).after 3 t) = _
  rw [after0_3]
  funext y
  refine (cnt_block m c t h3 y).trans ?_
  show imgCnt (A := 8) (H := 512) (tarr m c) ⟨t.val / 4, img_lt t⟩ (y 1)
    = imgCnt (A := 8) (H := 512) (tarr m c) ((((cfg0.win 3).blk t).view.emb y) 0) ((((cfg0.win 3).blk t).view.emb y) 1)
  refine imgCnt_congr _ ?_ ?_
  · show t.val / 4 = win0_3.index t (0 : Fin 4) * 1 + 1 * (y 0).val
    have hy : (y 0).val < 1 := (y 0).isLt
    omega
  · show (y 1).val = win0_3.index t (1 : Fin 4) * 19 + 1 * (y 1).val
    omega

/-- An index of the first output is in point t's block iff each coordinate is in the block's range on its axis. -/
theorem mem_blk2 (t : Fin cfg0.N) (i : S8x19x1x1.Idx) :
    i ∈ ((cfg0.win 2).blk t).view.set ↔ ∀ a : Fin 4, win0_2.index t a * S1x19x1x1.size a ≤ (i a).val ∧ (i a).val < win0_2.index t a * S1x19x1x1.size a + S1x19x1x1.size a := by
  show i ∈ ((View.whole main_v0_0).slice (win0_2.rect t)).set ↔ _
  rw [View.set_slice_whole, Rect.mem_set_unit]
  exact Iff.rfl

/-- An index of the second output is in point t's block iff each coordinate is in the block's range on its axis. -/
theorem mem_blk3 (t : Fin cfg0.N) (i : S8x19x1x1.Idx) :
    i ∈ ((cfg0.win 3).blk t).view.set ↔ ∀ a : Fin 4, win0_3.index t a * S1x19x1x1.size a ≤ (i a).val ∧ (i a).val < win0_3.index t a * S1x19x1x1.size a + S1x19x1x1.size a := by
  show i ∈ ((View.whole main_v0_1).slice (win0_3.rect t)).set ↔ _
  rw [View.set_slice_whole, Rect.mem_set_unit]
  exact Iff.rfl

/-- The last tile of image b is point 4 b + 3. -/
def lastPt (b : ℕ) (hb : b < 8) : Fin cfg0.N := ⟨4 * b + 3, lt_of_lt_of_eq (by omega) N_0.symm⟩

/-- Row b of the first output is written back at image b's last tile. -/
theorem cover2 (i : S8x19x1x1.Idx) :
    ∃ t : Fin cfg0.N, (cfg0.win 2).flush t = true ∧ i ∈ ((cfg0.win 2).blk t).view.set := by
  have hi0 : (i 0).val < 8 := (i 0).isLt
  have hi1 : (i 1).val < 19 := (i 1).isLt
  have hi2 : (i 2).val < 1 := (i 2).isLt
  have hi3 : (i 3).val < 1 := (i 3).isLt
  refine ⟨lastPt (i 0).val hi0, (flush0_2 _).mpr (by show (4 * (i 0).val + 3) % 4 = 3; omega), ?_⟩
  obtain ⟨e0, e1, e2, e3, -⟩ := out_idx_facts (lastPt (i 0).val hi0)
  have ev : (lastPt (i 0).val hi0).val = 4 * (i 0).val + 3 := rfl
  rw [mem_blk2]
  intro a
  match a with
  | ⟨0, _⟩ => show win0_2.index (lastPt (i 0).val hi0) (0 : Fin 4) * 1 ≤ (i 0).val ∧ (i 0).val < win0_2.index (lastPt (i 0).val hi0) (0 : Fin 4) * 1 + 1; omega
  | ⟨1, _⟩ => show win0_2.index (lastPt (i 0).val hi0) (1 : Fin 4) * 19 ≤ (i 1).val ∧ (i 1).val < win0_2.index (lastPt (i 0).val hi0) (1 : Fin 4) * 19 + 19; omega
  | ⟨2, _⟩ => show win0_2.index (lastPt (i 0).val hi0) (2 : Fin 4) * 1 ≤ (i 2).val ∧ (i 2).val < win0_2.index (lastPt (i 0).val hi0) (2 : Fin 4) * 1 + 1; omega
  | ⟨3, _⟩ => show win0_2.index (lastPt (i 0).val hi0) (3 : Fin 4) * 1 ≤ (i 3).val ∧ (i 3).val < win0_2.index (lastPt (i 0).val hi0) (3 : Fin 4) * 1 + 1; omega

/-- Row b of the second output is written back at image b's last tile. -/
theorem cover3 (i : S8x19x1x1.Idx) :
    ∃ t : Fin cfg0.N, (cfg0.win 3).flush t = true ∧ i ∈ ((cfg0.win 3).blk t).view.set := by
  have hi0 : (i 0).val < 8 := (i 0).isLt
  have hi1 : (i 1).val < 19 := (i 1).isLt
  have hi2 : (i 2).val < 1 := (i 2).isLt
  have hi3 : (i 3).val < 1 := (i 3).isLt
  refine ⟨lastPt (i 0).val hi0, (flush0_3 _).mpr (by show (4 * (i 0).val + 3) % 4 = 3; omega), ?_⟩
  obtain ⟨-, -, -, -, e0, e1, e2, e3⟩ := out_idx_facts (lastPt (i 0).val hi0)
  have ev : (lastPt (i 0).val hi0).val = 4 * (i 0).val + 3 := rfl
  rw [mem_blk3]
  intro a
  match a with
  | ⟨0, _⟩ => show win0_3.index (lastPt (i 0).val hi0) (0 : Fin 4) * 1 ≤ (i 0).val ∧ (i 0).val < win0_3.index (lastPt (i 0).val hi0) (0 : Fin 4) * 1 + 1; omega
  | ⟨1, _⟩ => show win0_3.index (lastPt (i 0).val hi0) (1 : Fin 4) * 19 ≤ (i 1).val ∧ (i 1).val < win0_3.index (lastPt (i 0).val hi0) (1 : Fin 4) * 19 + 19; omega
  | ⟨2, _⟩ => show win0_3.index (lastPt (i 0).val hi0) (2 : Fin 4) * 1 ≤ (i 2).val ∧ (i 2).val < win0_3.index (lastPt (i 0).val hi0) (2 : Fin 4) * 1 + 1; omega
  | ⟨3, _⟩ => show win0_3.index (lastPt (i 0).val hi0) (3 : Fin 4) * 1 ≤ (i 3).val ∧ (i 3).val < win0_3.index (lastPt (i 0).val hi0) (3 : Fin 4) * 1 + 1; omega

/-! ## The two output arrays after the region -/

/-- The first output array after the region: image by image and class by class, the numerator contributions. -/
theorem final_num (c : Dev nD) :
    (dats (F := Ideal) m 0 c).arrAt 2 cfg0.N
      = (fun i => imgNum (A := 8) (H := 512) (m ((c.tc : Thread nD τ).loc main_arg0)) (m ((c.tc : Thread nD τ).loc main_arg1)) (i 0) (i 1)) :=
  (dats m 0 c).arrAt_eq_of_cover 2 (Gnum m c) (fun t hf => flushed2_eq m c t hf) cover2

/-- The second output array after the region: image by image and class by class, the count contributions. -/
theorem final_cnt (c : Dev nD) :
    (dats (F := Ideal) m 0 c).arrAt 3 cfg0.N
      = (fun i => imgCnt (A := 8) (H := 512) (m ((c.tc : Thread nD τ).loc main_arg1)) (i 0) (i 1)) :=
  (dats m 0 c).arrAt_eq_of_cover 3 (Gcnt m c) (fun t hf => flushed3_eq m c t hf) cover3

end Cert.CE

end
-- ==== Proof.KTail.lean ====
/-
  The kernel program's result. After the region the host sums the two output arrays over the images (the per-class
  numerators and counts), forms the class weights, and divides the weighted numerator sum by the weighted count sum:
  the loss.
-/
import proofs.«410359_j30545807409282_3_alg».proof.Proof.KAccum
import Idealize.ShloMosaic.Lib.StableHlo.Run
import Idealize.ShloMosaic.PureOps.Ideal.Laws
import Idealize.ShloMosaic.Lib.IdealHost
import Idealize.ShloMosaic.Lib.ValueIdxRank1

noncomputable section

namespace Cert.CE

open Idealize.ShloMosaic Idealize.ShloMosaic.ValueIdx
open scoped BigOperators

open Cert.KernelIdeal Cert.KernelIdeal.Gen Idealize.SL.Sem

/-! ## The host operations after the region, read at an index over arbitrary arrays -/

/-- Class c's entries of an [8,19,1,1] array summed over the eight images. -/
def tail_colSum (o : S8x19x1x1.Idx → EReal) (c : Fin 19) : EReal := ∑ b : Fin 8, o (ix4 b c 0 0)

/-- The [8,19,1,1] array reshaped to [8,19] and summed over its first axis from the zero word, at class c:
    0 + the sum over the images, and 0 + a = a. -/
theorem tail_reduce_images (o : S8x19x1x1.Idx → EReal) (hc : S8x19x1x1.ShapeCasts S8x19) (hr : S8x19.ReducesTo [0] S19)
    (hu : 0 < S_.numel) (c : Fin 19) :
    Host.reduceAdd (F := Ideal) (φ := .f32) (fun i => shapeCast S8x19 o hc i) (constant (F := Ideal) S_ .f32 0x00000000#32) hr hu (ix1 c)
      = tail_colSum o c := by
  have hR : S8x19.Reduces [0] S19 := by decide
  rw [hostReduceAdd_apply, Ideal.hostReduceAdd_single hr hR, constant_apply, Ideal.ofBits_zero_f32, zero_add]
  show (∑ b : Fin 8, shapeCast S8x19 o hc (hR.lift (ix1 c) b)) = ∑ b : Fin 8, o (ix4 b c 0 0)
  refine Finset.sum_congr rfl fun b _ => ?_
  refine shapeCast_apply o hc _ (ix4 b c 0 0) ?_
  have e0 : ((hR.lift (ix1 c) b) (0 : Fin 2)).val = b.val := rfl
  have e1 : ((hR.lift (ix1 c) b) (1 : Fin 2)).val = c.val := rfl
  rw [Shape.rowMajor_val_four, Shape.rowMajor_val_two, e0, e1]
  show ((b.val * 19 + c.val) * 1 + 0) * 1 + 0 = b.val * 19 + c.val
  omega

/-- The class weights at an index: the select of 0.001 / (1 - 0.999 ^ n) and 0 on n > 0 is the specification's weight. -/
theorem tail_weight_apply (N : S19.Idx → EReal) (hb : S_.BroadcastsInDim S19 (![] : Fin 0 → Fin S19.rank)) (j : S19.Idx) :
    select (cmpf (F := Ideal) (φ := .f32) .ogt N (broadcastInDim S19 ![] hb (constant (F := Ideal) S_ .f32 0x00000000#32)))
      (Host.divf (F := Ideal) (φ := .f32) (broadcastInDim S19 ![] hb (constant (F := Ideal) S_ .f32 0x3A83126F#32))
        (subf (broadcastInDim S19 ![] hb (constant (F := Ideal) S_ .f32 0x3F800000#32))
          (Host.powf (broadcastInDim S19 ![] hb (constant (F := Ideal) S_ .f32 0x3F7FBE77#32)) N)))
      (broadcastInDim S19 ![] hb (constant (F := Ideal) S_ .f32 0x00000000#32)) j
    = wgt (N j) := rfl

/-- The quotient of the two weighted sums over the classes, each from the zero word. -/
theorem tail_quotient_apply (w S N : S19.Idx → EReal) (hr : S19.ReducesTo [0] S_) (hu : 0 < S_.numel) (j : S_.Idx) :
    Host.divf (F := Ideal) (φ := .f32) (Host.reduceAdd (mulf (F := Ideal) (φ := .f32) w S) (constant (F := Ideal) S_ .f32 0x00000000#32) hr hu)
      (Host.reduceAdd (mulf (F := Ideal) (φ := .f32) w N) (constant (F := Ideal) S_ .f32 0x00000000#32) hr hu) j
    = Ideal.div (∑ c : Fin 19, w (ix1 c) * S (ix1 c)) (∑ c : Fin 19, w (ix1 c) * N (ix1 c)) := by
  have ht : ∀ b, S_.size b = 1 := fun b => b.elim0
  rw [hostDivf_apply, hostReduceAdd_apply, hostReduceAdd_apply, Ideal.hostReduceAdd_total hr ht,
    Ideal.hostReduceAdd_total hr ht, constant_apply, Ideal.ofBits_zero_f32, zero_add, zero_add,
    ← Equiv.sum_comp (idxEquiv1 (n := 19)).symm, ← Equiv.sum_comp (idxEquiv1 (n := 19)).symm]
  rfl

/-! ## The three stretches of host operations, each from arbitrary buffer contents -/

/-- Running two lists of operations one after the other is running their concatenation. -/
theorem tail_after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => simp only [List.cons_append, StableHlo.after_cons, ih]

section Stretches

variable (W : Valuation τ sig (Elt Ideal))

/-- The last stretch ends at the quotient of the two weighted class sums. -/
theorem tail_after3_v18 :
    (StableHlo.after (hostOps1_2 (F := Ideal)) W (Proc.devRef .tc main_v18) : S_.Idx → EReal)
      = Host.divf (F := Ideal) (φ := .f32)
          (Host.reduceAdd (mulf (F := Ideal) (φ := .f32) (W (Proc.devRef .tc main_v13)) (W (Proc.devRef .tc main_v2)))
            (constant (F := Ideal) S_ .f32 0x00000000#32) reducesTo_S19_S_d0 h_S_)
          (Host.reduceAdd (mulf (F := Ideal) (φ := .f32) (W (Proc.devRef .tc main_v13)) (W (Proc.devRef .tc main_v4)))
            (constant (F := Ideal) S_ .f32 0x00000000#32) reducesTo_S19_S_d0 h_S_) := by
  unfold hostOps1_2
  after_results

/-- The middle stretch (the body of the where) selects between the weights and the broadcast scalar. -/
theorem tail_after2_v13 :
    (StableHlo.after (hostOps1_1 (F := Ideal)) W (Proc.devRef .tc main_v13) : S19.Idx → EReal)
      = select (W (Proc.devRef .tc main_v12)) (W (Proc.devRef .tc main_v10))
          (broadcastInDim S19 ![] bcast_S_S19 (W (Proc.devRef .tc main_cst_5))) := by
  unfold hostOps1_1
  after_results
  rfl

/-- The middle stretch leaves the numerators alone. -/
theorem tail_after2_v2 :
    StableHlo.after (hostOps1_1 (F := Ideal)) W (Proc.devRef .tc main_v2) = W (Proc.devRef .tc main_v2) := by
  unfold hostOps1_1
  after_results

/-- The middle stretch leaves the counts alone. -/
theorem tail_after2_v4 :
    StableHlo.after (hostOps1_1 (F := Ideal)) W (Proc.devRef .tc main_v4) = W (Proc.devRef .tc main_v4) := by
  unfold hostOps1_1
  after_results

end Stretches

section FirstStretch

variable (W : Valuation τ sig (Elt Ideal))

/-- The first stretch's numerators: the first output array summed over the images, class by class. -/
theorem tail_after1_v2 :
    (StableHlo.after (hostOps1 (F := Ideal)) W (Proc.devRef .tc main_v2) : S19.Idx → EReal)
      = fun j => tail_colSum (W (Proc.devRef .tc main_v0_0)) (j 0) := by
  unfold hostOps1
  after_results
  funext j
  rw [eq_ix1 j]
  exact tail_reduce_images _ _ _ _ (j 0)

/-- The first stretch's counts: the second output array summed over the images, class by class. -/
theorem tail_after1_v4 :
    (StableHlo.after (hostOps1 (F := Ideal)) W (Proc.devRef .tc main_v4) : S19.Idx → EReal)
      = fun j => tail_colSum (W (Proc.devRef .tc main_v0_1)) (j 0) := by
  unfold hostOps1
  after_results
  funext j
  rw [eq_ix1 j]
  exact tail_reduce_images _ _ _ _ (j 0)

/-- The scalar the where falls back to is the zero word. -/
theorem tail_after1_cst5 :
    (StableHlo.after (hostOps1 (F := Ideal)) W (Proc.devRef .tc main_cst_5) : S_.Idx → EReal)
      = constant (F := Ideal) S_ .f32 0x00000000#32 := by
  unfold hostOps1
  after_results

/-- The candidate weights 0.001 / (1 - 0.999 ^ n) over the first stretch's counts. -/
theorem tail_after1_v10 :
    (StableHlo.after (hostOps1 (F := Ideal)) W (Proc.devRef .tc main_v10) : S19.Idx → EReal)
      = Host.divf (F := Ideal) (φ := .f32) (broadcastInDim S19 ![] bcast_S_S19 (constant (F := Ideal) S_ .f32 0x3A83126F#32))
          (subf (broadcastInDim S19 ![] bcast_S_S19 (constant (F := Ideal) S_ .f32 0x3F800000#32))
            (Host.powf (broadcastInDim S19 ![] bcast_S_S19 (constant (F := Ideal) S_ .f32 0x3F7FBE77#32))
              (StableHlo.after (hostOps1 (F := Ideal)) W (Proc.devRef .tc main_v4)))) := by
  unfold hostOps1
  after_results

/-- The test n > 0 over the first stretch's counts. -/
theorem tail_after1_v12 :
    (StableHlo.after (hostOps1 (F := Ideal)) W (Proc.devRef .tc main_v12) : S19.Idx → BitVec 1)
      = cmpf (F := Ideal) (φ := .f32) .ogt (StableHlo.after (hostOps1 (F := Ideal)) W (Proc.devRef .tc main_v4))
          (broadcastInDim S19 ![] bcast_S_S19 (constant (F := Ideal) S_ .f32 0x00000000#32)) := by
  unfold hostOps1
  after_results

end FirstStretch

/-- The tail's result from arbitrary buffer contents: the loss of the class sums of the two output arrays. -/
theorem tail_value (W : Valuation τ sig (Elt Ideal)) :
    (StableHlo.after (List.flatten [hostOps1 (F := Ideal), hostOps1_1, hostOps1_2]) W (Proc.devRef .tc main_v18) : S_.Idx → EReal)
      = fun _ => lossOf (tail_colSum (W (Proc.devRef .tc main_v0_0))) (tail_colSum (W (Proc.devRef .tc main_v0_1))) := by
  rw [show List.flatten [hostOps1 (F := Ideal), hostOps1_1, hostOps1_2] = hostOps1 ++ (hostOps1_1 ++ hostOps1_2) from by
    simp only [List.flatten_cons, List.flatten_nil, List.append_nil]]
  rw [tail_after_append, tail_after_append, tail_after3_v18]
  funext j
  rw [tail_quotient_apply, tail_after2_v13, tail_after2_v2, tail_after2_v4, tail_after1_v12, tail_after1_v10, tail_after1_cst5, tail_after1_v2, tail_after1_v4]
  simp only [tail_weight_apply]
  rfl

/-- The same from buffer contents whose two output arrays are known. -/
theorem tail_value_of (W : Valuation τ sig (Elt Ideal)) (o0 o1 : S8x19x1x1.Idx → EReal)
    (h0 : W (Proc.devRef .tc main_v0_0) = o0) (h1 : W (Proc.devRef .tc main_v0_1) = o1) :
    (StableHlo.after (List.flatten [hostOps1 (F := Ideal), hostOps1_1, hostOps1_2]) W (Proc.devRef .tc main_v18) : S_.Idx → EReal)
      = fun _ => lossOf (tail_colSum o0) (tail_colSum o1) := by
  subst h0 h1
  exact tail_value W

/-- Summing the images' numerator contributions class by class gives the batch numerators. -/
theorem tail_colSum_imgNum (x : (⟨4, ![8, 19, 512, 512]⟩ : Shape).Idx → EReal) (t : (⟨3, ![8, 512, 512]⟩ : Shape).Idx → BitVec 32) :
    tail_colSum (fun i => imgNum (A := 8) (H := 512) x t (i 0) (i 1)) = num x t := rfl

/-- Summing the images' count contributions class by class gives the batch counts. -/
theorem tail_colSum_imgCnt (t : (⟨3, ![8, 512, 512]⟩ : Shape).Idx → BitVec 32) :
    tail_colSum (fun i => imgCnt (A := 8) (H := 512) t (i 0) (i 1)) = cnt t := rfl

/-- Every weakly fair execution of the idealized kernel program ends with its result at the loss of its two arguments,
    the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v18)
          = (fun _ => loss (A := 8) (H := 512) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run (defs (F := Ideal)) _ _).mono (fun r h c => ?_) (run_main (F := Ideal) m ρ)
  refine ⟨?_, ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩
  have hv := (h c).2 main_v18 (Pipeline.mem_restRefs_of main_v18 rfl (by decide))
  refine hv.trans ((tail_value_of _ _ _
    ((Pipeline.withArrays_arr spec0 launch0.win.arr_inj c _ _ 2).trans (final_num m c))
    ((Pipeline.withArrays_arr spec0 launch0.win.arr_inj c _ _ 3).trans (final_cnt m c))).trans ?_)
  exact funext fun _ => congrArg₂ lossOf (tail_colSum_imgNum _ _) (tail_colSum_imgCnt _)

end Cert.CE

end
-- ==== Proof.LibRealSums.lean ====
/-
  Finite sums and maxima of real numbers inside the extended reals, and the softmax's division law.
  An idealized float is an extended real; a proof that needs a law of the reals (here: a quotient of a sum is the sum of the
  quotients) first shows that the numbers involved are reals and then computes in ℝ. These are the general steps:
  the inclusion of ℝ commutes with finite sums and with max; a finite sum of reals is a real, of positive reals over a
  nonempty set a positive real; a fold of max from −∞ over a nonempty set of reals is a real; and dividing a weighted sum once
  by a nonzero real is dividing every weight first. General in the index types.
-/
import Idealize.ShloMosaic.PureOps.Ideal
import Idealize.ShloMosaic.PureOps.Ideal.Laws

noncomputable section

namespace Cert.RealSums

open Idealize.ShloMosaic
open scoped BigOperators

/-- The inclusion of the reals in the extended reals carries a finite sum to the sum of the inclusions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

/-- A finite sum of positive reals over a nonempty index set is a positive real. -/
theorem sum_pos_real {ι : Type*} (s : Finset ι) (hs : s.Nonempty) (f : ι → EReal)
    (hf : ∀ i, ∃ r : ℝ, 0 < r ∧ f i = (r : EReal)) :
    ∃ r : ℝ, 0 < r ∧ ∑ i ∈ s, f i = (r : EReal) := by
  choose g hg using hf
  exact ⟨∑ i ∈ s, g i, Finset.sum_pos (fun i _ => (hg i).1) hs,
    by rw [coe_sum]; exact Finset.sum_congr rfl fun i _ => (hg i).2⟩

/-- The inclusion of the reals carries the larger of two reals to the larger of the inclusions. -/
theorem coe_max (a b : ℝ) : ((max a b : ℝ) : EReal) = max (a : EReal) (b : EReal) :=
  EReal.coe_strictMono.monotone.map_max

/-- The maximum of finitely many reals, folded from −∞ over a nonempty index set, is a real. -/
theorem fold_max_bot_real {ι : Type*} (s : Finset ι) (hs : s.Nonempty) (f : ι → EReal)
    (hf : ∀ i, ∃ r : ℝ, f i = (r : EReal)) :
    ∃ r : ℝ, s.fold max (⊥ : EReal) f = (r : EReal) := by
  choose g hg using hf
  induction hs using Finset.Nonempty.cons_induction with
  | singleton a => exact ⟨g a, by rw [Finset.fold_singleton, hg a, max_eq_left bot_le]⟩
  | cons a s ha hs ih =>
    obtain ⟨r, hr⟩ := ih
    exact ⟨max (g a) r, by rw [Finset.fold_cons, hr, hg a, coe_max]⟩

/-- The softmax's division law: for real weights `p`, real values `v` and a nonzero real `l`, the weighted sum divided once
    by `l` is the sum with every weight divided by `l` first. -/
theorem div_sum_eq_sum_div {ι : Type*} (s : Finset ι) (p v : ι → ℝ) (l : ℝ) (hl : l ≠ 0) :
    Ideal.div (∑ κ ∈ s, (p κ : EReal) * (v κ : EReal)) (l : EReal) = ∑ κ ∈ s, Ideal.div (p κ : EReal) (l : EReal) * (v κ : EReal) := by
  simp only [Ideal.div_coe hl]
  have hK : (∑ κ ∈ s, (p κ : EReal) * (v κ : EReal)) = ((∑ κ ∈ s, p κ * v κ : ℝ) : EReal) := by
    rw [coe_sum]; exact Finset.sum_congr rfl fun κ _ => (EReal.coe_mul _ _)
  have hR : (∑ κ ∈ s, (p κ : EReal) * ((1 / l : ℝ) : EReal) * (v κ : EReal))
      = ((∑ κ ∈ s, p κ * (1 / l) * v κ : ℝ) : EReal) := by
    rw [coe_sum]; exact Finset.sum_congr rfl fun κ _ => by rw [EReal.coe_mul, EReal.coe_mul]
  rw [hK, hR, ← EReal.coe_mul, Finset.sum_mul]
  exact congrArg _ (Finset.sum_congr rfl fun κ _ => mul_right_comm _ _ _)

end Cert.RealSums

end
-- ==== Proof.RAlgebra.lean ====
/-
  The law that joins the two programs. Weighting every counted pixel by its own class's weight and summing over the pixels
  is weighting each class's total by that class's weight and summing over the classes, because every pixel belongs to
  exactly one class; this holds for real numbers, and the logits being real makes every number involved a real.
-/
import proofs.«410359_j30545807409282_3_alg».proof.Proof.Spec
import proofs.«410359_j30545807409282_3_alg».proof.Proof.LibRealSums

noncomputable section

namespace Cert.CE

open Idealize.ShloMosaic Idealize.ShloMosaic.ValueIdx
open scoped BigOperators

namespace RAlgebra

/-! ## The three constants of the class weight as reals -/

/-- The single-precision word of 1 is the real number 1. -/
theorem one_word : Ideal.ofBits .f32 0x3F800000#32 = ((1 : ℝ) : EReal) := by
  simp [Ideal.ofBits, Ideal.ieee, -EReal.coe_mul]; norm_num

/-- The single-precision word nearest 0.999 is a real number strictly between 0 and 1. -/
theorem base_word : ∃ b : ℝ, 0 < b ∧ b < 1 ∧ Ideal.ofBits .f32 0x3F7FBE77#32 = (b : EReal) := by
  refine ⟨16760439 / 16777216, by norm_num, by norm_num, ?_⟩
  simp [Ideal.ofBits, Ideal.ieee, -EReal.coe_mul]; norm_num

/-- The single-precision word nearest 0.001 is a real number. -/
theorem rate_word : ∃ a : ℝ, Ideal.ofBits .f32 0x3A83126F#32 = (a : EReal) := by
  refine ⟨8589935 / 8589934592, ?_⟩
  simp [Ideal.ofBits, Ideal.ieee, -EReal.coe_mul]; norm_num

/-! ## Every number of the loss is a real -/

/-- A finite sum of reals that are not negative is a real that is not negative. -/
theorem sum_nonneg_real {ι : Type*} (s : Finset ι) (f : ι → EReal) (hf : ∀ i, ∃ r : ℝ, 0 ≤ r ∧ f i = (r : EReal)) :
    ∃ r : ℝ, 0 ≤ r ∧ ∑ i ∈ s, f i = (r : EReal) := by
  choose g hg using hf
  exact ⟨∑ i ∈ s, g i, Finset.sum_nonneg (fun i _ => (hg i).1),
    by rw [Cert.RealSums.coe_sum]; exact Finset.sum_congr rfl fun i _ => (hg i).2⟩

/-- The factor of a label is the real 1 or the real 0. -/
theorem vf_real (w : BitVec 32) : ∃ r : ℝ, 0 ≤ r ∧ vf w = (r : EReal) := by
  unfold vf
  split
  · exact ⟨1, zero_le_one, EReal.coe_one.symm⟩
  · exact ⟨0, le_rfl, EReal.coe_zero.symm⟩

section Arrays

variable {A H : Nat}

/-- The largest of a pixel's 19 real logits is a real. -/
theorem rowmax_real (x : (⟨4, ![A, 19, H, 512]⟩ : Shape).Idx → EReal) (hfin : ∀ i, ∃ r : ℝ, x i = (r : EReal))
    (a : Fin A) (h : Fin H) (w : Fin 512) : ∃ m : ℝ, rowmax x a h w = (m : EReal) :=
  Cert.RealSums.fold_max_bot_real Finset.univ Finset.univ_nonempty (fun c => x (ix4 a c h w)) (fun c => hfin _)

/-- The exponentials of real numbers are positive reals, their sum over the 19 classes is a positive real, and its
    logarithm is a real. -/
theorem lse_real (x : (⟨4, ![A, 19, H, 512]⟩ : Shape).Idx → EReal) (hfin : ∀ i, ∃ r : ℝ, x i = (r : EReal))
    (a : Fin A) (h : Fin H) (w : Fin 512) : ∃ l : ℝ, lse x a h w = (l : EReal) := by
  obtain ⟨m, hm⟩ := rowmax_real x hfin a h w
  have hpos : ∀ c : Fin 19, ∃ r : ℝ, 0 < r ∧ Ideal.exp (x (ix4 a c h w) - rowmax x a h w) = (r : EReal) := by
    intro c
    obtain ⟨r, hr⟩ := hfin (ix4 a c h w)
    exact ⟨Real.exp (r - m), Real.exp_pos _, by rw [hr, hm, ← EReal.coe_sub, Ideal.exp_coe]⟩
  obtain ⟨s, hs, hsum⟩ := Cert.RealSums.sum_pos_real Finset.univ Finset.univ_nonempty _ hpos
  exact ⟨Real.log s, by unfold lse; rw [hsum, Ideal.log_coe, if_neg (not_le.mpr hs)]⟩

/-- The negative log-likelihood of a pixel with real logits is a real. -/
theorem nll_real (x : (⟨4, ![A, 19, H, 512]⟩ : Shape).Idx → EReal) (hfin : ∀ i, ∃ r : ℝ, x i = (r : EReal))
    (t : (⟨3, ![A, H, 512]⟩ : Shape).Idx → BitVec 32) (a : Fin A) (h : Fin H) (w : Fin 512) :
    ∃ n : ℝ, nll x t a h w = (n : EReal) := by
  obtain ⟨m, hm⟩ := rowmax_real x hfin a h w
  obtain ⟨l, hl⟩ := lse_real x hfin a h w
  obtain ⟨r, hr⟩ := hfin (ix4 a (cls (t (ix3 a h w))) h w)
  exact ⟨m + l - r, by unfold nll; rw [hm, hl, hr, ← EReal.coe_add, ← EReal.coe_sub]⟩

/-- A class's count is a finite sum of zeros and ones: a real that is not negative. -/
theorem cnt_real (t : (⟨3, ![A, H, 512]⟩ : Shape).Idx → BitVec 32) (c : Fin 19) :
    ∃ r : ℝ, 0 ≤ r ∧ cnt t c = (r : EReal) := by
  unfold cnt imgCnt
  refine sum_nonneg_real _ _ fun a => sum_nonneg_real _ _ fun h => sum_nonneg_real _ _ fun w => ?_
  split
  · exact vf_real _
  · exact ⟨0, le_rfl, EReal.coe_zero.symm⟩

end Arrays

/-- The class weight of a real count that is not negative is a real: 0 at the count 0, and at a positive count n the
    quotient of a real by 1 - b ^ n, which is not 0 because 0 < b < 1 makes b ^ n < 1. -/
theorem wgt_real (n : ℝ) (hn : 0 ≤ n) : ∃ r : ℝ, wgt (n : EReal) = (r : EReal) := by
  obtain ⟨b, hb0, hb1, hb⟩ := base_word
  obtain ⟨a, ha⟩ := rate_word
  unfold wgt
  rw [Ideal.ofBits_zero_f32, one_word, hb, ha]
  rcases hn.eq_or_lt with h0 | hpos
  · subst h0
    have hc : Ideal.cmp .ogt ((0 : ℝ) : EReal) 0 = 0#1 := by simp [Ideal.cmp]
    rw [hc, select_zero]
    exact ⟨0, EReal.coe_zero.symm⟩
  · have hc : Ideal.cmp .ogt (n : EReal) 0 = 1#1 := by simp [Ideal.cmp, hpos]
    have hlt : Real.rpow b n < 1 := Real.rpow_lt_one hb0.le hb1 hpos
    have hd : (1 - Real.rpow b n) ≠ 0 := by linarith
    rw [hc, select_one, Ideal.pow_coe_coe, ← EReal.coe_sub, Ideal.div_coe hd, ← EReal.coe_mul]
    exact ⟨_, rfl⟩

/-! ## A sum over the pixels is the triple sum over their coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Every pixel has exactly one class -/

/-- Over the reals: weighting each term by the weight of its own class and summing over the terms is weighting each
    class's total by the class's weight and summing over the classes. -/
theorem real_class_sum {J : Type*} [Fintype J] {C : Type*} [Fintype C] [DecidableEq C] (cl : J → C) (W : C → ℝ)
    (g : J → ℝ) : ∑ j, W (cl j) * g j = ∑ c, W c * ∑ j, (if cl j = c then g j else 0) := by
  simp_rw [Finset.mul_sum]
  rw [Finset.sum_comm]
  refine Finset.sum_congr rfl fun j _ => ?_
  simp_rw [mul_ite, mul_zero]
  rw [Finset.sum_ite_eq, if_pos (Finset.mem_univ _)]

/-- The same law in the extended reals, for weights and terms that are reals. -/
theorem class_sum {J : Type*} [Fintype J] (cl : J → Fin 19) (W : Fin 19 → EReal) (g : J → EReal)
    (hW : ∀ c, ∃ r : ℝ, W c = (r : EReal)) (hg : ∀ j, ∃ r : ℝ, g j = (r : EReal)) :
    ∑ j, W (cl j) * g j = ∑ c, W c * ∑ j, (if cl j = c then g j else 0) := by
  choose Wr hWr using hW
  choose gr hgr using hg
  have e1 : ∀ j, W (cl j) * g j = ((Wr (cl j) * gr j : ℝ) : EReal) := fun j => by rw [hWr, hgr, EReal.coe_mul]
  have e2 : ∀ c j, (if cl j = c then g j else 0) = (((if cl j = c then gr j else 0) : ℝ) : EReal) := fun c j => by
    split
    · exact hgr j
    · exact EReal.coe_zero.symm
  have e3 : ∀ c, W c * ∑ j, (if cl j = c then g j else 0)
      = ((Wr c * ∑ j, (if cl j = c then gr j else 0) : ℝ) : EReal) := fun c => by
    rw [EReal.coe_mul, Cert.RealSums.coe_sum, hWr]
    exact congrArg _ (Finset.sum_congr rfl fun j _ => e2 c j)
  rw [Finset.sum_congr rfl fun j _ => e1 j, Finset.sum_congr rfl fun c _ => e3 c, ← Cert.RealSums.coe_sum,
    ← Cert.RealSums.coe_sum, real_class_sum]

end RAlgebra

/-! ## The two forms of the loss -/

/-- The loss written pixel by pixel — each pixel's negative log-likelihood weighted by its class's weight, over the sum of the
    pixels' weights, each sum started from the zero word — is the loss written class by class. -/
theorem pixel_form (x : (⟨4, ![8, 19, 512, 512]⟩ : Shape).Idx → EReal) (t : (⟨3, ![8, 512, 512]⟩ : Shape).Idx → BitVec 32)
    (hfin : ∀ i, ∃ r : ℝ, x i = (r : EReal)) :
    Ideal.div
        (Ideal.ofBits .f32 0x00000000#32
          + ∑ j : (⟨3, ![8, 512, 512]⟩ : Shape).Idx, (wgt (cnt t (cls (t j))) * vf (t j)) * nll x t (j 0) (j 1) (j 2))
        (Ideal.ofBits .f32 0x00000000#32 + ∑ j : (⟨3, ![8, 512, 512]⟩ : Shape).Idx, wgt (cnt t (cls (t j))) * vf (t j))
      = loss x t := by
  have hW : ∀ c, ∃ r : ℝ, wgt (cnt t c) = (r : EReal) := fun c => by
    obtain ⟨n, hn, hc⟩ := RAlgebra.cnt_real t c
    rw [hc]; exact RAlgebra.wgt_real n hn
  have hv : ∀ j, ∃ r : ℝ, vf (t j) = (r : EReal) := fun j => by
    obtain ⟨r, _, h⟩ := RAlgebra.vf_real (t j)
    exact ⟨r, h⟩
  have hvn : ∀ j : (⟨3, ![8, 512, 512]⟩ : Shape).Idx, ∃ r : ℝ, vf (t j) * nll x t (j 0) (j 1) (j 2) = (r : EReal) :=
    fun j => by
      obtain ⟨a, ha⟩ := hv j
      obtain ⟨b, hb⟩ := RAlgebra.nll_real x hfin t (j 0) (j 1) (j 2)
      exact ⟨a * b, by rw [ha, hb, EReal.coe_mul]⟩
  have hnum : ∑ j : (⟨3, ![8, 512, 512]⟩ : Shape).Idx, (wgt (cnt t (cls (t j))) * vf (t j)) * nll x t (j 0) (j 1) (j 2)
      = ∑ c : Fin 19, wgt (cnt t c) * num x t c := by
    rw [Finset.sum_congr rfl fun j _ => mul_assoc (wgt (cnt t (cls (t j)))) (vf (t j)) (nll x t (j 0) (j 1) (j 2))]
    rw [RAlgebra.class_sum (fun j => cls (t j)) (fun c => wgt (cnt t c)) (fun j => vf (t j) * nll x t (j 0) (j 1) (j 2)) hW hvn]
    refine Finset.sum_congr rfl fun c _ => congrArg _ ?_
    rw [RAlgebra.sum_idx3]
    unfold num imgNum
    refine Finset.sum_congr rfl fun a _ => Finset.sum_congr rfl fun h _ => Finset.sum_congr rfl fun w _ => ?_
    show (if cls (t (ix3 a h w)) = c then vf (t (ix3 a h w)) * nll x t a h w else 0) = _
    rw [mul_comm]
  have hden : ∑ j : (⟨3, ![8, 512, 512]⟩ : Shape).Idx, wgt (cnt t (cls (t j))) * vf (t j)
      = ∑ c : Fin 19, wgt (cnt t c) * cnt t c := by
    rw [RAlgebra.class_sum (fun j => cls (t j)) (fun c => wgt (cnt t c)) (fun j => vf (t j)) hW hv]
    refine Finset.sum_congr rfl fun c _ => congrArg _ ?_
    rw [RAlgebra.sum_idx3]
    rfl
  rw [Ideal.ofBits_zero_f32, zero_add, zero_add, hnum, hden]
  rfl

end Cert.CE

end
-- ==== Proof.RGatherL.lean ====
/-
  The reference's gather of a pixel's log-probability at its label (a take along the class axis) and the in-bounds test
  beside it: for labels below 19 the test passes and the gather reads the pixel's log-probabilities at the pixel's class
  (an ignored label is made 0 before the gather, and reads class 0).
-/
import proofs.«410359_j30545807409282_3_alg».proof.Proof.RefReadP
import proofs.«410359_j30545807409282_3_alg».proof.Proof.Spec
import Idealize.ShloMosaic.Lib.ValueIdx
import Idealize.ShloMosaic.Lib.Pipeline.Value
import Idealize.ShloMosaic.Lib.Affine
import Idealize.ShloMosaic.Lib.ReduceAll

noncomputable section

namespace Cert.CE

open Idealize.ShloMosaic Idealize.ShloMosaic.ValueIdx
open scoped BigOperators

open Cert.ReferenceIdeal Cert.ReferenceIdeal.Read

/-- The gather's index word as a function of the label word u: s = (u if u ≥ 0 else 0), then (s + 19 if s < 0 else s). -/
def RGatherL.gatherWord (u : BitVec 32) : BitVec 32 :=
  Scalar.select (IntOp.cmpi .slt (Scalar.select (IntOp.cmpi .sge u 0#32) u 0#32) 0#32)
    (IntOp.addi (Scalar.select (IntOp.cmpi .sge u 0#32) u 0#32) 19#32)
    (Scalar.select (IntOp.cmpi .sge u 0#32) u 0#32)

/-- For a label below 19 the index word, read signed, is the label's class: the label itself when it is not negative, else 0. -/
theorem RGatherL.gatherWord_toInt (u : BitVec 32) (h : u.toInt < 19) : (RGatherL.gatherWord u).toInt = ((cls u).val : Int) := by
  have z : (0#32 : BitVec 32).toInt = 0 := by decide
  have e2 : IntOp.cmpi .slt (0#32 : BitVec 32) 0#32 = 0#1 :=
    eq_zero_of_ne_one (fun hc => absurd (IntOp.cmpi_slt.1 hc) (lt_irrefl _))
  unfold RGatherL.gatherWord
  by_cases h0 : 0 ≤ u.toInt
  · have e1 : IntOp.cmpi .sge u 0#32 = 1#1 := IntOp.cmpi_sge.2 (by rw [z]; exact h0)
    have e3 : IntOp.cmpi .slt u 0#32 = 0#1 :=
      eq_zero_of_ne_one (fun hc => by have := IntOp.cmpi_slt.1 hc; rw [z] at this; omega)
    rw [e1, select_one, e3, select_zero]
    unfold cls
    rw [dif_pos ⟨h0, h⟩]
    show u.toInt = ((u.toInt.toNat : Nat) : Int)
    omega
  · have e1 : IntOp.cmpi .sge u 0#32 = 0#1 :=
      eq_zero_of_ne_one (fun hc => h0 (by have := IntOp.cmpi_sge.1 hc; rw [z] at this; exact this))
    rw [e1, select_zero, e2, select_zero]
    unfold cls
    rw [dif_neg (fun hv => h0 hv.1)]
    exact z

/-- The index array at any index is the index word of the label of the pixel that index names. -/
theorem RGatherL.idxWord_eq (t : (⟨S8x512x512, .i32⟩ : BufTy).Contents (Elt Ideal)) (i : S8x1x512x512x1.Idx) :
    val_main_call3_v5 (F := Ideal) t i = RGatherL.gatherWord (t (idx_main_v24 (idx_main_call3_v5 i))) := by
  simp only [val_main_call3_v5_apply, val_main_call3_v4_apply, val_main_call3_v1_apply, val_main_call3_v3_apply,
    val_main_call3_v0_apply, val_main_call3_c_apply, val_main_call3_v2_apply, val_main_call3_c_0_apply,
    val_main_v24_apply, val_main_v2_apply, val_main_v1_apply, val_main_v0_apply, val_main_c_apply,
    val_main_call0_v1_apply, val_main_call0_v0_apply, val_main_c_0_apply]
  rfl

/-- A left fold by "and" from 1 over words that are all 1 is 1. -/
theorem RGatherL.foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), (by decide : IntOp.andi 1#1 1#1 = 1#1)]
    exact RGatherL.foldl_andi_one f l (fun n hn => h n (List.mem_cons_of_mem _ hn))

/-- The pixel that the index array's entry (b, 0, h, w, 0) names is (b, h, w). -/
theorem RGatherL.idxPixel_eq (b : Fin 8) (h w : Fin 512) :
    idx_main_v24 (idx_main_call3_v5 (ix5 b (0 : Fin 1) h w (0 : Fin 1))) = ix3 b h w := by
  have hb : b.val < 8 := b.isLt
  have hh : h.val < 512 := h.isLt
  have hw : w.val < 512 := w.isLt
  funext a
  refine Fin.ext ?_
  match a with
  | ⟨0, _⟩ =>
    show ((((b.val * 1 + 0) * 512 + h.val) * 512 + w.val) * 1 + 0) / 262144 = b.val
    omega
  | ⟨1, _⟩ =>
    show ((((b.val * 1 + 0) * 512 + h.val) * 512 + w.val) * 1 + 0) / 512 % 512 = h.val
    omega
  | ⟨2, _⟩ =>
    show ((((b.val * 1 + 0) * 512 + h.val) * 512 + w.val) * 1 + 0) % 512 = w.val
    omega

/-- The in-bounds test of the gather's index passes at every pixel. -/
theorem ref_mask_one (t : (⟨S8x512x512, .i32⟩ : BufTy).Contents (Elt Ideal)) (hlt : ∀ p, (t p).toInt < 19)
    (b : Fin 8) (h w : Fin 512) :
    val_main_call3_v12 (F := Ideal) t (ix4 b 0 h w) = 1#1 := by
  unfold val_main_call3_v12
  rw [Host.reduce_eq_foldl]
  refine RGatherL.foldl_andi_one _ _ (fun i _ => ?_)
  have hw := RGatherL.gatherWord_toInt (t (idx_main_v24 (idx_main_call3_v5 i))) (hlt _)
  have hc : (cls (t (idx_main_v24 (idx_main_call3_v5 i)))).val < 19 := (cls _).isLt
  rw [val_main_call3_v11_apply]
  refine IntOp.andi_eq_one.2 ⟨?_, ?_⟩
  · rw [val_main_call3_v7_apply, val_main_call3_v6_apply, val_main_call3_c_2_apply, RGatherL.idxWord_eq]
    refine IntOp.cmpi_sge.2 ?_
    rw [hw, (by decide : (0#32 : BitVec 32).toInt = 0)]
    omega
  · rw [val_main_call3_v10_apply, val_main_call3_v9_apply, val_main_call3_v8_apply, val_main_call3_c_1_apply, RGatherL.idxWord_eq]
    refine IntOp.cmpi_sle.2 ?_
    rw [hw, (by decide : (18#32 : BitVec 32).toInt = 18)]
    omega

/-- The gathered log-probability at pixel (b, h, w) is the log-probability array's entry at the pixel's class. -/
theorem ref_gather_logp (x : (⟨S8x19x512x512, .f32⟩ : BufTy).Contents (Elt Ideal)) (t : (⟨S8x512x512, .i32⟩ : BufTy).Contents (Elt Ideal))
    (hlt : ∀ p, (t p).toInt < 19) (b : Fin 8) (h w : Fin 512) :
    val_main_call3_v13 (F := Ideal) x t (ix4 b 0 h w) = val_main_v23 (F := Ideal) x (ix4 b (cls (t (ix3 b h w))) h w) := by
  unfold val_main_call3_v13 Host.gather
  refine congrArg (val_main_v23 (F := Ideal) x) ?_
  funext a
  refine Fin.ext ?_
  match a with
  | ⟨0, _⟩ =>
    show gather_S8x19x512x512_S8x1x512x512x1_S8x1x512x512_n_1_023_023_1_4_1111.start (ix4 b (0 : Fin 1) h w) (val_main_call3_v5 (F := Ideal) t) (0 : Fin 4)
        + gather_S8x19x512x512_S8x1x512x512x1_S8x1x512x512_n_1_023_023_1_4_1111.batchCoord (ix4 b (0 : Fin 1) h w) (0 : Fin 4)
        + gather_S8x19x512x512_S8x1x512x512x1_S8x1x512x512_n_1_023_023_1_4_1111.offCoord (ix4 b (0 : Fin 1) h w) (0 : Fin 4) = b.val
    rw [GatherDims.start_batching _ _ _ _ (by decide),
      GatherDims.offCoord_eq_zero _ _ _ (fun hk => ((GatherDims.mem_sKept _ _).mp hk).2 (by decide))]
    simp only [Nat.zero_add, Nat.add_zero]
    rfl
  | ⟨1, _⟩ =>
    show gather_S8x19x512x512_S8x1x512x512x1_S8x1x512x512_n_1_023_023_1_4_1111.start (ix4 b (0 : Fin 1) h w) (val_main_call3_v5 (F := Ideal) t) (1 : Fin 4)
        + gather_S8x19x512x512_S8x1x512x512x1_S8x1x512x512_n_1_023_023_1_4_1111.batchCoord (ix4 b (0 : Fin 1) h w) (1 : Fin 4)
        + gather_S8x19x512x512_S8x1x512x512x1_S8x1x512x512_n_1_023_023_1_4_1111.offCoord (ix4 b (0 : Fin 1) h w) (1 : Fin 4) = (cls (t (ix3 b h w))).val
    rw [GatherDims.batchCoord_eq_zero _ _ _ (by decide),
      GatherDims.offCoord_eq_zero _ _ _ (fun hk => ((GatherDims.mem_sKept _ _).mp hk).1 (by decide))]
    simp only [Nat.add_zero]
    unfold GatherDims.start
    rw [dif_pos (show (1 : Fin 4) ∈ gather_S8x19x512x512_S8x1x512x512x1_S8x1x512x512_n_1_023_023_1_4_1111.startIndexMap from List.mem_singleton.mpr rfl)]
    have hsi : gather_S8x19x512x512_S8x1x512x512x1_S8x1x512x512_n_1_023_023_1_4_1111.siIdx (ix4 b (0 : Fin 1) h w)
        ⟨List.idxOf (1 : Fin 4) gather_S8x19x512x512_S8x1x512x512x1_S8x1x512x512_n_1_023_023_1_4_1111.startIndexMap, List.idxOf_lt_length_iff.2 (List.mem_singleton.mpr rfl)⟩
        = ix5 b (0 : Fin 1) h w (0 : Fin 1) := by
      funext k
      refine Fin.ext ?_
      match k with
      | ⟨0, _⟩ => rfl
      | ⟨1, _⟩ => rfl
      | ⟨2, _⟩ => rfl
      | ⟨3, _⟩ => rfl
      | ⟨4, _⟩ => rfl
    rw [hsi, RGatherL.idxWord_eq, RGatherL.idxPixel_eq]
    have hw := RGatherL.gatherWord_toInt (t (ix3 b h w)) (hlt _)
    have hc : (cls (t (ix3 b h w))).val < 19 := (cls _).isLt
    show min (RGatherL.gatherWord (t (ix3 b h w))).toInt.toNat (19 - 1) = (cls (t (ix3 b h w))).val
    rw [hw]
    omega
  | ⟨2, _⟩ =>
    show gather_S8x19x512x512_S8x1x512x512x1_S8x1x512x512_n_1_023_023_1_4_1111.start (ix4 b (0 : Fin 1) h w) (val_main_call3_v5 (F := Ideal) t) (2 : Fin 4)
        + gather_S8x19x512x512_S8x1x512x512x1_S8x1x512x512_n_1_023_023_1_4_1111.batchCoord (ix4 b (0 : Fin 1) h w) (2 : Fin 4)
        + gather_S8x19x512x512_S8x1x512x512x1_S8x1x512x512_n_1_023_023_1_4_1111.offCoord (ix4 b (0 : Fin 1) h w) (2 : Fin 4) = h.val
    rw [GatherDims.start_batching _ _ _ _ (by decide),
      GatherDims.offCoord_eq_zero _ _ _ (fun hk => ((GatherDims.mem_sKept _ _).mp hk).2 (by decide))]
    simp only [Nat.zero_add, Nat.add_zero]
    rfl
  | ⟨3, _⟩ =>
    show gather_S8x19x512x512_S8x1x512x512x1_S8x1x512x512_n_1_023_023_1_4_1111.start (ix4 b (0 : Fin 1) h w) (val_main_call3_v5 (F := Ideal) t) (3 : Fin 4)
        + gather_S8x19x512x512_S8x1x512x512x1_S8x1x512x512_n_1_023_023_1_4_1111.batchCoord (ix4 b (0 : Fin 1) h w) (3 : Fin 4)
        + gather_S8x19x512x512_S8x1x512x512x1_S8x1x512x512_n_1_023_023_1_4_1111.offCoord (ix4 b (0 : Fin 1) h w) (3 : Fin 4) = w.val
    rw [GatherDims.start_batching _ _ _ _ (by decide),
      GatherDims.offCoord_eq_zero _ _ _ (fun hk => ((GatherDims.mem_sKept _ _).mp hk).2 (by decide))]
    simp only [Nat.zero_add, Nat.add_zero]
    rfl

end Cert.CE

end
-- ==== Proof.RSoftmax.lean ====
/-
  The reference's per-pixel term: minus the label's entry of the log-softmax of the pixel's logits is the pixel's negative
  log-likelihood, for real logits and labels below 19 (an ignored label reads class 0, as the reference's own masking does).
-/
import proofs.«410359_j30545807409282_3_alg».proof.Proof.RefReadP
import proofs.«410359_j30545807409282_3_alg».proof.Proof.Spec
import proofs.«410359_j30545807409282_3_alg».proof.Proof.LibRealSums
import proofs.«410359_j30545807409282_3_alg».proof.Proof.LibColumn
import proofs.«410359_j30545807409282_3_alg».proof.Proof.RAlgebra
import proofs.«410359_j30545807409282_3_alg».proof.Proof.RGatherL
import Idealize.ShloMosaic.Lib.ValueIdx
import Idealize.ShloMosaic.Lib.Pipeline.Value

noncomputable section

namespace Cert.CE

open Idealize.ShloMosaic Idealize.ShloMosaic.ValueIdx
open scoped BigOperators

open Cert.ReferenceIdeal Cert.ReferenceIdeal.Read

namespace RSoftmax

/-- The reference's maximum over the class axis, read at a pixel: the largest of the pixel's 19 logits. -/
theorem rowmax_read (x : (⟨S8x19x512x512, .f32⟩ : BufTy).Contents (Elt Ideal)) (b : Fin 8) (h w : Fin 512) :
    val_main_call2_v0 (F := Ideal) x (ix3 b h w) = rowmax (A := 8) (H := 512) x b h w := by
  unfold val_main_call2_v0
  rw [Host.reduce_eq_fold_single (s := S8x19x512x512) (t := S8x512x512) (a := (1 : Fin 4)) (FloatOps.maximumf (F := Ideal) (φ := .f32)) x _ Gen.reducesTo_S8x19x512x512_S8x512x512_d1 (by decide) Gen.h_S_]
  have hinit : val_main_call2_cst (F := Ideal) (Shape.Idx.first Gen.h_S_) = (⊥ : EReal) := Column.ofBits_negInf_f32
  rw [hinit]
  unfold rowmax
  refine congrArg (fun f => Finset.fold max (⊥ : EReal) f (Finset.univ : Finset (Fin 19))) ?_
  funext c
  exact congrArg x (funext fun a => Fin.ext (by
    match a with
    | ⟨0, _⟩ => rfl
    | ⟨1, _⟩ => rfl
    | ⟨2, _⟩ => rfl
    | ⟨3, _⟩ => rfl))

/-- The pixel's maximum broadcast back over the class axis: at every class it is the pixel's largest logit (the maximum
    with −∞ changes nothing). -/
theorem shift_read (x : (⟨S8x19x512x512, .f32⟩ : BufTy).Contents (Elt Ideal)) (b : Fin 8) (c : Fin 19) (h w : Fin 512) :
    val_main_call2_v4 (F := Ideal) x (ix4 b c h w) = rowmax (A := 8) (H := 512) x b h w := by
  rw [val_main_call2_v4_apply, val_main_call2_v3_apply, val_main_call2_v2_apply, val_main_call2_v1_apply,
    val_main_call2_cst_0_apply]
  have hidx : idx_main_call2_v3 (idx_main_call2_v4 (ix4 b c h w)) = ix3 b h w := by
    funext a
    match a with
    | ⟨0, _⟩ => rfl
    | ⟨1, _⟩ => rfl
    | ⟨2, _⟩ => rfl
  rw [hidx, rowmax_read]
  show max (Ideal.ofBits .f32 0xFF800000#32) (rowmax x b h w) = rowmax x b h w
  rw [Column.ofBits_negInf_f32]
  exact max_eq_right bot_le

/-- A logit minus its pixel's maximum. -/
theorem shifted_read (x : (⟨S8x19x512x512, .f32⟩ : BufTy).Contents (Elt Ideal)) (b : Fin 8) (c : Fin 19) (h w : Fin 512) :
    val_main_call2_v5 (F := Ideal) x (ix4 b c h w) = x (ix4 b c h w) - rowmax (A := 8) (H := 512) x b h w := by
  rw [val_main_call2_v5_apply, shift_read]
  rfl

/-- The logarithm of the sum of the shifted exponentials, broadcast back over the class axis: the pixel's lse. -/
theorem lse_read (x : (⟨S8x19x512x512, .f32⟩ : BufTy).Contents (Elt Ideal)) (b : Fin 8) (c : Fin 19) (h w : Fin 512) :
    val_main_call2_v10 (F := Ideal) x (ix4 b c h w) = lse (A := 8) (H := 512) x b h w := by
  rw [val_main_call2_v10_apply, val_main_call2_v9_apply, val_main_call2_v8_apply, val_main_call2_v7_apply,
    val_main_call2_cst_1_apply]
  have hidx : ∀ k : Fin 19,
      idx_main_call2_v7 (idx_main_call2_v8 (idx_main_call2_v10 (ix4 b c h w))) k = ix4 b k h w := by
    intro k
    funext a
    match a with
    | ⟨0, _⟩ => rfl
    | ⟨1, _⟩ => rfl
    | ⟨2, _⟩ => rfl
    | ⟨3, _⟩ => rfl
  simp only [hidx, val_main_call2_v6_apply, shifted_read]
  show Ideal.log (Ideal.ofBits .f32 0x00000000#32 + ∑ k : Fin 19, Ideal.exp (x (ix4 b k h w) - rowmax x b h w))
    = lse x b h w
  rw [Ideal.ofBits_zero_f32, zero_add]
  rfl

/-- The log-softmax at a pixel and a class: the shifted logit minus the pixel's lse. -/
theorem logp_read (x : (⟨S8x19x512x512, .f32⟩ : BufTy).Contents (Elt Ideal)) (b : Fin 8) (c : Fin 19) (h w : Fin 512) :
    val_main_v23 (F := Ideal) x (ix4 b c h w)
      = (x (ix4 b c h w) - rowmax (A := 8) (H := 512) x b h w) - lse (A := 8) (H := 512) x b h w := by
  rw [val_main_v23_apply, shifted_read, lse_read]
  rfl

/-- For real numbers a, M, L: −((a − M) − L) = (M + L) − a. On the extended reals this fails at the infinities. -/
theorem neg_shift_sub (a M L : ℝ) : -(((a : EReal) - (M : EReal)) - (L : EReal)) = ((M : EReal) + (L : EReal)) - (a : EReal) := by
  rw [← EReal.coe_sub, ← EReal.coe_sub, ← EReal.coe_neg, ← EReal.coe_add, ← EReal.coe_sub]
  exact congrArg _ (by ring)

/-- The reshape that drops the unit class axis reads pixel (b, h, w) at (b, 0, h, w). -/
theorem idx_v26_pixel (b : Fin 8) (h w : Fin 512) : idx_main_v26 (ix3 b h w) = ix4 b 0 h w := by
  have hb : b.val < 8 := b.isLt
  have hh : h.val < 512 := h.isLt
  have hw : w.val < 512 := w.isLt
  funext a
  refine Fin.ext ?_
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

/-- The reference's negated gathered log-probability at pixel (b, h, w) is that pixel's negative log-likelihood. -/
theorem ref_nll_at (x : (⟨S8x19x512x512, .f32⟩ : BufTy).Contents (Elt Ideal)) (t : (⟨S8x512x512, .i32⟩ : BufTy).Contents (Elt Ideal))
    (hfin : ∀ i, ∃ r : ℝ, x i = (r : EReal)) (hlt : ∀ p, (t p).toInt < 19) (b : Fin 8) (h w : Fin 512) :
    val_main_v27 (F := Ideal) x t (ix3 b h w) = nll (A := 8) (H := 512) x t b h w := by
  rw [val_main_v27_apply, val_main_v26_apply, idx_v26_pixel, val_main_v25_apply, ref_mask_one t hlt, select_one,
    ref_gather_logp x t hlt, logp_read]
  obtain ⟨M, hM⟩ := RAlgebra.rowmax_real x hfin b h w
  obtain ⟨L, hL⟩ := RAlgebra.lse_real x hfin b h w
  obtain ⟨a, ha⟩ := hfin (ix4 b (cls (t (ix3 b h w))) h w)
  unfold nll
  rw [hM, hL, ha]
  exact neg_shift_sub a M L

end RSoftmax

/-- The reference's negated gathered log-probability at a pixel is that pixel's negative log-likelihood. -/
theorem ref_nll (x : (⟨S8x19x512x512, .f32⟩ : BufTy).Contents (Elt Ideal)) (t : (⟨S8x512x512, .i32⟩ : BufTy).Contents (Elt Ideal))
    (hfin : ∀ i, ∃ r : ℝ, x i = (r : EReal)) (hlt : ∀ p, (t p).toInt < 19) (j : S8x512x512.Idx) :
    val_main_v27 (F := Ideal) x t j = nll (A := 8) (H := 512) x t (j 0) (j 1) (j 2) :=
  (congrArg (val_main_v27 (F := Ideal) x t) (eq_ix3 j)).trans (RSoftmax.ref_nll_at x t hfin hlt (j 0) (j 1) (j 2))

end Cert.CE

end
-- ==== Proof.LibRows.lean ====
/-
  A scatter-add of whole rows into a table, and a gather of whole rows out of one, read at an index.

  The host's accumulating scatter with one index per update row: entry (c, j) of the result is the operand's entry plus the
  sum of column j of every update row whose index, read as a signed integer, is c and lies inside the table; an update row
  whose index lies outside is dropped. The same for a table of scalars (no column).
  The host's gather of rows: entry (…, j) of the result is column j of the table row named by the index at (…), read as a
  signed integer and clamped into the table.
  The four dimension records below are the ones a row scatter and a row gather print as; a printed record is one of them
  with its own well-formedness proof.
-/
import Idealize.ShloMosaic.PureOps.Ideal
import Idealize.ShloMosaic.PureOps.Ideal.Laws
import Idealize.ShloMosaic.Lib.ValueIdx

noncomputable section

namespace Cert.LibRows

open Idealize.ShloMosaic Idealize.ShloMosaic.ValueIdx

/-- The word h, read signed, is the number of row c of a table of N rows. -/
def RowHit {w : Nat} (N : Nat) (h : BitVec w) (c : Fin N) : Prop :=
  0 ≤ h.toInt ∧ h.toInt < (N : Int) ∧ h.toInt.toNat = c.val

instance {w : Nat} (N : Nat) (h : BitVec w) (c : Fin N) : Decidable (RowHit N h c) := by unfold RowHit; infer_instance

/-- The word h, read signed and clamped into a table of N rows. -/
def rowClamp {w : Nat} (N : Nat) (hN : 0 < N) (h : BitVec w) : Fin N := ⟨min h.toInt.toNat (N - 1), by omega⟩

/-- A scatter of M rows of C columns into a table of N rows, one index per row. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- A scatter of M scalars into a table of N scalars, one index per scalar. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- A gather of rows of C columns out of a table of N rows, indexed by an A x B array of indices. -/
abbrev rowsGather3 (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- A gather of rows of C columns out of a table of N rows, indexed by an A x B x D array of indices. -/
abbrev rowsGather4 (N C A B D : Nat)
    (wf : GatherDims.WF ⟨2, ![N, C]⟩ ⟨4, ![A, B, D, 1]⟩ ⟨4, ![A, B, D, C]⟩ [3] [0] [] [0] [] 3 ![1, C]) :
    GatherDims ⟨2, ![N, C]⟩ ⟨4, ![A, B, D, 1]⟩ ⟨4, ![A, B, D, C]⟩ where
  offsetDims := [3]
  collapsedSliceDims := [0]
  operandBatchingDims := []
  startIndicesBatchingDims := []
  startIndexMap := [0]
  indexVectorDim := 3
  sliceSizes := ![1, C]
  wf := wf

section RowsScatter

variable {N M C w : Nat} (wf : ScatterDims.WF ⟨2, ![N, C]⟩ ⟨2, ![M, 1]⟩ ⟨2, ![M, C]⟩ [1] [0] [0] 1)
  (idx : IVec ⟨2, ![M, 1]⟩ w) (q : Fin M) (j' : Fin C)

/-- On the table's row axis the window of update (q, j') starts at the q-th index, read signed. -/
private theorem rows_start0 : (rowsScatter N M C wf).start (ix2 q j') idx 0 = (idx (ix2 q 0)).toInt := by
  unfold ScatterDims.start
  rw [dif_pos (show (0 : Fin 2) ∈ (rowsScatter N M C wf).scatterDimsToOperandDims from List.mem_singleton.mpr rfl)]
  have hsi : (rowsScatter N M C wf).siIdx (ix2 q j') ⟨List.idxOf (0 : Fin 2) (rowsScatter N M C wf).scatterDimsToOperandDims,
      List.idxOf_lt_length_iff.2 (List.mem_singleton.mpr rfl)⟩ = ix2 q 0 := by
    funext b; refine Fin.ext ?_
    match b with
    | ⟨0, _⟩ => rfl
    | ⟨1, _⟩ => rfl
  rw [hsi]

/-- On the column axis it starts at 0. -/
private theorem rows_start1 : (rowsScatter N M C wf).start (ix2 q j') idx 1 = 0 := by
  unfold ScatterDims.start
  rw [dif_neg (show (1 : Fin 2) ∉ ([0] : List (Fin 2)) by decide)]

/-- The row axis is inserted: no window coordinate. -/
private theorem rows_window0 : (rowsScatter N M C wf).window (ix2 q j') 0 = 0 := by
  have h0 : (0 : Fin 2) ∉ (List.finRange 2).filter (fun a => decide (a ∉ ([0] : List (Fin 2)))) := by decide
  unfold ScatterDims.window
  rw [dif_neg (show (0 : Fin 2) ∉ (rowsScatter N M C wf).sKept from h0)]

/-- The column axis carries the update's column. -/
private theorem rows_window1 : (rowsScatter N M C wf).window (ix2 q j') 1 = j'.val := by
  have h1 : (1 : Fin 2) ∈ (List.finRange 2).filter (fun a => decide (a ∉ ([0] : List (Fin 2)))) := by decide
  unfold ScatterDims.window
  rw [dif_pos (show (1 : Fin 2) ∈ (rowsScatter N M C wf).sKept from h1)]
  rfl

/-- Update (q, j') lands at (c, j) exactly when its index names row c inside the table and j' = j. -/
private theorem rows_hit (c : Fin N) (j : Fin C) :
    (rowsScatter N M C wf).resultIdx? (ix2 q j') idx = some (ix2 c j) ↔ RowHit N (idx (ix2 q 0)) c ∧ j' = j := by
  unfold ScatterDims.resultIdx?
  constructor
  · intro h
    split at h
    · rename_i hall
      have hf := Option.some.inj h
      have h0 : ((rowsScatter N M C wf).start (ix2 q j') idx 0 + ((rowsScatter N M C wf).window (ix2 q j') 0 : Nat)).toNat = c.val :=
        congrArg Fin.val (congrFun hf 0)
      have h1 : ((rowsScatter N M C wf).start (ix2 q j') idx 1 + ((rowsScatter N M C wf).window (ix2 q j') 1 : Nat)).toNat = j.val :=
        congrArg Fin.val (congrFun hf 1)
      have ha : 0 ≤ (rowsScatter N M C wf).start (ix2 q j') idx 0 + ((rowsScatter N M C wf).window (ix2 q j') 0 : Nat)
          ∧ (rowsScatter N M C wf).start (ix2 q j') idx 0 + ((rowsScatter N M C wf).window (ix2 q j') 0 : Nat) < (N : Int) := hall 0
      rw [rows_start0, rows_window0] at h0 ha
      rw [rows_start1, rows_window1] at h1
      refine ⟨⟨by omega, by omega, by omega⟩, Fin.ext (by omega)⟩
    · exact absurd h (by simp)
  · rintro ⟨⟨h0, h1, h2⟩, rfl⟩
    have hall : ∀ a, 0 ≤ (rowsScatter N M C wf).start (ix2 q j') idx a + ((rowsScatter N M C wf).window (ix2 q j') a : Nat)
        ∧ (rowsScatter N M C wf).start (ix2 q j') idx a + ((rowsScatter N M C wf).window (ix2 q j') a : Nat) < ((⟨2, ![N, C]⟩ : Shape).size a : Int) := by
      intro a
      match a with
      | ⟨0, _⟩ =>
        show 0 ≤ (rowsScatter N M C wf).start (ix2 q j') idx 0 + ((rowsScatter N M C wf).window (ix2 q j') 0 : Nat)
          ∧ (rowsScatter N M C wf).start (ix2 q j') idx 0 + ((rowsScatter N M C wf).window (ix2 q j') 0 : Nat) < (N : Int)
        rw [rows_start0, rows_window0]; omega
      | ⟨1, _⟩ =>
        show 0 ≤ (rowsScatter N M C wf).start (ix2 q j') idx 1 + ((rowsScatter N M C wf).window (ix2 q j') 1 : Nat)
          ∧ (rowsScatter N M C wf).start (ix2 q j') idx 1 + ((rowsScatter N M C wf).window (ix2 q j') 1 : Nat) < (C : Int)
        rw [rows_start1, rows_window1]; have := j'.isLt; omega
    rw [dif_pos hall]
    congr 1
    funext a
    refine Fin.ext ?_
    match a with
    | ⟨0, _⟩ =>
      show ((rowsScatter N M C wf).start (ix2 q j') idx 0 + ((rowsScatter N M C wf).window (ix2 q j') 0 : Nat)).toNat = c.val
      rw [rows_start0, rows_window0]; omega
    | ⟨1, _⟩ =>
      show ((rowsScatter N M C wf).start (ix2 q j') idx 1 + ((rowsScatter N M C wf).window (ix2 q j') 1 : Nat)).toNat = j'.val
      rw [rows_start1, rows_window1]; omega

end RowsScatter

section VecScatter

variable {N M w : Nat} (wf : ScatterDims.WF ⟨1, ![N]⟩ ⟨2, ![M, 1]⟩ ⟨1, ![M]⟩ [] [0] [0] 1)
  (idx : IVec ⟨2, ![M, 1]⟩ w) (q : Fin M)

/-- The window of update q starts at the q-th index, read signed. -/
private theorem vec_start0 : (vecScatter N M wf).start (ix1 q) idx 0 = (idx (ix2 q 0)).toInt := by
  unfold ScatterDims.start
  rw [dif_pos (show (0 : Fin 1) ∈ (vecScatter N M wf).scatterDimsToOperandDims from List.mem_singleton.mpr rfl)]
  have hsi : (vecScatter N M wf).siIdx (ix1 q) ⟨List.idxOf (0 : Fin 1) (vecScatter N M wf).scatterDimsToOperandDims,
      List.idxOf_lt_length_iff.2 (List.mem_singleton.mpr rfl)⟩ = ix2 q 0 := by
    funext b; refine Fin.ext ?_
    match b with
    | ⟨0, _⟩ => rfl
    | ⟨1, _⟩ => rfl
  rw [hsi]

/-- The table's one axis is inserted: no window coordinate. -/
private theorem vec_window0 : (vecScatter N M wf).window (ix1 q) 0 = 0 := by
  have h0 : (0 : Fin 1) ∉ (List.finRange 1).filter (fun a => decide (a ∉ ([0] : List (Fin 1)))) := by decide
  unfold ScatterDims.window
  rw [dif_neg (show (0 : Fin 1) ∉ (vecScatter N M wf).sKept from h0)]

/-- Update q lands at c exactly when its index names entry c inside the table. -/
private theorem vec_hit (c : Fin N) :
    (vecScatter N M wf).resultIdx? (ix1 q) idx = some (ix1 c) ↔ RowHit N (idx (ix2 q 0)) c := by
  unfold ScatterDims.resultIdx?
  constructor
  · intro h
    split at h
    · rename_i hall
      have hf := Option.some.inj h
      have h0 : ((vecScatter N M wf).start (ix1 q) idx 0 + ((vecScatter N M wf).window (ix1 q) 0 : Nat)).toNat = c.val :=
        congrArg Fin.val (congrFun hf 0)
      have ha : 0 ≤ (vecScatter N M wf).start (ix1 q) idx 0 + ((vecScatter N M wf).window (ix1 q) 0 : Nat)
          ∧ (vecScatter N M wf).start (ix1 q) idx 0 + ((vecScatter N M wf).window (ix1 q) 0 : Nat) < (N : Int) := hall 0
      rw [vec_start0, vec_window0] at h0 ha
      exact ⟨by omega, by omega, by omega⟩
    · exact absurd h (by simp)
  · rintro ⟨h0, h1, h2⟩
    have hall : ∀ a, 0 ≤ (vecScatter N M wf).start (ix1 q) idx a + ((vecScatter N M wf).window (ix1 q) a : Nat)
        ∧ (vecScatter N M wf).start (ix1 q) idx a + ((vecScatter N M wf).window (ix1 q) a : Nat) < ((⟨1, ![N]⟩ : Shape).size a : Int) := by
      intro a
      match a with
      | ⟨0, _⟩ =>
        show 0 ≤ (vecScatter N M wf).start (ix1 q) idx 0 + ((vecScatter N M wf).window (ix1 q) 0 : Nat)
          ∧ (vecScatter N M wf).start (ix1 q) idx 0 + ((vecScatter N M wf).window (ix1 q) 0 : Nat) < (N : Int)
        rw [vec_start0, vec_window0]; omega
    rw [dif_pos hall]
    congr 1
    funext a
    refine Fin.ext ?_
    match a with
    | ⟨0, _⟩ =>
      show ((vecScatter N M wf).start (ix1 q) idx 0 + ((vecScatter N M wf).window (ix1 q) 0 : Nat)).toNat = c.val
      rw [vec_start0, vec_window0]; omega

end VecScatter

/-- THE ROW SCATTER-ADD READ AT (c, j). -/
theorem scatterAdd_rows_apply {N M C w : Nat} {φ : FTy}
    (wf : ScatterDims.WF ⟨2, ![N, C]⟩ ⟨2, ![M, 1]⟩ ⟨2, ![M, C]⟩ [1] [0] [0] 1)
    (x : FVec Ideal ⟨2, ![N, C]⟩ φ) (idx : IVec ⟨2, ![M, 1]⟩ w) (upd : FVec Ideal ⟨2, ![M, C]⟩ φ) (c : Fin N) (j : Fin C) :
    Host.scatterAdd (F := Ideal) (rowsScatter N M C wf) x idx upd (ix2 c j)
      = x (ix2 c j) + ∑ q ∈ Finset.univ.filter (fun q : Fin M => RowHit N (idx (ix2 q 0)) c), upd (ix2 q j) := by
  show Ideal.hostScatterAdd (rowsScatter N M C wf) x idx upd (ix2 c j) = _
  unfold Ideal.hostScatterAdd
  congr 1
  -- an update that lands at (c, j) hits row c and sits in column j
  have key : ∀ i : (⟨2, ![M, C]⟩ : Shape).Idx, (rowsScatter N M C wf).resultIdx? i idx = some (ix2 c j) →
      RowHit N (idx (ix2 (i 0) 0)) c ∧ ix2 (i 0) j = i := by
    intro i hi
    have hi2 : (rowsScatter N M C wf).resultIdx? (ix2 (i 0) (i 1)) idx = some (ix2 c j) :=
      Eq.mp (congrArg (fun t => (rowsScatter N M C wf).resultIdx? t idx = some (ix2 c j)) (eq_ix2 i)) hi
    obtain ⟨hr, hj⟩ := (rows_hit wf idx (i 0) (i 1) c j).mp hi2
    exact ⟨hr, (congrArg (fun t => ix2 (i 0) t) hj).symm.trans (eq_ix2 i).symm⟩
  -- so the updates landing at (c, j) are the (q, j) with q a hit, one for one
  refine Finset.sum_nbij' (fun i => (i 0 : Fin M)) (fun q => ix2 q j) ?_ ?_ ?_ ?_ ?_
  · intro i hi
    exact Finset.mem_filter.mpr ⟨Finset.mem_univ _, (key i (Finset.mem_filter.mp hi).2).1⟩
  · intro q hq
    exact Finset.mem_filter.mpr ⟨Finset.mem_univ _, (rows_hit wf idx q j c j).mpr ⟨(Finset.mem_filter.mp hq).2, rfl⟩⟩
  · intro i hi
    exact (key i (Finset.mem_filter.mp hi).2).2
  · intro q _
    rfl
  · intro i hi
    exact congrArg upd (key i (Finset.mem_filter.mp hi).2).2.symm

/-- THE SCALAR SCATTER-ADD READ AT c. -/
theorem scatterAdd_vec_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (c : Fin N) :
    Host.scatterAdd (F := Ideal) (vecScatter N M wf) x idx upd (ix1 c)
      = x (ix1 c) + ∑ q ∈ Finset.univ.filter (fun q : Fin M => RowHit N (idx (ix2 q 0)) c), upd (ix1 q) := by
  show Ideal.hostScatterAdd (vecScatter N M wf) x idx upd (ix1 c) = _
  unfold Ideal.hostScatterAdd
  congr 1
  -- an update that lands at c hits entry c
  have key : ∀ i : (⟨1, ![M]⟩ : Shape).Idx, (vecScatter N M wf).resultIdx? i idx = some (ix1 c) →
      RowHit N (idx (ix2 (i 0) 0)) c := by
    intro i hi
    have hi2 : (vecScatter N M wf).resultIdx? (ix1 (i 0)) idx = some (ix1 c) :=
      Eq.mp (congrArg (fun t => (vecScatter N M wf).resultIdx? t idx = some (ix1 c)) (eq_ix1 i)) hi
    exact (vec_hit wf idx (i 0) c).mp hi2
  -- so the updates landing at c are the hits, one for one
  refine Finset.sum_nbij' (fun i => (i 0 : Fin M)) (fun q => ix1 q) ?_ ?_ ?_ ?_ ?_
  · intro i hi
    exact Finset.mem_filter.mpr ⟨Finset.mem_univ _, key i (Finset.mem_filter.mp hi).2⟩
  · intro q hq
    exact Finset.mem_filter.mpr ⟨Finset.mem_univ _, (vec_hit wf idx q c).mpr (Finset.mem_filter.mp hq).2⟩
  · intro i _
    exact (eq_ix1 i).symm
  · intro q _
    rfl
  · intro i _
    exact congrArg upd (eq_ix1 i)

/-- THE ROW GATHER OVER AN A x B ARRAY OF INDICES READ AT (a, b, j). -/
theorem gather_rows3_apply {α : Type} {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (j : Fin C) :
    Host.gather (rowsGather3 N C A B wf) x idx (ix3 a b j) = x (ix2 (rowClamp N hN (idx (ix3 a b 0))) j) := by
  unfold Host.gather
  congr 1
  funext e
  refine Fin.ext ?_
  match e with
  | ⟨0, _⟩ =>
    show (rowsGather3 N C A B wf).start (ix3 a b j) idx 0 + (rowsGather3 N C A B wf).batchCoord (ix3 a b j) 0
      + (rowsGather3 N C A B wf).offCoord (ix3 a b j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather3 N C A B wf).startIndexMap from List.mem_singleton.mpr rfl)]
    have hsi : (rowsGather3 N C A B wf).siIdx (ix3 a b j) ⟨List.idxOf (0 : Fin 2) (rowsGather3 N C A B wf).startIndexMap,
        List.idxOf_lt_length_iff.2 (List.mem_singleton.mpr rfl)⟩ = ix3 a b 0 := by
      funext b'; refine Fin.ext ?_
      match b' with
      | ⟨0, _⟩ => rfl
      | ⟨1, _⟩ => rfl
      | ⟨2, _⟩ => rfl
    rw [hsi]
    rfl
  | ⟨1, _⟩ =>
    show (rowsGather3 N C A B wf).start (ix3 a b j) idx 1 + (rowsGather3 N C A B wf).batchCoord (ix3 a b j) 1
      + (rowsGather3 N C A B wf).offCoord (ix3 a b j) 1 = j.val
    rw [GatherDims.batchCoord_eq_zero _ _ _ List.not_mem_nil]
    have hs : (rowsGather3 N C A B wf).start (ix3 a b j) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- THE ROW GATHER OVER AN A x B x D ARRAY OF INDICES READ AT (a, b, d, j). -/
theorem gather_rows4_apply {α : Type} {N C A B D w : Nat} (hN : 0 < N)
    (wf : GatherDims.WF ⟨2, ![N, C]⟩ ⟨4, ![A, B, D, 1]⟩ ⟨4, ![A, B, D, C]⟩ [3] [0] [] [0] [] 3 ![1, C])
    (x : (⟨2, ![N, C]⟩ : Shape).Idx → α) (idx : IVec ⟨4, ![A, B, D, 1]⟩ w) (a : Fin A) (b : Fin B) (d : Fin D) (j : Fin C) :
    Host.gather (rowsGather4 N C A B D wf) x idx (ix4 a b d j) = x (ix2 (rowClamp N hN (idx (ix4 a b d 0))) j) := by
  unfold Host.gather
  congr 1
  funext e
  refine Fin.ext ?_
  match e with
  | ⟨0, _⟩ =>
    show (rowsGather4 N C A B D wf).start (ix4 a b d j) idx 0 + (rowsGather4 N C A B D wf).batchCoord (ix4 a b d j) 0
      + (rowsGather4 N C A B D wf).offCoord (ix4 a b d j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather4 N C A B D wf).startIndexMap from List.mem_singleton.mpr rfl)]
    have hsi : (rowsGather4 N C A B D wf).siIdx (ix4 a b d j) ⟨List.idxOf (0 : Fin 2) (rowsGather4 N C A B D wf).startIndexMap,
        List.idxOf_lt_length_iff.2 (List.mem_singleton.mpr rfl)⟩ = ix4 a b d 0 := by
      funext b'; refine Fin.ext ?_
      match b' with
      | ⟨0, _⟩ => rfl
      | ⟨1, _⟩ => rfl
      | ⟨2, _⟩ => rfl
      | ⟨3, _⟩ => rfl
    rw [hsi]
    rfl
  | ⟨1, _⟩ =>
    show (rowsGather4 N C A B D wf).start (ix4 a b d j) idx 1 + (rowsGather4 N C A B D wf).batchCoord (ix4 a b d j) 1
      + (rowsGather4 N C A B D wf).offCoord (ix4 a b d j) 1 = j.val
    rw [GatherDims.batchCoord_eq_zero _ _ _ List.not_mem_nil]
    have hs : (rowsGather4 N C A B D wf).start (ix4 a b d j) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

end Cert.LibRows

end
-- ==== Proof.LibIdx3.lean ====
/-
  Sums over the indices of a rank-3 array, and over its row-major flattening, as triple sums over the three coordinates.
  General in the extents and in the additive commutative monoid summed in.
-/
import Idealize.ShloMosaic.Lib.ValueIdx

noncomputable section

namespace Cert.Idx3

open Idealize.ShloMosaic Idealize.ShloMosaic.ValueIdx
open scoped BigOperators

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of an [n0, n1, n2] array is the triple sum over its coordinates. -/
theorem sum_idx3 {M : Type*} [AddCommMonoid M] {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl (fun a _ => ?_)
  rw [Fintype.sum_prod_type]
  rfl

/-- The row-major position of entry (a, b, c) of an [n0, n1, n2] array. -/
def flat3 {n0 n1 n2 : Nat} (a : Fin n0) (b : Fin n1) (c : Fin n2) : Fin (n0 * n1 * n2) :=
  ⟨(a.val * n1 + b.val) * n2 + c.val, by
    have ha := a.isLt; have hb := b.isLt; have hc := c.isLt
    calc (a.val * n1 + b.val) * n2 + c.val < (a.val * n1 + b.val) * n2 + n2 := by omega
      _ = (a.val * n1 + b.val + 1) * n2 := by ring
      _ ≤ (n0 * n1) * n2 := by
        apply Nat.mul_le_mul_right
        calc a.val * n1 + b.val + 1 ≤ a.val * n1 + n1 := by omega
          _ = (a.val + 1) * n1 := by ring
          _ ≤ n0 * n1 := Nat.mul_le_mul_right _ (by omega)⟩

theorem flat3_val {n0 n1 n2 : Nat} (a : Fin n0) (b : Fin n1) (c : Fin n2) :
    (flat3 a b c).val = (a.val * n1 + b.val) * n2 + c.val := rfl

/-- The coordinates (a, b, c) and the flat positions correspond one to one: pairing (a, b) to a * n1 + b and then
    that with c to (a * n1 + b) * n2 + c are both the standard bijection of a product of two ranges with their product range. -/
def flatEquiv3 {n0 n1 n2 : Nat} : (Fin n0 × Fin n1) × Fin n2 ≃ Fin (n0 * n1 * n2) :=
  ((finProdFinEquiv (m := n0) (n := n1)).prodCongr (Equiv.refl (Fin n2))).trans (finProdFinEquiv (m := n0 * n1) (n := n2))

/-- That correspondence sends (a, b, c) to its row-major position. -/
theorem flatEquiv3_apply {n0 n1 n2 : Nat} (p : (Fin n0 × Fin n1) × Fin n2) :
    flatEquiv3 p = flat3 p.1.1 p.1.2 p.2 := by
  apply Fin.ext
  show p.2.val + n2 * (p.1.2.val + n1 * p.1.1.val) = (p.1.1.val * n1 + p.1.2.val) * n2 + p.2.val
  ring

/-- A sum over the flat positions of an [n0, n1, n2] array is the triple sum over its coordinates. -/
theorem sum_flat3 {M : Type*} [AddCommMonoid M] {n0 n1 n2 : Nat} (f : Fin (n0 * n1 * n2) → M) :
    ∑ q, f q = ∑ a : Fin n0, ∑ b : Fin n1, ∑ c : Fin n2, f (flat3 a b c) := by
  have h1 : ∑ a : Fin n0, ∑ b : Fin n1, ∑ c : Fin n2, f (flat3 a b c)
      = ∑ p : (Fin n0 × Fin n1) × Fin n2, f (flat3 p.1.1 p.1.2 p.2) := by
    rw [Fintype.sum_prod_type, Fintype.sum_prod_type]
  rw [h1]
  refine (Fintype.sum_equiv (flatEquiv3 (n0 := n0) (n1 := n1) (n2 := n2)) _ _ (fun p => ?_)).symm
  rw [flatEquiv3_apply]

/-- The same over a filtered set of flat positions. -/
theorem sum_filter_flat3 {M : Type*} [AddCommMonoid M] {n0 n1 n2 : Nat} (P : Fin (n0 * n1 * n2) → Prop) [DecidablePred P]
    (f : Fin (n0 * n1 * n2) → M) :
    ∑ q ∈ Finset.univ.filter P, f q = ∑ a : Fin n0, ∑ b : Fin n1, ∑ c : Fin n2, if P (flat3 a b c) then f (flat3 a b c) else 0 := by
  rw [Finset.sum_filter, sum_flat3]

end Cert.Idx3

end
-- ==== Proof.RGatherW.lean ====
/-
  The reference's weight gather: the 19-entry weight table read at a pixel's label is its entry at the pixel's class, for
  labels below 19 (an ignored label is made 0 before the gather, and reads entry 0).
-/
import proofs.«410359_j30545807409282_3_alg».proof.Proof.RefReadP
import proofs.«410359_j30545807409282_3_alg».proof.Proof.Spec
import Idealize.ShloMosaic.Lib.ValueIdx
import Idealize.ShloMosaic.Lib.Pipeline.Value
import Idealize.ShloMosaic.Lib.Affine

noncomputable section

namespace Cert.CE

open Idealize.ShloMosaic Idealize.ShloMosaic.ValueIdx
open scoped BigOperators

open Cert.ReferenceIdeal Cert.ReferenceIdeal.Read

namespace RGatherW

/-! ## The label made safe for the table -/

/-- The label with a negative one replaced by 0. -/
def safeLabel (w : BitVec 32) : BitVec 32 := Scalar.select (IntOp.cmpi .sge w 0#32) w 0#32

/-- Read signed, the safe label is not negative. -/
theorem safeLabel_nonneg (w : BitVec 32) : 0 ≤ (safeLabel w).toInt := by
  unfold safeLabel Scalar.select
  split
  · rename_i h
    have h1 := IntOp.cmpi_sge.mp h
    have h0 : (0#32 : BitVec 32).toInt = 0 := by decide
    omega
  · decide

/-- Adding 19 to a negative index does nothing to the safe label, which is never negative. -/
theorem wrap_safeLabel (w : BitVec 32) :
    Scalar.select (IntOp.cmpi .slt (safeLabel w) 0#32) (IntOp.addi (safeLabel w) 19#32) (safeLabel w) = safeLabel w := by
  have h := safeLabel_nonneg w
  unfold Scalar.select
  rw [if_neg]
  intro hc
  have h1 := IntOp.cmpi_slt.mp hc
  have h0 : (0#32 : BitVec 32).toInt = 0 := by decide
  omega

/-- For a label below 19 the safe label, read signed and clamped into the table's 19 entries, is the label's class. -/
theorem safeLabel_class (w : BitVec 32) (hw : w.toInt < 19) : min (safeLabel w).toInt.toNat (19 - 1) = (cls w).val := by
  have h00 : (0#32 : BitVec 32).toInt = 0 := by decide
  unfold safeLabel Scalar.select cls
  by_cases h0 : 0 ≤ w.toInt
  · have hc : IntOp.cmpi .sge w 0#32 = 1 := IntOp.cmpi_sge.mpr (by omega)
    rw [if_pos hc, dif_pos ⟨h0, hw⟩]
    show min w.toInt.toNat (19 - 1) = w.toInt.toNat
    omega
  · have hc : ¬ IntOp.cmpi .sge w 0#32 = 1 := fun h => h0 (by have := IntOp.cmpi_sge.mp h; omega)
    rw [if_neg hc, dif_neg (fun hv => h0 hv.1)]
    rfl

/-! ## The reference's table index at a pixel -/

/-- The reference's safe label at pixel p: the label where it is not negative, else 0. -/
theorem val_v2_eq (t : (⟨S8x512x512, .i32⟩ : BufTy).Contents (Elt Ideal)) (p : S8x512x512.Idx) :
    val_main_v2 (F := Ideal) t p = safeLabel (t p) := by
  rw [val_main_v2_apply, val_main_v1_apply, val_main_v0_apply, val_main_c_apply, val_main_call0_v1_apply,
    val_main_call0_v0_apply, val_main_c_0_apply]
  rfl

/-- The reference's table index at pixel p is the safe label. -/
theorem val_v32_eq (t : (⟨S8x512x512, .i32⟩ : BufTy).Contents (Elt Ideal)) (p : S8x512x512.Idx) :
    val_main_v32 (F := Ideal) t p = safeLabel (t p) := by
  rw [val_main_v32_apply, val_main_v29_apply, val_main_v31_apply, val_main_v28_apply, val_main_c_8_apply,
    val_main_v30_apply, val_main_c_9_apply, val_v2_eq]
  exact wrap_safeLabel (t p)

/-- The index [a, h, w, 0] of the index array at which pixel (a, h, w) reads its table index. -/
abbrev pixIdx (j : S8x512x512.Idx) : S8x512x512x1.Idx :=
  fun a => match a with
    | ⟨0, _⟩ => ⟨(j 0).val, (j 0).isLt⟩
    | ⟨1, _⟩ => ⟨(j 1).val, (j 1).isLt⟩
    | ⟨2, _⟩ => ⟨(j 2).val, (j 2).isLt⟩
    | ⟨3, _⟩ => ⟨0, Nat.one_pos⟩

end RGatherW

/-- The gathered weight at pixel j is the table's entry at j's class. -/
theorem ref_gather_w (t : (⟨S8x512x512, .i32⟩ : BufTy).Contents (Elt Ideal)) (hlt : ∀ p, (t p).toInt < 19) (j : S8x512x512.Idx) :
    val_main_v34 (F := Ideal) t j = val_main_v22 (F := Ideal) t (ix1 (cls (t j))) := by
  unfold val_main_v34 Host.gather
  congr 1
  funext a
  obtain rfl : a = 0 := Subsingleton.elim _ _
  refine Fin.ext ?_
  show GatherDims.start gather_S19_S8x512x512x1_S8x512x512_n_0_n_n_0_3_1 j (val_main_v33 (F := Ideal) t) 0
      + GatherDims.batchCoord gather_S19_S8x512x512x1_S8x512x512_n_0_n_n_0_3_1 j 0
      + GatherDims.offCoord gather_S19_S8x512x512x1_S8x512x512_n_0_n_n_0_3_1 j 0 = (cls (t j)).val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S19_S8x512x512x1_S8x512x512_n_0_n_n_0_3_1.startIndexMap from
    List.mem_singleton.mpr rfl)]
  have hsi : GatherDims.siIdx gather_S19_S8x512x512x1_S8x512x512_n_0_n_n_0_3_1 j
      ⟨List.idxOf (0 : Fin 1) gather_S19_S8x512x512x1_S8x512x512_n_0_n_n_0_3_1.startIndexMap,
        List.idxOf_lt_length_iff.2 (List.mem_singleton.mpr rfl)⟩ = RGatherW.pixIdx j := by
    funext b; refine Fin.ext ?_
    match b with
    | ⟨0, _⟩ => rfl
    | ⟨1, _⟩ => rfl
    | ⟨2, _⟩ => rfl
    | ⟨3, _⟩ => rfl
  have hp : idx_main_v33 (RGatherW.pixIdx j) = j := by
    funext b
    match b with
    | ⟨0, _⟩ => rfl
    | ⟨1, _⟩ => rfl
    | ⟨2, _⟩ => rfl
  rw [hsi, val_main_v33_apply, hp, RGatherW.val_v32_eq]
  exact RGatherW.safeLabel_class (t j) (hlt j)

end Cert.CE

end
-- ==== Proof.RCounts.lean ====
/-
  The reference's histogram and per-pixel weights: the scatter-add of the counted pixels into 19 bins is the per-class count,
  and the weight gathered at a pixel's label times its counted factor is its class's weight times that factor.
-/
import proofs.«410359_j30545807409282_3_alg».proof.Proof.RefReadP
import proofs.«410359_j30545807409282_3_alg».proof.Proof.Spec
import proofs.«410359_j30545807409282_3_alg».proof.Proof.LibRows
import proofs.«410359_j30545807409282_3_alg».proof.Proof.LibIdx3
import proofs.«410359_j30545807409282_3_alg».proof.Proof.RGatherW
import Idealize.ShloMosaic.Lib.ValueIdx
import Idealize.ShloMosaic.Lib.Pipeline.Value

noncomputable section

namespace Cert.CE

open Idealize.ShloMosaic Idealize.ShloMosaic.ValueIdx
open scoped BigOperators

open Cert.ReferenceIdeal Cert.ReferenceIdeal.Read

/-! ## Words: the sign test, the safe label, the wrap that never fires -/

/-- A boolean's bit is 1 exactly when the boolean holds. -/
theorem bit_eq_one_iff (b : Bool) : BitVec.ofBool b = 1#1 ↔ b = true := by cases b <;> decide

/-- The bit of the signed test w ≥ 0 is 1 exactly when w, read signed, is non-negative. -/
theorem sge_zero_iff (w : BitVec 32) : IntOp.cmpi .sge w 0#32 = 1#1 ↔ 0 ≤ w.toInt := by
  show BitVec.ofBool ((0#32).sle w) = 1#1 ↔ 0 ≤ w.toInt
  rw [bit_eq_one_iff, BitVec.sle_iff_toInt_le, BitVec.toInt_zero]

/-- The bit of the signed test s < 0 is 0 when s, read signed, is non-negative. -/
theorem slt_zero_of_nonneg (s : BitVec 32) (h : 0 ≤ s.toInt) : IntOp.cmpi .slt s 0#32 = 0#1 := by
  apply eq_zero_of_ne_one
  intro h1
  have h2 : BitVec.ofBool (s.slt 0#32) = 1#1 := h1
  rw [bit_eq_one_iff, BitVec.slt_iff_toInt_lt, BitVec.toInt_zero] at h2
  omega

/-- The safe label: the label itself when non-negative, else 0. -/
def safe (w : BitVec 32) : BitVec 32 := Scalar.select (IntOp.cmpi .sge w 0#32) w 0#32

theorem safe_of_nonneg {w : BitVec 32} (h : 0 ≤ w.toInt) : safe w = w := by
  unfold safe
  rw [(sge_zero_iff w).mpr h]
  exact select_one _ _

theorem safe_of_neg {w : BitVec 32} (h : w.toInt < 0) : safe w = 0#32 := by
  unfold safe
  rw [eq_zero_of_ne_one (fun h1 => absurd ((sge_zero_iff w).mp h1) (by omega))]
  exact select_zero _ _

/-- For a label below 19 the safe label, read signed, is the number of the label's class. -/
theorem safe_toInt (w : BitVec 32) (h : w.toInt < 19) : (safe w).toInt = ((cls w).val : Int) := by
  by_cases h0 : 0 ≤ w.toInt
  · rw [safe_of_nonneg h0]
    have hv : Valid w := ⟨h0, h⟩
    unfold cls
    rw [dif_pos hv]
    show w.toInt = ((w.toInt.toNat : Nat) : Int)
    omega
  · have hn : w.toInt < 0 := by omega
    rw [safe_of_neg hn]
    have hv : ¬ Valid w := fun hv => h0 hv.1
    unfold cls
    rw [dif_neg hv]
    rfl

/-- The safe label of a label below 19 names entry c of the 19-entry table exactly when c is the label's class. -/
theorem rowHit_safe (w : BitVec 32) (h : w.toInt < 19) (c : Fin 19) :
    Cert.LibRows.RowHit 19 (safe w) c ↔ cls w = c := by
  unfold Cert.LibRows.RowHit
  rw [safe_toInt w h]
  have hc := (cls w).isLt
  constructor
  · rintro ⟨_, _, h3⟩
    exact Fin.ext (by omega)
  · rintro rfl
    exact ⟨by omega, by omega, by omega⟩

/-- Adding 19 to a negative index never fires on a safe label. -/
theorem wrap_safe (w : BitVec 32) (h : w.toInt < 19) :
    Scalar.select (IntOp.cmpi .slt (safe w) 0#32) (IntOp.addi (safe w) 19#32) (safe w) = safe w := by
  have h0 : 0 ≤ (safe w).toInt := by rw [safe_toInt w h]; omega
  rw [slt_zero_of_nonneg _ h0]
  exact select_zero _ _

/-- The sign bit of a label below 19, as a float, is the label's counted factor. -/
theorem bit_vf (w : BitVec 32) (h : w.toInt < 19) :
    FloatOps.uitofp (F := Ideal) .f32 (IntOp.cmpi .sge w 0#32) = vf w := by
  show (((IntOp.cmpi .sge w 0#32).toNat : ℝ) : EReal) = vf w
  unfold vf
  by_cases h0 : 0 ≤ w.toInt
  · rw [(sge_zero_iff w).mpr h0, if_pos (show Valid w from ⟨h0, h⟩)]
    simp
  · rw [eq_zero_of_ne_one (fun h1 => h0 ((sge_zero_iff w).mp h1)), if_neg (fun hv : Valid w => h0 hv.1)]
    simp

/-! ## The reference's stages at an element -/

/-- The sign bit of pixel p's label. -/
theorem v1_at (t : (⟨S8x512x512, .i32⟩ : BufTy).Contents (Elt Ideal)) (p : S8x512x512.Idx) :
    val_main_v1 (F := Ideal) t p = IntOp.cmpi .sge (t p) 0#32 := by
  rw [val_main_v1_apply, val_main_v0_apply, val_main_c_apply]

/-- The selected label of pixel p is its safe label. -/
theorem v2_at (t : (⟨S8x512x512, .i32⟩ : BufTy).Contents (Elt Ideal)) (p : S8x512x512.Idx) :
    val_main_v2 (F := Ideal) t p = safe (t p) := by
  rw [val_main_v2_apply, v1_at, val_main_call0_v1_apply, val_main_call0_v0_apply, val_main_c_0_apply]
  rfl

/-- The flat position of pixel (a, h, w). -/
def flatQ (a : Fin 8) (h w : Fin 512) : Fin 2097152 := Cert.Idx3.flat3 a h w

theorem flatQ_val (a : Fin 8) (h w : Fin 512) : (flatQ a h w).val = (a.val * 512 + h.val) * 512 + w.val := rfl

/-- The reshape reads flat position (a * 512 + h) * 512 + w at pixel (a, h, w). -/
theorem idx_v4_flat (a : Fin 8) (h w : Fin 512) : idx_main_v4 (ix1 (flatQ a h w)) = ix3 a h w := by
  have ha := a.isLt; have hh := h.isLt; have hw := w.isLt
  funext d
  refine Fin.ext ?_
  match d with
  | ⟨0, _⟩ =>
    show ((a.val * 512 + h.val) * 512 + w.val) / 262144 = a.val
    omega
  | ⟨1, _⟩ =>
    show ((a.val * 512 + h.val) * 512 + w.val) / 512 % 512 = h.val
    omega
  | ⟨2, _⟩ =>
    show ((a.val * 512 + h.val) * 512 + w.val) % 512 = w.val
    omega

/-- The scatter's index word of flat position q is the safe label of the pixel at q. -/
theorem idxword_at (t : (⟨S8x512x512, .i32⟩ : BufTy).Contents (Elt Ideal)) (hlt : ∀ p, (t p).toInt < 19) (q : Fin 2097152) :
    val_main_v12 (F := Ideal) t (ix2 q 0) = safe (t (idx_main_v4 (ix1 q))) := by
  have hq : idx_main_v12 (ix2 q (0 : Fin 1)) = ix1 q := by
    funext d
    match d with
    | ⟨0, _⟩ => rfl
  rw [val_main_v12_apply, hq, val_main_v11_apply, val_main_v8_apply, val_main_v10_apply, val_main_v7_apply, val_main_c_1_apply,
    val_main_v9_apply, val_main_c_2_apply, val_main_v4_apply, v2_at]
  exact wrap_safe _ (hlt _)

/-- The scatter's update at flat position q is the counted factor of the pixel at q. -/
theorem upd_at (t : (⟨S8x512x512, .i32⟩ : BufTy).Contents (Elt Ideal)) (hlt : ∀ p, (t p).toInt < 19) (q : Fin 2097152) :
    val_main_v6 (F := Ideal) t (ix1 q) = vf (t (idx_main_v4 (ix1 q))) := by
  rw [val_main_v6_apply, val_main_v5_apply, v1_at]
  exact bit_vf _ (hlt _)

/-- A filtered sum over the flat positions, as the triple sum over the pixels' coordinates. -/
theorem sum_filter_flatQ (P : Fin 2097152 → Prop) [DecidablePred P] (f : Fin 2097152 → EReal) :
    ∑ q ∈ Finset.univ.filter P, f q
      = ∑ a : Fin 8, ∑ h : Fin 512, ∑ w : Fin 512, if P (flatQ a h w) then f (flatQ a h w) else 0 :=
  Cert.Idx3.sum_filter_flat3 (n0 := 8) (n1 := 512) (n2 := 512) P f

/-- The reference's scatter is the scatter of 2097152 scalars into a table of 19, one index per scalar. -/
theorem scatter_eq : scatter_S19_S2097152x1_S2097152_n_0_0_1
    = Cert.LibRows.vecScatter 19 2097152 Facts₀.scatter_S19_S2097152x1_S2097152_n_0_0_1_wf := rfl

/-- The reference's histogram at class c is the number of counted pixels labelled c. -/
theorem ref_cnt (t : (⟨S8x512x512, .i32⟩ : BufTy).Contents (Elt Ideal)) (hlt : ∀ p, (t p).toInt < 19) (c : Fin 19) :
    val_main_v13 (F := Ideal) t (ix1 c) = cnt (A := 8) (H := 512) t c := by
  unfold val_main_v13
  rw [scatter_eq, Cert.LibRows.scatterAdd_vec_apply, val_main_v3_apply, val_main_cst_apply]
  rw [show (FloatOps.ofBits (F := Ideal) .f32 0x00000000#32 : EReal) = 0 from Ideal.ofBits_zero_f32, zero_add]
  rw [sum_filter_flatQ]
  unfold cnt imgCnt
  refine Finset.sum_congr rfl (fun a _ => Finset.sum_congr rfl (fun h _ => Finset.sum_congr rfl (fun w _ => ?_)))
  rw [idxword_at t hlt, upd_at t hlt, idx_v4_flat]
  exact if_congr (rowHit_safe _ (hlt _) c) rfl rfl

/-! ## The weight table and the per-pixel weight -/

/-- The reference's weight table at class c is the class weight of c's count. -/
theorem table_at (t : (⟨S8x512x512, .i32⟩ : BufTy).Contents (Elt Ideal)) (hlt : ∀ p, (t p).toInt < 19) (c : Fin 19) :
    val_main_v22 (F := Ideal) t (ix1 c) = wgt (cnt (A := 8) (H := 512) t c) := by
  rw [val_main_v22_apply, val_main_v21_apply, val_main_v19_apply, val_main_v17_apply, val_main_v15_apply,
    val_main_v20_apply, val_main_cst_6_apply, val_main_v18_apply, val_main_cst_5_apply, val_main_v16_apply,
    val_main_cst_4_apply, val_main_v14_apply, val_main_cst_3_apply, val_main_call1_v1_apply, val_main_call1_v0_apply,
    val_main_cst_7_apply, ref_cnt t hlt c]
  rfl

/-- The reference's counted factor at pixel j. -/
theorem v35_at (t : (⟨S8x512x512, .i32⟩ : BufTy).Contents (Elt Ideal)) (hlt : ∀ p, (t p).toInt < 19) (j : S8x512x512.Idx) :
    val_main_v35 (F := Ideal) t j = vf (t j) := by
  rw [val_main_v35_apply, v1_at]
  exact bit_vf _ (hlt j)

/-- The reference's per-pixel weight: its class's weight times its counted factor. -/
theorem ref_pixw (t : (⟨S8x512x512, .i32⟩ : BufTy).Contents (Elt Ideal)) (hlt : ∀ p, (t p).toInt < 19) (j : S8x512x512.Idx) :
    val_main_v36 (F := Ideal) t j = wgt (cnt (A := 8) (H := 512) t (cls (t j))) * vf (t j) := by
  rw [val_main_v36_apply, ref_gather_w t hlt j, table_at t hlt, v35_at t hlt]
  rfl

end Cert.CE

end
-- ==== Proof.RValue.lean ====
/-
  The reference program's result is the loss. Its last three operations are two sums over all pixels and their quotient; the
  summands are the per-pixel weight and that weight times the pixel's negative log-likelihood; the law that joins the pixel
  form to the class form does the rest.
-/
import proofs.«410359_j30545807409282_3_alg».proof.Proof.RefReadP
import proofs.«410359_j30545807409282_3_alg».proof.Proof.RSoftmax
import proofs.«410359_j30545807409282_3_alg».proof.Proof.RCounts
import proofs.«410359_j30545807409282_3_alg».proof.Proof.RAlgebra

noncomputable section

namespace Cert.CE

open Idealize.ShloMosaic Idealize.ShloMosaic.ValueIdx
open scoped BigOperators

open Cert.ReferenceIdeal Cert.ReferenceIdeal.Read

/-- For real logits and labels below 19 the reference's result is the loss. -/
theorem ref_value (x : (⟨S8x19x512x512, .f32⟩ : BufTy).Contents (Elt Ideal)) (t : (⟨S8x512x512, .i32⟩ : BufTy).Contents (Elt Ideal))
    (hfin : ∀ i, ∃ r : ℝ, x i = (r : EReal)) (hlt : ∀ p, (t p).toInt < 19) :
    val_main_v40 (F := Ideal) x t ix0 = loss (A := 8) (H := 512) x t := by
  -- the numerator's summand: the pixel's weight times its negative log-likelihood
  have e37 : val_main_v37 (F := Ideal) x t
      = fun j => (wgt (cnt (A := 8) (H := 512) t (cls (t j))) * vf (t j)) * nll (A := 8) (H := 512) x t (j 0) (j 1) (j 2) :=
    funext fun j => by
      rw [val_main_v37_apply, ref_pixw t hlt j, ref_nll x t hfin hlt j]
      rfl
  -- the denominator's summand: the pixel's weight
  have e36 : val_main_v36 (F := Ideal) t = fun j => wgt (cnt (A := 8) (H := 512) t (cls (t j))) * vf (t j) :=
    funext fun j => ref_pixw t hlt j
  rw [val_main_v40_apply, val_main_v38_apply, val_main_v39_apply, val_main_cst_10_apply, val_main_cst_11_apply, e37, e36]
  exact pixel_form x t hfin

end Cert.CE

end
-- ==== Proof.Pre.lean ====
/-
  What the precondition says of the two inputs: every logit is a real number, and every label, read signed, is below 19.
-/
import proofs.«410359_j30545807409282_3_alg».proof.Proof.Gen.Pre_finite_inputs
import proofs.«410359_j30545807409282_3_alg».proof.Proof.Spec
import Idealize.ShloMosaic.Lib.ReduceAll
import Idealize.ShloMosaic.Lib.Affine
import Idealize.ShloMosaic.Lib.StableHlo.Predicate

noncomputable section

namespace Cert.CE

open Idealize.ShloMosaic Idealize.ShloMosaic.ValueIdx
open scoped BigOperators

/-- A rank-0 array has one index. -/
instance : Subsingleton Cert.Pre_finite_inputs.S_.Idx := ⟨fun a b => funext fun d => d.elim0⟩

/-- An extended real whose absolute value is below +∞ is a real number. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- The precondition, decoded: it is the conjunction of two "for all entries" tests, the first that every logit's absolute
    value is below +∞, the second that every label is below 19 as a signed word. -/
theorem pre_facts [Cert.Pre_finite_inputs.Facts] (x : FVec Ideal Cert.Pre_finite_inputs.S8x19x512x512 .f32) (t : IVec Cert.Pre_finite_inputs.S8x512x512 32)
    (h : Cert.Pre_finite_inputs.fn (F := Ideal) x t = fun _ => 1#1) :
    (∀ i, ∃ r : ℝ, x i = (r : EReal)) ∧ (∀ p, (t p).toInt < 19) := by
  have h0 := congrFun h ix0
  dsimp only [Cert.Pre_finite_inputs.fn] at h0
  obtain ⟨h1, h2⟩ := IntOp.andi_eq_one.mp h0
  refine ⟨fun i => ?_, fun p => ?_⟩
  · -- the first test at entry i: |x i| < +∞
    have e := Host.reduce_andi_all _ _ _ _ ix0 h1 i
    have e' : Ideal.cmp .olt (max (x i) (-(x i))) (Ideal.ofBits .f32 0x7F800000#32) = 1#1 := e
    have hinf : Ideal.ofBits .f32 0x7F800000#32 = ⊤ := by simp [Ideal.ofBits, Ideal.ieee]
    rw [hinf] at e'
    have hlt : max (x i) (-(x i)) < ⊤ := by
      by_contra hn
      simp [Ideal.cmp, hn] at e'
    exact real_of_abs_lt_top _ hlt
  · -- the second test at entry p: t p < 19 as signed words
    have e := Host.reduce_andi_all _ _ _ _ ix0 h2 p
    have e' : IntOp.cmpi .slt (t p) (19#32) = 1#1 := e
    have h19 := IntOp.cmpi_slt.mp e'
    have : (19#32 : BitVec 32).toInt = 19 := by decide
    omega

end Cert.CE

end
-- ==== Proof.lean ====
/-
  The class-balanced segmentation loss: a Pallas kernel that streams the logits once, accumulating per image and per class the
  sum of the negative log-likelihoods of the pixels labelled with that class and their number, followed by a few host
  operations (class weights from the counts, two weighted sums, one quotient), against a reference that weights every pixel by
  its own class's weight and sums over the pixels.

  Both programs compute  (sum_c w(N_c) * S_c) / (sum_c w(N_c) * N_c),  where N_c is the number of counted pixels of class c,
  S_c the sum of their negative log-likelihoods and w(n) = 0.001 / (1 - 0.999 ^ n) for n > 0, else 0 (Proof/Spec.lean). The kernel
  computes S_c and N_c tile by tile (Proof/KPayload.lean, KAccum.lean) and the host finishes (KTail.lean); the reference's pixel
  form equals the class form because every pixel belongs to exactly one class, a law of real numbers that the finiteness of the
  logits makes available (Proof/RAlgebra.lean, RSoftmax.lean, RCounts.lean, RValue.lean). The precondition also asks every
  label to be below 19: above that the reference reads its log-probabilities out of range (Proof/Pre.lean decodes both facts).
-/
import proofs.«410359_j30545807409282_3_alg».proof.Defs
import proofs.«410359_j30545807409282_3_alg».proof.Proof.Gen.Kernel
import proofs.«410359_j30545807409282_3_alg».proof.Proof.Gen.Kernel.Frame
import proofs.«410359_j30545807409282_3_alg».proof.Proof.Gen.KernelIdeal
import proofs.«410359_j30545807409282_3_alg».proof.Proof.Gen.KernelIdeal.Frame
import proofs.«410359_j30545807409282_3_alg».proof.Proof.Gen.ReferenceIdeal
import proofs.«410359_j30545807409282_3_alg».proof.Proof.Gen.Pre_finite_inputs
import proofs.«410359_j30545807409282_3_alg».proof.Proof.RefRun
import proofs.«410359_j30545807409282_3_alg».proof.Proof.KTail
import proofs.«410359_j30545807409282_3_alg».proof.Proof.RValue
import proofs.«410359_j30545807409282_3_alg».proof.Proof.Pre
import Idealize.ShloMosaic.Adequacy
import Idealize.ShloMosaic.Init

noncomputable section

namespace Cert.Proof

open Idealize.ShloMosaic Idealize.ShloMosaic.ValueIdx Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.CE.ref_run (F := Ideal) m ρ)

/-- From arguments that agree, are real and carry labels below 19, both programs end at the loss of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (fun _ => Cert.CE.loss (A := 8) (H := 512)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.CE.kernel_run m ρ, ?_⟩
  refine (θ_run Cert.ReferenceIdeal.defs _ _).mono (fun _ h c => ⟨(h c).1.trans ?_, (h c).2⟩)
    (Cert.CE.ref_run (F := Ideal) m' ρ')
  have hp := @Cert.CE.pre_facts Cert.Pre_finite_inputs.Gen.facts _ _ (hpre c)
  rw [(hagree c).1, (hagree c).2]
  funext i
  rw [eq_ix0 i]
  exact Cert.CE.ref_value _ _ hp.1 hp.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
